-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v25_1)) (v1 : (c : Dev Cert.KernelIdeal.nD) → Buf (Elt Ideal) ((c.tc : Thread Cert.KernelIdeal.nD Cert.KernelIdeal.τ).loc Cert.KernelIdeal.main_v25_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_1) = v0 c
          ∧ r.2.mem ((c.tc : Thread Cert.KernelIdeal.nD Cert.KernelIdeal.τ).loc Cert.KernelIdeal.main_v25_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x500000 : Shape := ⟨2, ![2, 500000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S2x500000 : S_.BroadcastsInDim S2x500000 (![] : Fin 0 → Fin S2x500000.rank)
  reducesTo_S2x500000_S_d0_1 : S2x500000.ReducesTo [0, 1] S_

variable [Facts]

def fn_part5 {F : FTy → Type} [FloatOps F] (main_arg3 : IVec S2x500000 32) (main_arg19 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_c_36 : IVec S_ 32 := constantI S_ 32 0#32
  let main_v94 : IVec S2x500000 32 := broadcastInDim S2x500000 ![] bcast_S_S2x500000 main_c_36
  let main_v95 : IVec S2x500000 1 := cmpi .sge main_arg3 main_v94
  let main_c_37 : IVec S_ 1 := constantI S_ 1 1#1
  let main_v96 : IVec S_ 1 := (fun x v => Host.reduce IntOp.andi x v reducesTo_S2x500000_S_d0_1 h_S_) main_v95 main_c_37
  let main_v97 : IVec S_ 1 := andi main_v93 main_v96
  let main_c_38 : IVec S_ 32 := constantI S_ 32 50000#32
  let main_v98 : IVec S2x500000 32 := broadcastInDim S2x500000 ![] bcast_S_S2x500000 main_c_38
  let main_v99 : IVec S2x500000 1 := cmpi .slt main_arg3 main_v98
  let main_c_39 : IVec S_ 1 := constantI S_ 1 1#1
  let main_v100 : IVec S_ 1 := (fun x v => Host.reduce IntOp.andi x v reducesTo_S2x500000_S_d0_1 h_S_) main_v99 main_c_39
  let main_v101 : IVec S_ 1 := andi main_v97 main_v100
  main_v101

def fn_part4 {F : FTy → Type} [FloatOps F] (main_arg3 : IVec S2x500000 32) (main_arg15 : FVec F S1 .f32) (main_arg16 : FVec F S256x128 .f32) (main_arg17 : FVec F S128 .f32) (main_arg18 : FVec F S128x128 .f32) (main_arg19 : FVec F S128 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S256x128 .f32 := Host.absf main_arg16
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg3 main_arg19 main_v83 main_v84 main_cst_32

def fn_part3 {F : FTy → Type} [FloatOps F] (main_arg3 : IVec S2x500000 32) (main_arg12 : FVec F S128x128 .f32) (main_arg13 : FVec F S128 .f32) (main_arg14 : FVec F S128x1 .f32) (main_arg15 : FVec F S1 .f32) (main_arg16 : FVec F S256x128 .f32) (main_arg17 : FVec F S128 .f32) (main_arg18 : FVec F S128x128 .f32) (main_arg19 : FVec F S128 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg14
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg3 main_arg15 main_arg16 main_arg17 main_arg18 main_arg19 main_v63 main_v67

def fn_part2 {F : FTy → Type} [FloatOps F] (main_arg3 : IVec S2x500000 32) (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x1 .f32) (main_arg15 : FVec F S1 .f32) (main_arg16 : FVec F S256x128 .f32) (main_arg17 : FVec F S128 .f32) (main_arg18 : FVec F S128x128 .f32) (main_arg19 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg3 main_arg12 main_arg13 main_arg14 main_arg15 main_arg16 main_arg17 main_arg18 main_arg19 main_v48 main_v49 main_v50

def fn_part1 {F : FTy → Type} [FloatOps F] (main_arg3 : IVec S2x500000 32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x1 .f32) (main_arg15 : FVec F S1 .f32) (main_arg16 : FVec F S256x128 .f32) (main_arg17 : FVec F S128 .f32) (main_arg18 : FVec F S128x128 .f32) (main_arg19 : FVec F S128 .f32) (main_v13 : IVec S_ 1) (main_v16 : IVec S257x128 1) : IVec S_ 1 :=
  let main_c_5 : IVec S_ 1 := constantI S_ 1 1#1
  let main_v17 : IVec S_ 1 := (fun x v => Host.reduce IntOp.andi x v reducesTo_S257x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg8 main_arg9 main_arg10 main_arg11 main_arg12 main_arg13 main_arg14 main_arg15 main_arg16 main_arg17 main_arg18 main_arg19 main_v33

def fn {F : FTy → Type} [FloatOps F] (main_arg0 : FVec F S50000x128 .f32) (main_arg1 : FVec F S50000x3 .f32) (main_arg2 : FVec F S50000x3 .f32) (main_arg3 : IVec S2x500000 32) (main_arg4 : FVec F S257x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_arg12 : FVec F S128x128 .f32) (main_arg13 : FVec F S128 .f32) (main_arg14 : FVec F S128x1 .f32) (main_arg15 : FVec F S1 .f32) (main_arg16 : FVec F S256x128 .f32) (main_arg17 : FVec F S128 .f32) (main_arg18 : FVec F S128x128 .f32) (main_arg19 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S50000x3 .f32 := Host.absf main_arg2
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S257x128 .f32 := Host.absf main_arg4
  let main_cst_4 : FVec F S_ .f32 := constant S_ .f32 0x7F800000#32
  let main_v15 : FVec F S257x128 .f32 := broadcastInDim S257x128 ![] bcast_S_S257x128 main_cst_4
  let main_v16 : IVec S257x128 1 := cmpf .olt main_v14 main_v15
  fn_part1 (F := F) main_arg3 main_arg5 main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S50000x3 : Shape := ⟨2, ![50000, 3]⟩
abbrev S2x500000 : Shape := ⟨2, ![2, 500000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1x1 : Shape := ⟨2, ![1, 1]⟩
abbrev S500000x128 : Shape := ⟨2, ![500000, 128]⟩
abbrev S500000x3 : Shape := ⟨2, ![500000, 3]⟩
abbrev S500000x4 : Shape := ⟨2, ![500000, 4]⟩
abbrev S1x128 : Shape := ⟨2, ![1, 128]⟩
abbrev S4000x128 : Shape := ⟨2, ![4000, 128]⟩
abbrev S4000x4 : Shape := ⟨2, ![4000, 4]⟩
abbrev S4000x3 : Shape := ⟨2, ![4000, 3]⟩
abbrev S4000x1 : Shape := ⟨2, ![4000, 1]⟩
abbrev S4000x256 : Shape := ⟨2, ![4000, 256]⟩
abbrev S4000 : Shape := ⟨1, ![4000]⟩
abbrev S50000x9 : Shape := ⟨2, ![50000, 9]⟩
abbrev S2000x128 : Shape := ⟨2, ![2000, 128]⟩
abbrev S2000x9 : Shape := ⟨2, ![2000, 9]⟩
abbrev S2000x3 : Shape := ⟨2, ![2000, 3]⟩
abbrev S2000 : Shape := ⟨1, ![2000]⟩
abbrev S2000x1 : Shape := ⟨2, ![2000, 1]⟩
abbrev S2000x256 : Shape := ⟨2, ![2000, 256]⟩

abbrev nBuf : Space → Nat
  | .hbm => 139
  | .vmem => 37
  | .smem => 0
  | _ => 0

abbrev hbmTy0_0 (i : Nat) : BufTy := match i % 128 with
  | 0 => ⟨S50000x128, .f32⟩
  | 1 => ⟨S50000x3, .f32⟩
  | 2 => ⟨S50000x3, .f32⟩
  | 3 => ⟨S2x500000, .i32⟩
  | 4 => ⟨S257x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S128x128, .f32⟩
  | 13 => ⟨S128, .f32⟩
  | 14 => ⟨S128x1, .f32⟩
  | 15 => ⟨S1, .f32⟩
  | 16 => ⟨S256x128, .f32⟩
  | 17 => ⟨S128, .f32⟩
  | 18 => ⟨S128x128, .f32⟩
  | 19 => ⟨S128, .f32⟩
  | 20 => ⟨S1x500000, .i32⟩
  | 21 => ⟨S500000, .i32⟩
  | 22 => ⟨S1x500000, .i32⟩
  | 23 => ⟨S500000, .i32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S1, .i32⟩
  | 33 => ⟨S_, .i32⟩
  | 34 => ⟨S500000x1, .i32⟩
  | 35 => ⟨S500000x1, .i1⟩
  | 36 => ⟨S1x1, .i32⟩
  | 37 => ⟨S500000x1, .i32⟩
  | 38 => ⟨S500000x1, .i1⟩
  | 39 => ⟨S500000x1, .i1⟩
  | 40 => ⟨S_, .i1⟩
  | 41 => ⟨S500000, .i1⟩
  | 42 => ⟨S500000x128, .f32⟩
  | 43 => ⟨S500000x128, .i1⟩
  | 44 => ⟨S_, .f32⟩
  | 45 => ⟨S500000x128, .f32⟩
  | 46 => ⟨S500000x128, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S1, .i32⟩
  | 56 => ⟨S_, .i32⟩
  | 57 => ⟨S500000x1, .i32⟩
  | 58 => ⟨S500000x1, .i1⟩
  | 59 => ⟨S1x1, .i32⟩
  | 60 => ⟨S500000x1, .i32⟩
  | 61 => ⟨S500000x1, .i1⟩
  | 62 => ⟨S500000x1, .i1⟩
  | 63 => ⟨S_, .i1⟩
  | 64 => ⟨S500000, .i1⟩
  | 65 => ⟨S500000x128, .f32⟩
  | 66 => ⟨S500000x128, .i1⟩
  | 67 => ⟨S_, .f32⟩
  | 68 => ⟨S500000x128, .f32⟩
  | 69 => ⟨S500000x128, .f32⟩
  | 70 => ⟨S_, .i32⟩
  | 71 => ⟨S500000, .i32⟩
  | 72 => ⟨S500000, .i1⟩
  | 73 => ⟨S_, .i32⟩
  | 74 => ⟨S500000, .i32⟩
  | 75 => ⟨S500000, .i32⟩
  | 76 => ⟨S500000, .i32⟩
  | 77 => ⟨S500000x1, .i32⟩
  | 78 => ⟨S1, .i32⟩
  | 79 => ⟨S_, .i32⟩
  | 80 => ⟨S500000x1, .i32⟩
  | 81 => ⟨S500000x1, .i1⟩
  | 82 => ⟨S1x1, .i32⟩
  | 83 => ⟨S500000x1, .i32⟩
  | 84 => ⟨S500000x1, .i1⟩
  | 85 => ⟨S500000x1, .i1⟩
  | 86 => ⟨S_, .i1⟩
  | 87 => ⟨S500000, .i1⟩
  | 88 => ⟨S500000x3, .f32⟩
  | 89 => ⟨S500000x3, .i1⟩
  | 90 => ⟨S_, .f32⟩
  | 91 => ⟨S500000x3, .f32⟩
  | 92 => ⟨S500000x3, .f32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S1, .i32⟩
  | 102 => ⟨S_, .i32⟩
  | 103 => ⟨S500000x1, .i32⟩
  | 104 => ⟨S500000x1, .i1⟩
  | 105 => ⟨S1x1, .i32⟩
  | 106 => ⟨S500000x1, .i32⟩
  | 107 => ⟨S500000x1, .i1⟩
  | 108 => ⟨S500000x1, .i1⟩
  | 109 => ⟨S_, .i1⟩
  | 110 => ⟨S500000, .i1⟩
  | 111 => ⟨S500000x3, .f32⟩
  | 112 => ⟨S500000x3, .i1⟩
  | 113 => ⟨S_, .f32⟩
  | 114 => ⟨S500000x3, .f32⟩
  | 115 => ⟨S500000x3, .f32⟩
  | 116 => ⟨S500000x3, .f32⟩
  | 117 => ⟨S500000x3, .f32⟩
  | 118 => ⟨S_, .f32⟩
  | 119 => ⟨S500000, .f32⟩
  | 120 => ⟨S500000x1, .f32⟩
  | 121 => ⟨S500000x4, .f32⟩
  | 122 => ⟨S256x128, .f32⟩
  | 123 => ⟨S1x128, .f32⟩
  | 124 => ⟨S1x128, .f32⟩
  | 125 => ⟨S500000x128, .f32⟩
  | 126 => ⟨S500000x3, .f32⟩
  | 127 => ⟨S_, .f32⟩
  | _ => ⟨S50000x128, .f32⟩

abbrev hbmTy0_1 (i : Nat) : BufTy := match i % 128 with
  | 0 => ⟨S50000x3, .f32⟩
  | 1 => ⟨S500000x1, .i32⟩
  | 2 => ⟨S50000x3, .f32⟩
  | 3 => ⟨S_, .f32⟩
  | 4 => ⟨S50000x128, .f32⟩
  | 5 => ⟨S500000x1, .i32⟩
  | 6 => ⟨S50000x128, .f32⟩
  | 7 => ⟨S50000x9, .f32⟩
  | 8 => ⟨S1x128, .f32⟩
  | 9 => ⟨S50000x3, .f32⟩
  | 10 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x4, .f32⟩
  | .local _ .vmem, ⟨5, _⟩ => ⟨S4000x4, .f32⟩
  | .local _ .vmem, ⟨6, _⟩ => ⟨S256x128, .f32⟩
  | .local _ .vmem, ⟨7, _⟩ => ⟨S1x128, .f32⟩
  | .local _ .vmem, ⟨8, _⟩ => ⟨S128, .f32⟩
  | .local _ .vmem, ⟨9, _⟩ => ⟨S128x128, .f32⟩
  | .local _ .vmem, ⟨10, _⟩ => ⟨S128, .f32⟩
  | .local _ .vmem, ⟨11, _⟩ => ⟨S128x128, .f32⟩
  | .local _ .vmem, ⟨12, _⟩ => ⟨S128, .f32⟩
  | .local _ .vmem, ⟨13, _⟩ => ⟨S1x128, .f32⟩
  | .local _ .vmem, ⟨14, _⟩ => ⟨S1, .f32⟩
  | .local _ .vmem, ⟨15, _⟩ => ⟨S4000x128, .f32⟩
  | .local _ .vmem, ⟨16, _⟩ => ⟨S4000x128, .f32⟩
  | .local _ .vmem, ⟨17, _⟩ => ⟨S4000x3, .f32⟩
  | .local _ .vmem, ⟨18, _⟩ => ⟨S4000x3, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x9, .f32⟩
  | .local _ .vmem, ⟨24, _⟩ => ⟨S2000x9, .f32⟩
  | .local _ .vmem, ⟨25, _⟩ => ⟨S128x128, .f32⟩
  | .local _ .vmem, ⟨26, _⟩ => ⟨S128, .f32⟩
  | .local _ .vmem, ⟨27, _⟩ => ⟨S1x128, .f32⟩
  | .local _ .vmem, ⟨28, _⟩ => ⟨S1, .f32⟩
  | .local _ .vmem, ⟨29, _⟩ => ⟨S256x128, .f32⟩
  | .local _ .vmem, ⟨30, _⟩ => ⟨S128, .f32⟩
  | .local _ .vmem, ⟨31, _⟩ => ⟨S128x128, .f32⟩
  | .local _ .vmem, ⟨32, _⟩ => ⟨S128, .f32⟩
  | .local _ .vmem, ⟨33, _⟩ => ⟨S2000x3, .f32⟩
  | .local _ .vmem, ⟨34, _⟩ => ⟨S2000x3, .f32⟩
  | .local _ .vmem, ⟨35, _⟩ => ⟨S2000x128, .f32⟩
  | .local _ .vmem, ⟨36, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v4 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v5 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v6 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v7 : Ref sig .tc := ⟨.hbm, 115, rfl⟩
abbrev main_v8 : Ref sig .tc := ⟨.hbm, 116, rfl⟩
abbrev main_v9 : Ref sig .tc := ⟨.hbm, 117, rfl⟩
abbrev main_cst : Ref sig .tc := ⟨.hbm, 118, rfl⟩
abbrev main_v10 : Ref sig .tc := ⟨.hbm, 119, rfl⟩
abbrev main_v11 : Ref sig .tc := ⟨.hbm, 120, rfl⟩
abbrev main_v12 : Ref sig .tc := ⟨.hbm, 121, rfl⟩
abbrev main_v13 : Ref sig .tc := ⟨.hbm, 122, rfl⟩
abbrev main_v14 : Ref sig .tc := ⟨.hbm, 123, rfl⟩
abbrev main_v15 : Ref sig .tc := ⟨.hbm, 124, rfl⟩
abbrev main_v16_0 : Ref sig .tc := ⟨.hbm, 125, rfl⟩
abbrev main_v16_1 : Ref sig .tc := ⟨.hbm, 126, rfl⟩
abbrev main_cst_0 : Ref sig .tc := ⟨.hbm, 127, rfl⟩
abbrev main_v17 : Ref sig .tc := ⟨.hbm, 128, rfl⟩
abbrev main_v18 : Ref sig .tc := ⟨.hbm, 129, rfl⟩
abbrev main_v19 : Ref sig .tc := ⟨.hbm, 130, rfl⟩
abbrev main_cst_1 : Ref sig .tc := ⟨.hbm, 131, rfl⟩
abbrev main_v20 : Ref sig .tc := ⟨.hbm, 132, rfl⟩
abbrev main_v21 : Ref sig .tc := ⟨.hbm, 133, rfl⟩
abbrev main_v22 : Ref sig .tc := ⟨.hbm, 134, rfl⟩
abbrev main_v23 : Ref sig .tc := ⟨.hbm, 135, rfl⟩
abbrev main_v24 : Ref sig .tc := ⟨.hbm, 136, rfl⟩
abbrev main_v25_0 : Ref sig .tc := ⟨.hbm, 137, rfl⟩
abbrev main_v25_1 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg11_1 : Ref sig .tc := ⟨.vmem, 34, rfl⟩
abbrev cc1_stg12_0 : Ref sig .tc := ⟨.vmem, 35, rfl⟩
abbrev cc1_stg12_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem11_1 : DmaSem sig := 34
abbrev cc1_sem12_0 : DmaSem sig := 35
abbrev cc1_sem12_1 : DmaSem sig := 36

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4000x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x9 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x3 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S500000_S500000x3_0 : S500000.BroadcastsInDim S500000x3 (![0] : Fin 1 → Fin S500000x3.rank)
  bcast_S_S500000x3 : S_.BroadcastsInDim S500000x3 (![] : Fin 0 → Fin S500000x3.rank)
  reducesTo_S500000x3_S500000_d1 : S500000x3.ReducesTo [1] S500000
  concatenates_S500000x3_S500000x1_S500000x4_d1 : Shape.Concatenates [S500000x3, S500000x1] S500000x4 1
  slices_S257x128_S256x128_0_0 : S257x128.Slices ![0, 0] S256x128
  slices_S257x128_S1x128_256_0 : S257x128.Slices ![256, 0] S1x128
  transposes_S128x1_S1x128_1_0 : S128x1.Transposes [1, 0] S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  slices_S4000x4_o0_0_S4000x3 : S4000x4.Slices ![0, 0] S4000x3
  slices_S4000x4_o0_3_S4000x1 : S4000x4.Slices ![0, 3] S4000x1
  broadcasts_S4000x1_S4000x3 : S4000x1.Broadcasts S4000x3
  concatenates_S4000x128_S4000x128_S4000x256_d1 : Shape.Concatenates [S4000x128, S4000x128] S4000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128_S128_0 : ∀ a, (![0] : Fin 1 → Nat) a + S128.size a ≤ S128.size a
  h_S128 : 0 < S128.numel
  broadcasts_S4000x1_S4000x128 : S4000x1.Broadcasts S4000x128
  broadcasts_S1x128_S4000x128 : S1x128.Broadcasts S4000x128
  shapeCasts_S128_S1x128 : S128.ShapeCasts S1x128
  inb_S128x128_S128x128_0_0 : ∀ a, (![0, 0] : Fin 2 → Nat) a + S128x128.size a ≤ S128x128.size a
  h_S128x128 : 0 < S128x128.numel
  inb_S1_S1_0 : ∀ a, (![0] : Fin 1 → Nat) a + S1.size a ≤ S1.size a
  h_S1 : 0 < S1.numel
  reduces_S4000x128_S4000 : S4000x128.Reduces [1] S4000
  shapeCasts_S4000_S4000x1 : S4000.ShapeCasts S4000x1
  shapeCasts_S1_S1x1 : S1.ShapeCasts S1x1
  broadcasts_S1x1_S4000x1 : S1x1.Broadcasts S4000x1
  inb_S4000x3_S4000x3_0_0 : ∀ a, (![0, 0] : Fin 2 → Nat) a + S4000x3.size a ≤ S4000x3.size a
  h_S4000x3 : 0 < S4000x3.numel
  bcast_S_S50000x3 : S_.BroadcastsInDim S50000x3 (![] : Fin 0 → Fin S50000x3.rank)
  bcast_S_S50000x128 : S_.BroadcastsInDim S50000x128 (![] : Fin 0 → Fin S50000x128.rank)
  concatenates_S50000x3_S50000x3_S50000x3_S50000x9_d1 : Shape.Concatenates [S50000x3, S50000x3, S50000x3] S50000x9 1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x9_S2000x9_0_0 : ∀ a, (![0, 0] : Fin 2 → Nat) a + S2000x9.size a ≤ S2000x9.size a
  h_S2000x9 : 0 < S2000x9.numel
  shapeCasts_S2000x9_S2000x9 : S2000x9.ShapeCasts S2000x9
  slices_S2000x9_o0_0_S2000x3 : S2000x9.Slices ![0, 0] S2000x3
  slices_S2000x9_o0_3_S2000x3 : S2000x9.Slices ![0, 3] S2000x3
  slices_S2000x9_o0_6_S2000x3 : S2000x9.Slices ![0, 6] S2000x3
  broadcasts_S1x128_S2000x128 : S1x128.Broadcasts S2000x128
  reduces_S2000x128_S2000 : S2000x128.Reduces [1] S2000
  shapeCasts_S2000_S2000x1 : S2000.ShapeCasts S2000x1
  broadcasts_S1x1_S2000x1 : S1x1.Broadcasts S2000x1
  broadcasts_S2000x1_S2000x3 : S2000x1.Broadcasts S2000x3
  inb_S2000x3_S2000x3_0_0 : ∀ a, (![0, 0] : Fin 2 → Nat) a + S2000x3.size a ≤ S2000x3.size a
  h_S2000x3 : 0 < S2000x3.numel
  concatenates_S2000x128_S2000x128_S2000x256_d1 : Shape.Concatenates [S2000x128, S2000x128] S2000x256 1
  gather_S50000x128_S500000x1_S500000x128_1_0_n_n_0_1_1128_wf : GatherDims.WF S50000x128 S500000x1 S500000x128 [1] [0] [] [0] [] 1 ![1, 128]
  gather_S50000x3_S500000x1_S500000x3_1_0_n_n_0_1_13_wf : GatherDims.WF S50000x3 S500000x1 S500000x3 [1] [0] [] [0] [] 1 ![1, 3]
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  scatter_S50000x3_S500000x1_S500000x3_1_0_0_1_wf : ScatterDims.WF S50000x3 S500000x1 S500000x3 [1] [0] [0] 1
  scatter_S50000x128_S500000x1_S500000x128_1_0_0_1_wf : ScatterDims.WF S50000x128 S500000x1 S500000x128 [1] [0] [0] 1
  dot_S2000x128_S128x128_S2000x128_1_0_0_1_n_n_wf : DotDims.WF S2000x128 S128x128 S2000x128 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .f32 = 32 ∨ (Rect.block (s := S500000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x4.size a ≤ S500000x4.size a
  hwx0_2 : ∀ i : grid0.Coords, EltTy.bits .f32 = 32 ∨ (Rect.block (s := S500000x4) S4000x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1.size a ≤ S1.size a
  hwx0_11 : ∀ i : grid0.Coords, EltTy.bits .f32 = 32 ∨ (Rect.block (s := S1) S1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x128.size a ≤ S500000x128.size a
  hwx0_12 : ∀ i : grid0.Coords, EltTy.bits .f32 = 32 ∨ (Rect.block (s := S500000x128) S4000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x3.size a ≤ S500000x3.size a
  hwx0_13 : ∀ i : grid0.Coords, EltTy.bits .f32 = 32 ∨ (Rect.block (s := S500000x3) S4000x3.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x9.size a ≤ S50000x9.size a
  hwx1_2 : ∀ i : grid1.Coords, EltTy.bits .f32 = 32 ∨ (Rect.block (s := S50000x9) S2000x9.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S256x128.size a
  hwx1_7 : ∀ i : grid1.Coords, EltTy.bits .f32 = 32 ∨ (Rect.block (s := S256x128) S256x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x3.size a ≤ S50000x3.size a
  hwx1_11 : ∀ i : grid1.Coords, EltTy.bits .f32 = 32 ∨ (Rect.block (s := S50000x3) S2000x3.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x128.size a ≤ S50000x128.size a
  hwx1_12 : ∀ i : grid1.Coords, EltTy.bits .f32 = 32 ∨ (Rect.block (s := S50000x128) S2000x128.size (cc1_transform_12 i) (hinb1_12 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S50000x3_S500000x1_S500000x3_1_0_n_n_0_1_13 : GatherDims S50000x3 S500000x1 S500000x3 where
  offsetDims := [1]
  collapsedSliceDims := [0]
  operandBatchingDims := []
  startIndicesBatchingDims := []
  startIndexMap := [0]
  indexVectorDim := 1
  sliceSizes := ![1, 3]
  wf := gather_S50000x3_S500000x1_S500000x3_1_0_n_n_0_1_13_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x3_S500000x1_S500000x3_1_0_0_1 : ScatterDims S50000x3 S500000x1 S500000x3 where
  updateWindowDims := [1]
  insertedWindowDims := [0]
  scatterDimsToOperandDims := [0]
  indexVectorDim := 1
  wf := scatter_S50000x3_S500000x1_S500000x3_1_0_0_1_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16_0) S4000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v16_1) S4000x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2000x9.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S256x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg18) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg19) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v25_0) S2000x3.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v25_1) S2000x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x500000 : Shape := ⟨2, ![2, 500000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x3 : Shape := ⟨2, ![500000, 3]⟩
abbrev S500000x128 : Shape := ⟨2, ![500000, 128]⟩
abbrev S500000x257 : Shape := ⟨2, ![500000, 257]⟩
abbrev S1x128 : Shape := ⟨2, ![1, 128]⟩
abbrev S1x1 : Shape := ⟨2, ![1, 1]⟩
abbrev S50000x1 : Shape := ⟨2, ![50000, 1]⟩
abbrev S50000x256 : Shape := ⟨2, ![50000, 256]⟩

abbrev nBuf : Space → Nat
  | .hbm => 164
  | .vmem => 0
  | .smem => 0
  | _ => 0

abbrev hbmTy0_0 (i : Nat) : BufTy := match i % 128 with
  | 0 => ⟨S50000x128, .f32⟩
  | 1 => ⟨S50000x3, .f32⟩
  | 2 => ⟨S50000x3, .f32⟩
  | 3 => ⟨S2x500000, .i32⟩
  | 4 => ⟨S257x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S128x128, .f32⟩
  | 13 => ⟨S128, .f32⟩
  | 14 => ⟨S128x1, .f32⟩
  | 15 => ⟨S1, .f32⟩
  | 16 => ⟨S256x128, .f32⟩
  | 17 => ⟨S128, .f32⟩
  | 18 => ⟨S128x128, .f32⟩
  | 19 => ⟨S128, .f32⟩
  | 20 => ⟨S1x500000, .i32⟩
  | 21 => ⟨S500000, .i32⟩
  | 22 => ⟨S1x500000, .i32⟩
  | 23 => ⟨S500000, .i32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x3, .f32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000x3, .f32⟩
  | 42 => ⟨S500000x3, .f32⟩
  | 43 => ⟨S500000x3, .f32⟩
  | 44 => ⟨S_, .f32⟩
  | 45 => ⟨S500000, .f32⟩
  | 46 => ⟨S500000x1, .f32⟩
  | 47 => ⟨S500000x1, .f32⟩
  | 48 => ⟨S_, .f32⟩
  | 49 => ⟨S500000x1, .f32⟩
  | 50 => ⟨S500000x1, .f32⟩
  | 51 => ⟨S500000x3, .f32⟩
  | 52 => ⟨S500000x3, .f32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x128, .f32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x128, .f32⟩
  | 71 => ⟨S500000x257, .f32⟩
  | 72 => ⟨S500000x128, .f32⟩
  | 73 => ⟨S1x128, .f32⟩
  | 74 => ⟨S500000x128, .f32⟩
  | 75 => ⟨S500000x128, .f32⟩
  | 76 => ⟨S500000x128, .f32⟩
  | 77 => ⟨S500000x128, .f32⟩
  | 78 => ⟨S_, .f32⟩
  | 79 => ⟨S500000x128, .f32⟩
  | 80 => ⟨S500000x128, .f32⟩
  | 81 => ⟨S_, .f32⟩
  | 82 => ⟨S500000x128, .f32⟩
  | 83 => ⟨S500000x128, .f32⟩
  | 84 => ⟨S500000x128, .f32⟩
  | 85 => ⟨S500000x128, .f32⟩
  | 86 => ⟨S1x128, .f32⟩
  | 87 => ⟨S500000x128, .f32⟩
  | 88 => ⟨S500000x128, .f32⟩
  | 89 => ⟨S500000x128, .f32⟩
  | 90 => ⟨S500000x128, .f32⟩
  | 91 => ⟨S_, .f32⟩
  | 92 => ⟨S500000x128, .f32⟩
  | 93 => ⟨S500000x128, .f32⟩
  | 94 => ⟨S_, .f32⟩
  | 95 => ⟨S500000x128, .f32⟩
  | 96 => ⟨S500000x128, .f32⟩
  | 97 => ⟨S500000x128, .f32⟩
  | 98 => ⟨S500000x128, .f32⟩
  | 99 => ⟨S1x128, .f32⟩
  | 100 => ⟨S500000x128, .f32⟩
  | 101 => ⟨S500000x128, .f32⟩
  | 102 => ⟨S500000x128, .f32⟩
  | 103 => ⟨S500000x128, .f32⟩
  | 104 => ⟨S_, .f32⟩
  | 105 => ⟨S500000x128, .f32⟩
  | 106 => ⟨S500000x128, .f32⟩
  | 107 => ⟨S_, .f32⟩
  | 108 => ⟨S500000x128, .f32⟩
  | 109 => ⟨S500000x128, .f32⟩
  | 110 => ⟨S500000x128, .f32⟩
  | 111 => ⟨S500000x1, .f32⟩
  | 112 => ⟨S1x1, .f32⟩
  | 113 => ⟨S500000x1, .f32⟩
  | 114 => ⟨S500000x1, .f32⟩
  | 115 => ⟨S500000x3, .f32⟩
  | 116 => ⟨S500000x3, .f32⟩
  | 117 => ⟨S_, .f32⟩
  | 118 => ⟨S50000x3, .f32⟩
  | 119 => ⟨S500000x1, .i32⟩
  | 120 => ⟨S50000x3, .f32⟩
  | 121 => ⟨S50000x128, .f32⟩
  | 122 => ⟨S1x128, .f32⟩
  | 123 => ⟨S50000x128, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x128, .f32⟩
  | 6 => ⟨S50000x1, .f32⟩
  | 7 => ⟨S1x1, .f32⟩
  | 8 => ⟨S50000x1, .f32⟩
  | 9 => ⟨S50000x1, .f32⟩
  | 10 => ⟨S50000x3, .f32⟩
  | 11 => ⟨S50000x3, .f32⟩
  | 12 => ⟨S50000x3, .f32⟩
  | 13 => ⟨S50000x3, .f32⟩
  | 14 => ⟨S_, .f32⟩
  | 15 => ⟨S50000x128, .f32⟩
  | 16 => ⟨S500000x1, .i32⟩
  | 17 => ⟨S50000x128, .f32⟩
  | 18 => ⟨S50000x256, .f32⟩
  | 19 => ⟨S50000x128, .f32⟩
  | 20 => ⟨S1x128, .f32⟩
  | 21 => ⟨S50000x128, .f32⟩
  | 22 => ⟨S50000x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_6 : Ref sig .tc := ⟨.hbm, 62, rfl⟩
abbrev main_v34 : Ref sig .tc := ⟨.hbm, 63, rfl⟩
abbrev main_v35 : Ref sig .tc := ⟨.hbm, 64, rfl⟩
abbrev main_c_7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_call2_v0 : Ref sig .tc := ⟨.hbm, 102, rfl⟩
abbrev main_call2_v1 : Ref sig .tc := ⟨.hbm, 103, rfl⟩
abbrev main_call2_cst : Ref sig .tc := ⟨.hbm, 104, rfl⟩
abbrev main_call2_v2 : Ref sig .tc := ⟨.hbm, 105, rfl⟩
abbrev main_call2_v3 : Ref sig .tc := ⟨.hbm, 106, rfl⟩
abbrev main_call2_cst_0 : Ref sig .tc := ⟨.hbm, 107, rfl⟩
abbrev main_call2_v4 : Ref sig .tc := ⟨.hbm, 108, rfl⟩
abbrev main_call2_v5 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_cst_8 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_call3_v0 : Ref sig .tc := ⟨.hbm, 125, rfl⟩
abbrev main_call3_v1 : Ref sig .tc := ⟨.hbm, 126, rfl⟩
abbrev main_call3_cst : Ref sig .tc := ⟨.hbm, 127, rfl⟩
abbrev main_call3_v2 : Ref sig .tc := ⟨.hbm, 128, rfl⟩
abbrev main_call3_v3 : Ref sig .tc := ⟨.hbm, 129, rfl⟩
abbrev main_call3_cst_0 : Ref sig .tc := ⟨.hbm, 130, rfl⟩
abbrev main_call3_v4 : Ref sig .tc := ⟨.hbm, 131, rfl⟩
abbrev main_call3_v5 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_cst_9 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_call4_v0 : Ref sig .tc := ⟨.hbm, 151, rfl⟩
abbrev main_call4_v1 : Ref sig .tc := ⟨.hbm, 152, rfl⟩
abbrev main_call4_cst : Ref sig .tc := ⟨.hbm, 153, rfl⟩
abbrev main_call4_v2 : Ref sig .tc := ⟨.hbm, 154, rfl⟩
abbrev main_call4_v3 : Ref sig .tc := ⟨.hbm, 155, rfl⟩
abbrev main_call4_cst_0 : Ref sig .tc := ⟨.hbm, 156, rfl⟩
abbrev main_call4_v4 : Ref sig .tc := ⟨.hbm, 157, rfl⟩
abbrev main_call4_v5 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  reducesTo_S500000x3_S500000_d1 : S500000x3.ReducesTo [1] S500000
  h_S_ : 0 < S_.numel
  bcast_S_S500000x1 : S_.BroadcastsInDim S500000x1 (![] : Fin 0 → Fin S500000x1.rank)
  bcast_S500000x1_S500000x3_0_1 : S500000x1.BroadcastsInDim S500000x3 (![0, 1] : Fin 2 → Fin S500000x3.rank)
  concatenates_S500000x128_S500000x128_S500000x1_S500000x257_d1 : Shape.Concatenates [S500000x128, S500000x128, S500000x1] S500000x257 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S50000x3 : S_.BroadcastsInDim S50000x3 (![] : Fin 0 → Fin S50000x3.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x1_S50000x1_0_1 : S1x1.BroadcastsInDim S50000x1 (![0, 1] : Fin 2 → Fin S50000x1.rank)
  bcast_S50000x1_S50000x3_0_1 : S50000x1.BroadcastsInDim S50000x3 (![0, 1] : Fin 2 → Fin S50000x3.rank)
  concatenates_S50000x128_S50000x128_S50000x256_d1 : Shape.Concatenates [S50000x128, S50000x128] S50000x256 1
  gather_S50000x3_S500000x1_S500000x3_1_0_n_n_0_1_13_wf : GatherDims.WF S50000x3 S500000x1 S500000x3 [1] [0] [] [0] [] 1 ![1, 3]
  gather_S50000x128_S500000x1_S500000x128_1_0_n_n_0_1_1128_wf : GatherDims.WF S50000x128 S500000x1 S500000x128 [1] [0] [] [0] [] 1 ![1, 128]
  dot_S500000x257_S257x128_S500000x128_1_0_0_1_n_n_wf : DotDims.WF S500000x257 S257x128 S500000x128 [1] [0] [0] [1] [] []
  dot_S500000x128_S128x128_S500000x128_1_0_0_1_n_n_wf : DotDims.WF S500000x128 S128x128 S500000x128 [1] [0] [0] [1] [] []
  dot_S500000x128_S128x1_S500000x1_1_0_0_1_n_n_wf : DotDims.WF S500000x128 S128x1 S500000x1 [1] [0] [0] [1] [] []
  scatter_S50000x3_S500000x1_S500000x3_1_0_0_1_wf : ScatterDims.WF S50000x3 S500000x1 S500000x3 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []
  scatter_S50000x128_S500000x1_S500000x128_1_0_0_1_wf : ScatterDims.WF S50000x128 S500000x1 S500000x128 [1] [0] [0] 1
  dot_S50000x256_S256x128_S50000x128_1_0_0_1_n_n_wf : DotDims.WF S50000x256 S256x128 S50000x128 [1] [0] [0] [1] [] []

variable [Facts₀]

def gather_S50000x3_S500000x1_S500000x3_1_0_n_n_0_1_13 : GatherDims S50000x3 S500000x1 S500000x3 where
  offsetDims := [1]
  collapsedSliceDims := [0]
  operandBatchingDims := []
  startIndicesBatchingDims := []
  startIndexMap := [0]
  indexVectorDim := 1
  sliceSizes := ![1, 3]
  wf := gather_S50000x3_S500000x1_S500000x3_1_0_n_n_0_1_13_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x257_S257x128_S500000x128_1_0_0_1_n_n : DotDims S500000x257 S257x128 S500000x128 where
  lhsContracting := [1]
  rhsContracting := [0]
  lhsNonContracting := [0]
  rhsNonContracting := [1]
  lhsBatch := []
  rhsBatch := []
  wf := dot_S500000x257_S257x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def scatter_S50000x3_S500000x1_S500000x3_1_0_0_1 : ScatterDims S50000x3 S500000x1 S500000x3 where
  updateWindowDims := [1]
  insertedWindowDims := [0]
  scatterDimsToOperandDims := [0]
  indexVectorDim := 1
  wf := scatter_S50000x3_S500000x1_S500000x3_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.WEdgeBody.lean ====
/-
  The edge kernel's body (the first pallas_call: one tile of 4000 edges per grid point). From its twelve input blocks held
  whole — the two gathered feature tiles, the packed geometry tile [diff | rad], and the nine weight and bias blocks — it
  stores two whole blocks: the message tile m_ij (a function of the first eight inputs) and the weighted direction tile
  diff / (sqrt rad + eps) * weight (a function of all twelve). This module names those two functions and proves the
  body's triple: the inputs are handed back unchanged and each output buffer holds its function of the inputs.
-/
import proofs.«413287_j91122026152067_3_alg».proof.Proof.Gen.Kernel.Launch
import proofs.«413287_j91122026152067_3_alg».proof.Proof.Gen.Kernel.Skeleton
import proofs.«413287_j91122026152067_3_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The message tile the body stores into its first output buffer: the two-layer edge network on [h_r | h_c | rad]. -/
def edgeM (x0 x1 : Vec F S4000x128 .f32) (x2 : Vec F S4000x4 .f32) (x3 : Vec F S256x128 .f32) (x4 : Vec F S1x128 .f32)
    (x5 : Vec F S128 .f32) (x6 : Vec F S128x128 .f32) (x7 : Vec F S128 .f32) : Vec F S4000x128 .f32 :=
  k0_pay5 x0 x1 x2 x3 x4 x5 x6 x7

/-- The weighted direction tile the body stores into its second output buffer: the normalised difference times the
    per-edge scalar weight the coordinate network gives the message. -/
def edgeW (x0 x1 : Vec F S4000x128 .f32) (x2 : Vec F S4000x4 .f32) (x3 : Vec F S256x128 .f32) (x4 : Vec F S1x128 .f32)
    (x5 : Vec F S128 .f32) (x6 : Vec F S128x128 .f32) (x7 : Vec F S128 .f32) (x8 : Vec F S128x128 .f32) (x9 : Vec F S128 .f32)
    (x10 : Vec F S1x128 .f32) (x11 : Vec F S1 .f32) : Vec F S4000x3 .f32 :=
  k0_pay1 (k0_pay4 x2) (k0_pay5 x0 x1 x2 x3 x4 x5 x6 x7) x8 x9 x10 x11

/-- The two functions as the program's own payloads (by definition). -/
theorem edgeM_eq (x0 x1 : Vec F S4000x128 .f32) (x2 : Vec F S4000x4 .f32) (x3 : Vec F S256x128 .f32) (x4 : Vec F S1x128 .f32)
    (x5 : Vec F S128 .f32) (x6 : Vec F S128x128 .f32) (x7 : Vec F S128 .f32) :
    edgeM x0 x1 x2 x3 x4 x5 x6 x7 = k0_pay5 x0 x1 x2 x3 x4 x5 x6 x7 := rfl

theorem edgeW_eq (x0 x1 : Vec F S4000x128 .f32) (x2 : Vec F S4000x4 .f32) (x3 : Vec F S256x128 .f32) (x4 : Vec F S1x128 .f32)
    (x5 : Vec F S128 .f32) (x6 : Vec F S128x128 .f32) (x7 : Vec F S128 .f32) (x8 : Vec F S128x128 .f32) (x9 : Vec F S128 .f32)
    (x10 : Vec F S1x128 .f32) (x11 : Vec F S1 .f32) :
    edgeW x0 x1 x2 x3 x4 x5 x6 x7 x8 x9 x10 x11
      = k0_pay1 (k0_pay4 x2) (k0_pay5 x0 x1 x2 x3 x4 x5 x6 x7) x8 x9 x10 x11 := rfl

/-- The offsets of a whole-block rectangle are zero, at rank two and at rank one. -/
theorem edge_zero2 : (![0, 0] : Fin 2 → Nat) = fun _ => 0 := funext fun a => by fin_cases a <;> rfl
theorem edge_zero1 : (![0] : Fin 1 → Nat) = fun _ => 0 := funext fun a => by fin_cases a; rfl

/-- The whole-block rectangles of the two output buffers. -/
abbrev edgeRectM : Rect S4000x128 := Rect.unit (s := S4000x128) ![0, 0] S4000x128.size inb_S4000x128_S4000x128_0_0
abbrev edgeRectW : Rect S4000x3 := Rect.unit (s := S4000x3) ![0, 0] S4000x3.size inb_S4000x3_S4000x3_0_0

/-- One store through the whole-block rectangle covers the buffer. -/
theorem edgeCoverM (p : Vec F S4000x128 .f32) (y : S4000x128.Idx) :
    ∃ pc ∈ ([⟨edgeRectM, p⟩] : List (View.Piece (Elt F) S4000x128 .f32)), y ∈ pc.1.set :=
  ⟨_, List.mem_singleton_self _, View.mem_set_unit_zero (S := S4000x128) edge_zero2 inb_S4000x128_S4000x128_0_0 y⟩

theorem edgeCoverW (p : Vec F S4000x3 .f32) (y : S4000x3.Idx) :
    ∃ pc ∈ ([⟨edgeRectW, p⟩] : List (View.Piece (Elt F) S4000x3 .f32)), y ∈ pc.1.set :=
  ⟨_, List.mem_singleton_self _, View.mem_set_unit_zero (S := S4000x3) edge_zero2 inb_S4000x3_S4000x3_0_0 y⟩

set_option maxHeartbeats 1000000 in
/-- The body on whole staging memrefs: inputs at their read contents, outputs at anything; it returns with the inputs
    as they were and the outputs at `edgeM` and `edgeW` of the inputs. Each load reads a whole block through the rectangle
    at zero offsets, so it reads the contents; each output is stored once through such a rectangle, which covers the
    buffer, so the buffer reads back as the stored payload. -/
theorem sound_kernel0 (c : Dev nD) (E : Set ℕ) (i : grid0.Coords)
    (a1 : Memref sig .tc .vmem S4000x128 .f32) (h1 : a1.IsWhole) (a2 : Memref sig .tc .vmem S4000x128 .f32) (h2 : a2.IsWhole)
    (a3 : Memref sig .tc .vmem S4000x4 .f32) (h3 : a3.IsWhole) (a4 : Memref sig .tc .vmem S256x128 .f32) (h4 : a4.IsWhole)
    (a5 : Memref sig .tc .vmem S1x128 .f32) (h5 : a5.IsWhole) (a6 : Memref sig .tc .vmem S128 .f32) (h6 : a6.IsWhole)
    (a7 : Memref sig .tc .vmem S128x128 .f32) (h7 : a7.IsWhole) (a8 : Memref sig .tc .vmem S128 .f32) (h8 : a8.IsWhole)
    (a9 : Memref sig .tc .vmem S128x128 .f32) (h9 : a9.IsWhole) (a10 : Memref sig .tc .vmem S128 .f32) (h10 : a10.IsWhole)
    (a11 : Memref sig .tc .vmem S1x128 .f32) (h11 : a11.IsWhole) (a12 : Memref sig .tc .vmem S1 .f32) (h12 : a12.IsWhole)
    (a13 : Memref sig .tc .vmem S4000x128 .f32) (h13 : a13.IsWhole) (a14 : Memref sig .tc .vmem S4000x3 .f32) (h14 : a14.IsWhole)
    (x0 x1 : Vec F S4000x128 .f32) (x2 : Vec F S4000x4 .f32) (x3 : Vec F S256x128 .f32) (x4 : Vec F S1x128 .f32)
    (x5 : Vec F S128 .f32) (x6 : Vec F S128x128 .f32) (x7 : Vec F S128 .f32) (x8 : Vec F S128x128 .f32) (x9 : Vec F S128 .f32)
    (x10 : Vec F S1x128 .f32) (x11 : Vec F S1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ owns (c : Thread nD τ) a10 fullShare x9 ∗ owns (c : Thread nD τ) a11 fullShare x10 ∗ owns (c : Thread nD τ) a12 fullShare x11
        ∗ (∃ d, owns (c : Thread nD τ) a13 fullShare d) ∗ (∃ d, owns (c : Thread nD τ) a14 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7 ∗ owns (c : Thread nD τ) a9 fullShare x8
            ∗ owns (c : Thread nD τ) a10 fullShare x9 ∗ owns (c : Thread nD τ) a11 fullShare x10 ∗ owns (c : Thread nD τ) a12 fullShare x11
            ∗ owns (c : Thread nD τ) a13 fullShare (edgeM x0 x1 x2 x3 x4 x5 x6 x7)
            ∗ owns (c : Thread nD τ) a14 fullShare (edgeW x0 x1 x2 x3 x4 x5 x6 x7 x8 x9 x10 x11)) -∗ K ⟨⟩))
      ⊢ wp frame (wpE (defs₀ (F := F)) Variants.none c none) E
          (cc0__edge_kernel_body i a1 h1 a2 h2 a3 h3 a4 h4 a5 h5 a6 h6 a7 h7 a8 h8 a9 h9 a10 h10 a11 h11 a12 h12 a13 h13 a14 h14) K := by
  simp only [cc0__edge_kernel_body_eq_skeleton]; unfold cc0__edge_kernel_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%d13, %f13, -, H13⟩, ⟨%d14, %f14, -, H14⟩, Hk⟩
  subst hf1 hf2 hf3 hf4 hf5 hf6 hf7 hf8 hf9 hf10 hf11 hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    rw [View.read_writes_eq_canon _ _ _ (edgeCoverM _),
      View.canon_unit_zero (S := S4000x128) edge_zero2]
    unfold edgeM
    simp only [View.readAt_eq_ld, View.ld_unit_zero (S := S4000x128) edge_zero2, View.ld_unit_zero (S := S4000x4) edge_zero2,
      View.ld_unit_zero (S := S256x128) edge_zero2, View.ld_unit_zero (S := S1x128) edge_zero2, View.ld_unit_zero (S := S128) edge_zero1,
      View.ld_unit_zero (S := S128x128) edge_zero2, View.ld_unit_zero (S := S1) edge_zero1]
  iexists _; isplitr
  swap; · iexact H14
  ipureintro
  rw [View.read_writes_eq_canon _ _ _ (edgeCoverW _),
    View.canon_unit_zero (S := S4000x3) edge_zero2]
  unfold edgeW
  simp only [View.readAt_eq_ld, View.ld_unit_zero (S := S4000x128) edge_zero2, View.ld_unit_zero (S := S4000x4) edge_zero2,
      View.ld_unit_zero (S := S256x128) edge_zero2, View.ld_unit_zero (S := S1x128) edge_zero2, View.ld_unit_zero (S := S128) edge_zero1,
      View.ld_unit_zero (S := S128x128) edge_zero2, View.ld_unit_zero (S := S1) edge_zero1]

end Cert.Kernel.Hand

end
-- ==== Proof.WRegion0.lean ====
/-
  The first pallas_call (the edge kernel, 125 grid points of 4000 edges) as a pipeline: each window's block at a grid
  point read off the array the region finds on entry, the pipeline's proof data (after the body at point t every input
  buffer still holds its block, the two output buffers hold the body's two functions of the input blocks), and the body
  obligation at every point from the body's triple.
-/
import proofs.«413287_j91122026152067_3_alg».proof.Proof.WEdgeBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the edge pipeline on core `c`: the arrays as found; after the body at point `t` each input's buffer
    at its block, the message buffer at `edgeM` and the direction buffer at `edgeW` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => edgeM (iblk0 V c 0 t) (iblk0 V c 1 t) (iblk0 V c 2 t) (iblk0 V c 3 t) (iblk0 V c 4 t) (iblk0 V c 5 t) (iblk0 V c 6 t) (iblk0 V c 7 t)
    | ⟨13, _⟩ => edgeW (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = edgeM (iblk0 V c 0 t) (iblk0 V c 1 t) (iblk0 V c 2 t) (iblk0 V c 3 t) (iblk0 V c 4 t) (iblk0 V c 5 t) (iblk0 V c 6 t) (iblk0 V c 7 t) := by dsimp only [dat0]
theorem after0_13 (c : Dev nD) (t : Fin cfg0.N) : (dat0 V c).after 13 t = edgeW (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

/-! Each input's current staging buffer holds its block at every point, fetched there or not: the tile windows (0, 1, 2)
    are fetched at every point; the weight windows (3 to 11) are fetched at point 0 only and their block index never moves. -/
theorem before0_0 (c : Dev nD) (t : Fin cfg0.N) (d) : (dat0 V c).before 0 t d = iblk0 V c 0 t := by
  -- the body leaves the block where it found it, and the window is uncut: what it leaves is the array's block
  have hkeep : ∀ s, (cfg0.win 0).cut (cfg0.grid.coords s) ((dat0 V c).after 0 s) = (dat0 V c).blockOf 0 s := fun s => by
    rw [after0_0]; unfold Dat.blockOf iblk0; rw [A_eq0]
  -- so the buffer holds what a fetch at this point would put there; for an uncut window that is the block
  rw [(dat0 V c).before_in_eq_fetched 0 rfl (fun _ => rfl) (fun _ _ _ => rfl) hkeep t d]
  unfold Dat.fetched Dat.blockOf iblk0; rw [A_eq0]; rfl
theorem before0_1 (c : Dev nD) (t : Fin cfg0.N) (d) : (dat0 V c).before 1 t d = iblk0 V c 1 t := by
  -- the body leaves the block where it found it, and the window is uncut: what it leaves is the array's block
  have hkeep : ∀ s, (cfg0.win 1).cut (cfg0.grid.coords s) ((dat0 V c).after 1 s) = (dat0 V c).blockOf 1 s := fun s => by
    rw [after0_1]; unfold Dat.blockOf iblk0; rw [A_eq0]
  -- so the buffer holds what a fetch at this point would put there; for an uncut window that is the block
  rw [(dat0 V c).before_in_eq_fetched 1 rfl (fun _ => rfl) (fun _ _ _ => rfl) hkeep t d]
  unfold Dat.fetched Dat.blockOf iblk0; rw [A_eq0]; rfl
theorem before0_2 (c : Dev nD) (t : Fin cfg0.N) (d) : (dat0 V c).before 2 t d = iblk0 V c 2 t := by
  -- the body leaves the block where it found it, and the window is uncut: what it leaves is the array's block
  have hkeep : ∀ s, (cfg0.win 2).cut (cfg0.grid.coords s) ((dat0 V c).after 2 s) = (dat0 V c).blockOf 2 s := fun s => by
    rw [after0_2]; unfold Dat.blockOf iblk0; rw [A_eq0]
  -- so the buffer holds what a fetch at this point would put there; for an uncut window that is the block
  rw [(dat0 V c).before_in_eq_fetched 2 rfl (fun _ => rfl) (fun _ _ _ => rfl) hkeep t d]
  unfold Dat.fetched Dat.blockOf iblk0; rw [A_eq0]; rfl
theorem before0_3 (c : Dev nD) (t : Fin cfg0.N) (d) : (dat0 V c).before 3 t d = iblk0 V c 3 t := by
  -- the body leaves the block where it found it, and the window is uncut: what it leaves is the array's block
  have hkeep : ∀ s, (cfg0.win 3).cut (cfg0.grid.coords s) ((dat0 V c).after 3 s) = (dat0 V c).blockOf 3 s := fun s => by
    rw [after0_3]; unfold Dat.blockOf iblk0; rw [A_eq0]
  -- so the buffer holds what a fetch at this point would put there; for an uncut window that is the block
  rw [(dat0 V c).before_in_eq_fetched 3 rfl (fun _ => rfl) (fun _ _ _ => rfl) hkeep t d]
  unfold Dat.fetched Dat.blockOf iblk0; rw [A_eq0]; rfl
theorem before0_4 (c : Dev nD) (t : Fin cfg0.N) (d) : (dat0 V c).before 4 t d = iblk0 V c 4 t := by
  -- the body leaves the block where it found it, and the window is uncut: what it leaves is the array's block
  have hkeep : ∀ s, (cfg0.win 4).cut (cfg0.grid.coords s) ((dat0 V c).after 4 s) = (dat0 V c).blockOf 4 s := fun s => by
    rw [after0_4]; unfold Dat.blockOf iblk0; rw [A_eq0]
  -- so the buffer holds what a fetch at this point would put there; for an uncut window that is the block
  rw [(dat0 V c).before_in_eq_fetched 4 rfl (fun _ => rfl) (fun _ _ _ => rfl) hkeep t d]
  unfold Dat.fetched Dat.blockOf iblk0; rw [A_eq0]; rfl
theorem before0_5 (c : Dev nD) (t : Fin cfg0.N) (d) : (dat0 V c).before 5 t d = iblk0 V c 5 t := by
  -- the body leaves the block where it found it, and the window is uncut: what it leaves is the array's block
  have hkeep : ∀ s, (cfg0.win 5).cut (cfg0.grid.coords s) ((dat0 V c).after 5 s) = (dat0 V c).blockOf 5 s := fun s => by
    rw [after0_5]; unfold Dat.blockOf iblk0; rw [A_eq0]
  -- so the buffer holds what a fetch at this point would put there; for an uncut window that is the block
  rw [(dat0 V c).before_in_eq_fetched 5 rfl (fun _ => rfl) (fun _ _ _ => rfl) hkeep t d]
  unfold Dat.fetched Dat.blockOf iblk0; rw [A_eq0]; rfl
theorem before0_6 (c : Dev nD) (t : Fin cfg0.N) (d) : (dat0 V c).before 6 t d = iblk0 V c 6 t := by
  -- the body leaves the block where it found it, and the window is uncut: what it leaves is the array's block
  have hkeep : ∀ s, (cfg0.win 6).cut (cfg0.grid.coords s) ((dat0 V c).after 6 s) = (dat0 V c).blockOf 6 s := fun s => by
    rw [after0_6]; unfold Dat.blockOf iblk0; rw [A_eq0]
  -- so the buffer holds what a fetch at this point would put there; for an uncut window that is the block
  rw [(dat0 V c).before_in_eq_fetched 6 rfl (fun _ => rfl) (fun _ _ _ => rfl) hkeep t d]
  unfold Dat.fetched Dat.blockOf iblk0; rw [A_eq0]; rfl
theorem before0_7 (c : Dev nD) (t : Fin cfg0.N) (d) : (dat0 V c).before 7 t d = iblk0 V c 7 t := by
  -- the body leaves the block where it found it, and the window is uncut: what it leaves is the array's block
  have hkeep : ∀ s, (cfg0.win 7).cut (cfg0.grid.coords s) ((dat0 V c).after 7 s) = (dat0 V c).blockOf 7 s := fun s => by
    rw [after0_7]; unfold Dat.blockOf iblk0; rw [A_eq0]
  -- so the buffer holds what a fetch at this point would put there; for an uncut window that is the block
  rw [(dat0 V c).before_in_eq_fetched 7 rfl (fun _ => rfl) (fun _ _ _ => rfl) hkeep t d]
  unfold Dat.fetched Dat.blockOf iblk0; rw [A_eq0]; rfl
theorem before0_8 (c : Dev nD) (t : Fin cfg0.N) (d) : (dat0 V c).before 8 t d = iblk0 V c 8 t := by
  -- the body leaves the block where it found it, and the window is uncut: what it leaves is the array's block
  have hkeep : ∀ s, (cfg0.win 8).cut (cfg0.grid.coords s) ((dat0 V c).after 8 s) = (dat0 V c).blockOf 8 s := fun s => by
    rw [after0_8]; unfold Dat.blockOf iblk0; rw [A_eq0]
  -- so the buffer holds what a fetch at this point would put there; for an uncut window that is the block
  rw [(dat0 V c).before_in_eq_fetched 8 rfl (fun _ => rfl) (fun _ _ _ => rfl) hkeep t d]
  unfold Dat.fetched Dat.blockOf iblk0; rw [A_eq0]; rfl
theorem before0_9 (c : Dev nD) (t : Fin cfg0.N) (d) : (dat0 V c).before 9 t d = iblk0 V c 9 t := by
  -- the body leaves the block where it found it, and the window is uncut: what it leaves is the array's block
  have hkeep : ∀ s, (cfg0.win 9).cut (cfg0.grid.coords s) ((dat0 V c).after 9 s) = (dat0 V c).blockOf 9 s := fun s => by
    rw [after0_9]; unfold Dat.blockOf iblk0; rw [A_eq0]
  -- so the buffer holds what a fetch at this point would put there; for an uncut window that is the block
  rw [(dat0 V c).before_in_eq_fetched 9 rfl (fun _ => rfl) (fun _ _ _ => rfl) hkeep t d]
  unfold Dat.fetched Dat.blockOf iblk0; rw [A_eq0]; rfl
theorem before0_10 (c : Dev nD) (t : Fin cfg0.N) (d) : (dat0 V c).before 10 t d = iblk0 V c 10 t := by
  -- the body leaves the block where it found it, and the window is uncut: what it leaves is the array's block
  have hkeep : ∀ s, (cfg0.win 10).cut (cfg0.grid.coords s) ((dat0 V c).after 10 s) = (dat0 V c).blockOf 10 s := fun s => by
    rw [after0_10]; unfold Dat.blockOf iblk0; rw [A_eq0]
  -- so the buffer holds what a fetch at this point would put there; for an uncut window that is the block
  rw [(dat0 V c).before_in_eq_fetched 10 rfl (fun _ => rfl) (fun _ _ _ => rfl) hkeep t d]
  unfold Dat.fetched Dat.blockOf iblk0; rw [A_eq0]; rfl
theorem before0_11 (c : Dev nD) (t : Fin cfg0.N) (d) : (dat0 V c).before 11 t d = iblk0 V c 11 t := by
  -- the body leaves the block where it found it, and the window is uncut: what it leaves is the array's block
  have hkeep : ∀ s, (cfg0.win 11).cut (cfg0.grid.coords s) ((dat0 V c).after 11 s) = (dat0 V c).blockOf 11 s := fun s => by
    rw [after0_11]; unfold Dat.blockOf iblk0; rw [A_eq0]
  -- so the buffer holds what a fetch at this point would put there; for an uncut window that is the block
  rw [(dat0 V c).before_in_eq_fetched 11 rfl (fun _ => rfl) (fun _ _ _ => rfl) hkeep t d]
  unfold Dat.fetched Dat.blockOf iblk0; rw [A_eq0]; rfl

/-! ## The body obligation, at a generic point -/

/-- What the pipeline hands the body at point `t`: the invariant, what the core owes, and each of the fourteen windows'
    current staging memrefs at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- What the body hands back: the same invariant and dues, and each staging memref at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

/-- The body at any point `t`. Each of the twelve input memrefs holds its array's block there (`before0_w`), whatever
    the two output memrefs hold; the body's triple at those twelve blocks returns the inputs unchanged, the message
    memref at `edgeM` and the direction memref at `edgeW` of the blocks, which is the proof data's `after`. The
    invariant and the dues do not depend on the point and are carried round the call. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  -- the inputs' contents before the body, and every window's after it, as blocks of the arrays
  simp only [before0_0, before0_1, before0_2, before0_3, before0_4, before0_5, before0_6, before0_7, before0_8, before0_9, before0_10, before0_11]
  rw [after0_0, after0_1, after0_2, after0_3, after0_4, after0_5, after0_6, after0_7, after0_8, after0_9, after0_10, after0_11, after0_12, after0_13]
  -- the invariant and the dues are the same at `t` and at its successor
  rw [show (dat0 V c).Φ t.succ = (dat0 V c).Φ t.castSucc from rfl,
    show (dat0 V c).owesAt () t.succ = (dat0 V c).owesAt () t.castSucc from rfl]
  iintro ⟨Inv, Due, ⟨%d0, B0⟩, ⟨%d1, B1⟩, ⟨%d2, B2⟩, ⟨%d3, B3⟩, ⟨%d4, B4⟩, ⟨%d5, B5⟩, ⟨%d6, B6⟩, ⟨%d7, B7⟩, ⟨%d8, B8⟩, ⟨%d9, B9⟩, ⟨%d10, B10⟩, ⟨%d11, B11⟩, ⟨%d12, B12⟩, ⟨%d13, B13⟩⟩
  iapply (sound_kernel0 c Set.univ _ _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexists _; iexact B12
  isplitl [B13]; · iexists _; iexact B13
  iintro ⟨B0, B1, B2, B3, B4, B5, B6, B7, B8, B9, B10, B11, B12, B13⟩
  isplitl [Inv]; · iexact Inv
  isplitl [Due]; · iexact Due
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  iexact B13

/-- The library's body obligation at every point: the input memrefs hold their blocks, so the body's triple applies;
    the invariant and the core's dues pass through unread. -/
theorem body_obligation0 (c : Dev nD) : BodyObligation (dat0 (F := F) V c) (defs₀ (F := F)) Variants.none () Set.univ := by
  intro t
  -- the star over the fourteen windows, spelled out on both sides
  rw [bigSep_W0, bigSep_W0]
  exact sound_body0 V c t

end Cert.Kernel.Hand

end
-- ==== Proof.WNodeBody.lean ====
/-
  The node kernel's body (the second pallas_call: one tile of 2000 nodes per grid point). From its eleven input blocks
  held whole — the feature tile h, the aggregated message tile m_i, the packed tile [vel | coord | coors_sum] and the
  eight weight and bias blocks — it stores two whole blocks: the new coordinates coord + coors_sum + vel * (velocity
  network of h), and the new features (the node network on [h | m_i]). This module names those two functions and proves
  the body's triple.
-/
import proofs.«413287_j91122026152067_3_alg».proof.Proof.Gen.Kernel.Launch
import proofs.«413287_j91122026152067_3_alg».proof.Proof.Gen.Kernel.Skeleton
import proofs.«413287_j91122026152067_3_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The coordinate tile the body stores into its first output buffer. -/
def nodeC (x0 : Vec F S2000x128 .f32) (x2 : Vec F S2000x9 .f32) (x3 : Vec F S128x128 .f32) (x4 : Vec F S128 .f32)
    (x5 : Vec F S1x128 .f32) (x6 : Vec F S1 .f32) : Vec F S2000x3 .f32 :=
  k1_pay2 x0 x2 x3 x4 x5 x6

/-- The feature tile the body stores into its second output buffer. -/
def nodeH (x0 x1 : Vec F S2000x128 .f32) (x7 : Vec F S256x128 .f32) (x8 : Vec F S128 .f32) (x9 : Vec F S128x128 .f32)
    (x10 : Vec F S128 .f32) : Vec F S2000x128 .f32 :=
  k1_pay1 (k1_pay3 x0 x1 x7 x8) x9 x10

/-- `nodeC` is the coordinate payload of the body's first store. -/
theorem nodeC_eq (x0 : Vec F S2000x128 .f32) (x2 : Vec F S2000x9 .f32) (x3 : Vec F S128x128 .f32) (x4 : Vec F S128 .f32)
    (x5 : Vec F S1x128 .f32) (x6 : Vec F S1 .f32) : nodeC x0 x2 x3 x4 x5 x6 = k1_pay2 x0 x2 x3 x4 x5 x6 := rfl

/-- `nodeH` is the feature payload of the body's second store, on the hidden layer the first part returns. -/
theorem nodeH_eq (x0 x1 : Vec F S2000x128 .f32) (x7 : Vec F S256x128 .f32) (x8 : Vec F S128 .f32) (x9 : Vec F S128x128 .f32)
    (x10 : Vec F S128 .f32) : nodeH x0 x1 x7 x8 x9 x10 = k1_pay1 (k1_pay3 x0 x1 x7 x8) x9 x10 := rfl

/-- The zero offsets of a rank-two rectangle are the constant function zero. -/
private theorem zero_off2 : (![0, 0] : Fin 2 → ℕ) = fun _ => 0 := by funext a; fin_cases a <;> rfl
/-- The same for a rank-one rectangle. -/
private theorem zero_off1 : (![0] : Fin 1 → ℕ) = fun _ => 0 := by funext a; fin_cases a; rfl

/-- A load through the rectangle that is the whole buffer at offset zero reads the buffer's contents. -/
private theorem readAt_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f :=
  View.ld_unit_zero h inb _

/-- One store through that rectangle leaves exactly its payload, whatever the buffer held before. -/
private theorem read_store_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

set_option maxHeartbeats 1000000 in
/-- The body on whole staging memrefs: inputs at their read contents, outputs at anything; it returns with the inputs
    as they were and the outputs at `nodeC` and `nodeH` of the inputs. -/
theorem sound_kernel1 (c : Dev nD) (E : Set ℕ) (i : grid1.Coords)
    (a1 : Memref sig .tc .vmem S2000x128 .f32) (h1 : a1.IsWhole) (a2 : Memref sig .tc .vmem S2000x128 .f32) (h2 : a2.IsWhole)
    (a3 : Memref sig .tc .vmem S2000x9 .f32) (h3 : a3.IsWhole) (a4 : Memref sig .tc .vmem S128x128 .f32) (h4 : a4.IsWhole)
    (a5 : Memref sig .tc .vmem S128 .f32) (h5 : a5.IsWhole) (a6 : Memref sig .tc .vmem S1x128 .f32) (h6 : a6.IsWhole)
    (a7 : Memref sig .tc .vmem S1 .f32) (h7 : a7.IsWhole) (a8 : Memref sig .tc .vmem S256x128 .f32) (h8 : a8.IsWhole)
    (a9 : Memref sig .tc .vmem S128 .f32) (h9 : a9.IsWhole) (a10 : Memref sig .tc .vmem S128x128 .f32) (h10 : a10.IsWhole)
    (a11 : Memref sig .tc .vmem S128 .f32) (h11 : a11.IsWhole) (a12 : Memref sig .tc .vmem S2000x3 .f32) (h12 : a12.IsWhole)
    (a13 : Memref sig .tc .vmem S2000x128 .f32) (h13 : a13.IsWhole)
    (x0 x1 : Vec F S2000x128 .f32) (x2 : Vec F S2000x9 .f32) (x3 : Vec F S128x128 .f32) (x4 : Vec F S128 .f32)
    (x5 : Vec F S1x128 .f32) (x6 : Vec F S1 .f32) (x7 : Vec F S256x128 .f32) (x8 : Vec F S128 .f32) (x9 : Vec F S128x128 .f32)
    (x10 : Vec F S128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ owns (c : Thread nD τ) a10 fullShare x9 ∗ owns (c : Thread nD τ) a11 fullShare x10
        ∗ (∃ d, owns (c : Thread nD τ) a12 fullShare d) ∗ (∃ d, owns (c : Thread nD τ) a13 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7 ∗ owns (c : Thread nD τ) a9 fullShare x8
            ∗ owns (c : Thread nD τ) a10 fullShare x9 ∗ owns (c : Thread nD τ) a11 fullShare x10
            ∗ owns (c : Thread nD τ) a12 fullShare (nodeC x0 x2 x3 x4 x5 x6)
            ∗ owns (c : Thread nD τ) a13 fullShare (nodeH x0 x1 x7 x8 x9 x10)) -∗ K ⟨⟩))
      ⊢ wp frame (wpE (defs₀ (F := F)) Variants.none c none) E
          (cc1__node_kernel_body i a1 h1 a2 h2 a3 h3 a4 h4 a5 h5 a6 h6 a7 h7 a8 h8 a9 h9 a10 h10 a11 h11 a12 h12 a13 h13) K := by
  simp only [cc1__node_kernel_body_eq_skeleton]; unfold cc1__node_kernel_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩,
    ⟨%d12, %f12, -, H12⟩, ⟨%d13, %f13, -, H13⟩, Hk⟩
  subst hf1 hf2 hf3 hf4 hf5 hf6 hf7 hf8 hf9 hf10 hf11
  -- run the eleven loads and two stores; each output buffer now holds one whole-buffer write over what it held
  sl_exec
  sl_step
  iapply Hk
  -- the inputs go back unchanged
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  -- the first output reads back as the one payload stored, every load having read its whole buffer
  isplitl [H12]
  · iexists _; isplitr
    swap; · iexact H12
    ipureintro
    refine (read_store_whole _ _ zero_off2 _ _).trans ?_
    simp only [readAt_whole (S := S2000x128) _ _ zero_off2, readAt_whole (S := S2000x9) _ _ zero_off2,
      readAt_whole (S := S128x128) _ _ zero_off2, readAt_whole (S := S256x128) _ _ zero_off2,
      readAt_whole (S := S1x128) _ _ zero_off2, readAt_whole (S := S128) _ _ zero_off1, readAt_whole (S := S1) _ _ zero_off1]
    rfl
  -- and so does the second
  iexists _; isplitr
  swap; · iexact H13
  ipureintro
  refine (read_store_whole _ _ zero_off2 _ _).trans ?_
  simp only [readAt_whole (S := S2000x128) _ _ zero_off2, readAt_whole (S := S2000x9) _ _ zero_off2,
      readAt_whole (S := S128x128) _ _ zero_off2, readAt_whole (S := S256x128) _ _ zero_off2,
      readAt_whole (S := S1x128) _ _ zero_off2, readAt_whole (S := S128) _ _ zero_off1, readAt_whole (S := S1) _ _ zero_off1]
  rfl

end Cert.Kernel.Hand

end
-- ==== Proof.WRegion1.lean ====
/-
  The second pallas_call (the node kernel, 25 grid points of 2000 nodes) as a pipeline: each window's block at a grid
  point read off the array the region finds on entry, the pipeline's proof data (after the body at point t every input
  buffer still holds its block, the two output buffers hold the body's two functions of the input blocks), and the body
  obligation at every point from the body's triple.
-/
import proofs.«413287_j91122026152067_3_alg».proof.Proof.WNodeBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the node pipeline on core `c`: the arrays as found; after the body at point `t` each input's buffer
    at its block, the coordinate buffer at `nodeC` and the feature buffer at `nodeH` of the input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => nodeC (iblk1 V c 0 t) (iblk1 V c 2 t) (iblk1 V c 3 t) (iblk1 V c 4 t) (iblk1 V c 5 t) (iblk1 V c 6 t)
    | ⟨12, _⟩ => nodeH (iblk1 V c 0 t) (iblk1 V c 1 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = nodeC (iblk1 V c 0 t) (iblk1 V c 2 t) (iblk1 V c 3 t) (iblk1 V c 4 t) (iblk1 V c 5 t) (iblk1 V c 6 t) := by dsimp only [dat1]
theorem after1_12 (c : Dev nD) (t : Fin cfg1.N) : (dat1 V c).after 12 t = nodeH (iblk1 V c 0 t) (iblk1 V c 1 t) (iblk1 V c 7 t) (iblk1 V c 8 t) (iblk1 V c 9 t) (iblk1 V c 10 t) := by dsimp only [dat1]

/-! Each input's current staging buffer holds its block at every point, fetched there or not: the tile windows (0, 1, 2)
    are fetched at every point; the weight windows (3 to 10) are fetched at point 0 only and their block index never moves. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)

/-! The body obligation at a generic point, its big star over the thirteen windows written window by window. -/

/-- What the body is handed at point `t`: the invariant, the core's dues, and each window's current staging buffer at
    what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- What it returns: the invariant and the dues at the next point, each buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The body at any point. The eleven input buffers hold their blocks (`before1_w`), the two output buffers hold
    anything, so the body's triple applies at the input blocks; it hands the inputs back unchanged and the outputs at
    `nodeC` and `nodeH` of the input blocks, which is what the proof data says the body leaves. The invariant and the
    dues do not depend on the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation at every point: the input memrefs hold their blocks, so the body's triple applies;
    the invariant and the core's dues pass through unread. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WKRun.lean ====
/-
  The whole run of @main: six stretches of host operations (the two index rows, four gathers with their range masks, the
  difference, the squared distance and the packed and sliced operands), the edge kernel, one more stretch (the two segment
  sums, the packed node tile, a transpose), the node kernel. The buffer contents at each boundary are a fold from the launch
  memory: a host stretch applies its operations; a pallas call leaves its windows' arrays at what its pipeline's write-backs
  give (an input window's array as entered) and every other buffer as entered. Every weakly fair execution terminates with
  every unscoped buffer at the last valuation of that fold; the frame claim and the two results are read off it.
-/
import proofs.«413287_j91122026152067_3_alg».proof.Proof.WRegion0
import proofs.«413287_j91122026152067_3_alg».proof.Proof.WRegion1
import proofs.«413287_j91122026152067_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers when the edge kernel is entered: the launch memory after the six host stretches. -/
abbrev W6 : Dev nD → Valuation τ sig (Elt F) := fun c => V6 m c
/-- The same read at the TensorCore's references (what the edge pipeline's proof data take). -/
abbrev E0 : (c : Dev nD) → (b : Ref sig .tc) → Buf (Elt F) ((c : Thread nD τ).loc b) := fun c b => W6 m c b
/-- At pallas call 0's exit: its arrays at what the pipeline leaves (the inputs as entered, each output's write-backs
    folded), every other buffer as entered. -/
def W7 (c : Dev nD) : Valuation τ sig (Elt F) :=
  Pipeline.withArrays spec0 c (W6 m c) fun w => (dat0 (E0 m) c).arrAt w cfg0.N
theorem W7_arr (c : Dev nD) (w : Fin cfg0.W) :
    W7 m c (Proc.devRef .tc (Pipeline.arrRef spec0 w)) = (dat0 (E0 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = W6 m c (Proc.devRef .tc b) := by
  unfold W7; exact Pipeline.withArrays_of_ne spec0 c _ _ b hb
/-- The same read at the TensorCore's references. -/
abbrev X7 : (c : Dev nD) → (b : Ref sig .tc) → Buf (Elt F) ((c : Thread nD τ).loc b) := fun c b => W7 m c b
theorem hF0 (c : Dev nD) (w : Fin cfg0.W) : (dat0 (E0 m) c).arrAt w cfg0.N = X7 m c (Pipeline.arrRef spec0 w) :=
  (W7_arr m c w).symm
theorem hrest0 (c : Dev nD) : ∀ b, b ∉ Finset.univ.image (Pipeline.arrRef spec0) → X7 m c b = E0 m c b :=
  fun b hb => W7_of_ne m c b fun w e => hb (Finset.mem_image.mpr ⟨w, Finset.mem_univ _, e⟩)

/-- After the stretch between the two kernels (the node kernel's entry). -/
abbrev W8 : Dev nD → Valuation τ sig (Elt F) := fun c => StableHlo.after hostOps1 (W7 m c)
abbrev E1 : (c : Dev nD) → (b : Ref sig .tc) → Buf (Elt F) ((c : Thread nD τ).loc b) := fun c b => W8 m c b
/-- At pallas call 1's exit: its arrays at what the pipeline leaves (the inputs as entered, each output's write-backs
    folded), every other buffer as entered. -/
def W9 (c : Dev nD) : Valuation τ sig (Elt F) :=
  Pipeline.withArrays spec1 c (W8 m c) fun w => (dat1 (E1 m) c).arrAt w cfg1.N
theorem W9_arr (c : Dev nD) (w : Fin cfg1.W) :
    W9 m c (Proc.devRef .tc (Pipeline.arrRef spec1 w)) = (dat1 (E1 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb
/-- The same read at the TensorCore's references. -/
abbrev X9 : (c : Dev nD) → (b : Ref sig .tc) → Buf (Elt F) ((c : Thread nD τ).loc b) := fun c b => W9 m c b
theorem hF1 (c : Dev nD) (w : Fin cfg1.W) : (dat1 (E1 m) c).arrAt w cfg1.N = X9 m c (Pipeline.arrRef spec1 w) :=
  (W9_arr m c w).symm
theorem hrest1 (c : Dev nD) : ∀ b, b ∉ Finset.univ.image (Pipeline.arrRef spec1) → X9 m c b = E1 m c b :=
  fun b hb => W9_of_ne m c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W9 m c) ∗ ∃ r, prngReg c r)

/-! ## The two pallas calls as segments -/

set_option backward.isDefEq.respectTransparency.types false in
/-- Pallas call 0 over the thread state: entered from every unscoped buffer at `W6`, left at `W7`. Its arrays
    are split out of the unscoped buffers on entry and put back at what the pipeline leaves on exit; the generator register
    goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X7 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at `W8`, left at `W9`. Its arrays
    are split out of the unscoped buffers on entry and put back at what the pipeline leaves on exit; the generator register
    goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X9 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .region (reg0 m),
    .host (hseg hostOps1 hostOps1_sub hostOps1_fresh (W7 m)),
    .region (reg1 m) ]
/-- @main IS the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every final
    state has every unscoped buffer of every core at the last valuation of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m c)
            ∗ ((∃ r, prngReg c r) ∗ ∃ W, owes (c : Thread nD τ) (0 : CellTallies nD τ sig Unit) W)) : sProp 𝕄)
          ⊢ iprop((StableHlo.held (c : Thread nD τ) (Pipeline.ucRefs τ sig) (W9 m c) ∗ ∃ r, prngReg c r)
            ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.Kernel.Hand

end
-- ==== Proof.WKResults.lean ====
/-
  What the run leaves: a buffer that no host stretch writes and that is not an output of either kernel ends holding its
  launch contents (a kernel's input window's array is handed back as entered; any other buffer bypasses the kernel), so
  the twenty arguments end as launched; the two results end at what the node kernel's pipeline leaves in its two output
  arrays.
-/
import proofs.«413287_j91122026152067_3_alg».proof.Proof.WKRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A buffer other than the edge kernel's two outputs holds after it what it held before. -/
theorem X7_keep (c : Dev nD) (r : Ref sig .tc) (h0 : r ≠ main_v16_0) (h1 : r ≠ main_v16_1) : X7 m c r = E0 m c r := by
  by_cases h : r ∈ Finset.univ.image (Pipeline.arrRef spec0)
  · obtain ⟨w, -, rfl⟩ := Finset.mem_image.mp h
    rw [← hF0 m c w]
    fin_cases w
    all_goals first
      | exact absurd rfl h0
      | exact absurd rfl h1
      | exact ((dat0 (E0 m) c).arrAt_in _ rfl _).trans (A_eq0 (E0 m) c _)
  · exact hrest0 m c r h

/-- A buffer other than the node kernel's two outputs holds after it what it held before. -/
theorem X9_keep (c : Dev nD) (r : Ref sig .tc) (h0 : r ≠ main_v25_0) (h1 : r ≠ main_v25_1) : X9 m c r = E1 m c r := by
  by_cases h : r ∈ Finset.univ.image (Pipeline.arrRef spec1)
  · obtain ⟨w, -, rfl⟩ := Finset.mem_image.mp h
    rw [← hF1 m c w]
    fin_cases w
    all_goals first
      | exact absurd rfl h0
      | exact absurd rfl h1
      | exact ((dat1 (E1 m) c).arrAt_in _ rfl _).trans (A_eq1 (E1 m) c _)
  · exact hrest1 m c r h

/-- A buffer none of the six stretches before the edge kernel writes holds its launch contents when that kernel is entered. -/
theorem W6_keep (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) : W6 m c (Proc.devRef .tc r) = m ((c : Thread nD τ).loc r) :=
  (V6_of m c r h5).trans <| (V5_of m c r h4).trans <| (V4_of m c r h3).trans <| (V3_of m c r h2).trans <| (V2_of m c r h1).trans <|
    (V1_of m c r h0).trans rfl

/-- A buffer no host stretch writes and the edge kernel does not output holds its launch contents when the node kernel is
    entered. -/
theorem W8_keep (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h7 : r ∉ hostOps1_W) (ho0 : r ≠ main_v16_0) (ho1 : r ≠ main_v16_1) :
    W8 m c (Proc.devRef .tc r) = m ((c : Thread nD τ).loc r) :=
  (StableHlo.after_of_writes_sub hostOps1 _ hostOps1_writes h7).trans <| (X7_keep m c r ho0 ho1).trans (W6_keep m c r h0 h1 h2 h3 h4 h5)

/-- A buffer no host stretch writes and no kernel outputs ends at its launch contents. -/
theorem W9_keep (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h7 : r ∉ hostOps1_W)
    (ho : r ∉ ([main_v16_0, main_v16_1, main_v25_0, main_v25_1] : List (Ref sig .tc))) :
    W9 m c (Proc.devRef .tc r) = m ((c : Thread nD τ).loc r) :=
  (X9_keep m c r (fun e => ho (by simp [e])) (fun e => ho (by simp [e]))).trans
    (W8_keep m c r h0 h1 h2 h3 h4 h5 h7 (fun e => ho (by simp [e])) (fun e => ho (by simp [e])))

/-- The frame: from any memory with zero counters every weakly fair execution terminates, nothing faulting, and the
    twenty argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_arg0 (by decide))).trans (W9_keep m c main_arg0 (by decide) (by decide) (by decide) (by decide) (by decide) (by decide) (by decide) (by decide)),
      (h c _ (mem_uc main_arg1 (by decide))).trans (W9_keep m c main_arg1 (by decide) (by decide) (by decide) (by decide) (by decide) (by decide) (by decide) (by decide)),
      (h c _ (mem_uc main_arg2 (by decide))).trans (W9_keep m c main_arg2 (by decide) (by decide) (by decide) (by decide) (by decide) (by decide) (by decide) (by decide)),
      (h c _ (mem_uc main_arg3 (by decide))).trans (W9_keep m c main_arg3 (by decide) (by decide) (by decide) (by decide) (by decide) (by decide) (by decide) (by decide)),
      (h c _ (mem_uc main_arg4 (by decide))).trans (W9_keep m c main_arg4 (by decide) (by decide) (by decide) (by decide) (by decide) (by decide) (by decide) (by decide)),
      (h c _ (mem_uc main_arg5 (by decide))).trans (W9_keep m c main_arg5 (by decide) (by decide) (by decide) (by decide) (by decide) (by decide) (by decide) (by decide)),
      (h c _ (mem_uc main_arg6 (by decide))).trans (W9_keep m c main_arg6 (by decide) (by decide) (by decide) (by decide) (by decide) (by decide) (by decide) (by decide)),
      (h c _ (mem_uc main_arg7 (by decide))).trans (W9_keep m c main_arg7 (by decide) (by decide) (by decide) (by decide) (by decide) (by decide) (by decide) (by decide)),
      (h c _ (mem_uc main_arg8 (by decide))).trans (W9_keep m c main_arg8 (by decide) (by decide) (by decide) (by decide) (by decide) (by decide) (by decide) (by decide)),
      (h c _ (mem_uc main_arg9 (by decide))).trans (W9_keep m c main_arg9 (by decide) (by decide) (by decide) (by decide) (by decide) (by decide) (by decide) (by decide)),
      (h c _ (mem_uc main_arg10 (by decide))).trans (W9_keep m c main_arg10 (by decide) (by decide) (by decide) (by decide) (by decide) (by decide) (by decide) (by decide)),
      (h c _ (mem_uc main_arg11 (by decide))).trans (W9_keep m c main_arg11 (by decide) (by decide) (by decide) (by decide) (by decide) (by decide) (by decide) (by decide)),
      (h c _ (mem_uc main_arg12 (by decide))).trans (W9_keep m c main_arg12 (by decide) (by decide) (by decide) (by decide) (by decide) (by decide) (by decide) (by decide)),
      (h c _ (mem_uc main_arg13 (by decide))).trans (W9_keep m c main_arg13 (by decide) (by decide) (by decide) (by decide) (by decide) (by decide) (by decide) (by decide)),
      (h c _ (mem_uc main_arg14 (by decide))).trans (W9_keep m c main_arg14 (by decide) (by decide) (by decide) (by decide) (by decide) (by decide) (by decide) (by decide)),
      (h c _ (mem_uc main_arg15 (by decide))).trans (W9_keep m c main_arg15 (by decide) (by decide) (by decide) (by decide) (by decide) (by decide) (by decide) (by decide)),
      (h c _ (mem_uc main_arg16 (by decide))).trans (W9_keep m c main_arg16 (by decide) (by decide) (by decide) (by decide) (by decide) (by decide) (by decide) (by decide)),
      (h c _ (mem_uc main_arg17 (by decide))).trans (W9_keep m c main_arg17 (by decide) (by decide) (by decide) (by decide) (by decide) (by decide) (by decide) (by decide)),
      (h c _ (mem_uc main_arg18 (by decide))).trans (W9_keep m c main_arg18 (by decide) (by decide) (by decide) (by decide) (by decide) (by decide) (by decide) (by decide)),
      (h c _ (mem_uc main_arg19 (by decide))).trans (W9_keep m c main_arg19 (by decide) (by decide) (by decide) (by decide) (by decide) (by decide) (by decide) (by decide))⟩) (run_all m ρ)

/-- The run with its results named: the feature result is what the node pipeline leaves in its second output array, the
    coordinate result what it leaves in its first; the arguments end as launched. -/
theorem run_val : θ_run defs (onTc (τ := τ) (main (F := F))) ⟨m, fun _ => 0, ρ⟩ (fun r => ∀ c : Dev nD,
      r.2.mem ((c.tc : Thread nD τ).loc main_v25_1) = (dat1 (E1 m) c).arrAt 12 cfg1.N
      ∧ r.2.mem ((c.tc : Thread nD τ).loc main_v25_0) = (dat1 (E1 m) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_v25_1 (by decide))).trans (W9_arr m c 12),
      (h c _ (mem_uc main_v25_0 (by decide))).trans (W9_arr m c 11),
      (h c _ (mem_uc main_arg0 (by decide))).trans (W9_keep m c main_arg0 (by decide) (by decide) (by decide) (by decide) (by decide) (by decide) (by decide) (by decide)),
      (h c _ (mem_uc main_arg1 (by decide))).trans (W9_keep m c main_arg1 (by decide) (by decide) (by decide) (by decide) (by decide) (by decide) (by decide) (by decide)),
      (h c _ (mem_uc main_arg2 (by decide))).trans (W9_keep m c main_arg2 (by decide) (by decide) (by decide) (by decide) (by decide) (by decide) (by decide) (by decide)),
      (h c _ (mem_uc main_arg3 (by decide))).trans (W9_keep m c main_arg3 (by decide) (by decide) (by decide) (by decide) (by decide) (by decide) (by decide) (by decide)),
      (h c _ (mem_uc main_arg4 (by decide))).trans (W9_keep m c main_arg4 (by decide) (by decide) (by decide) (by decide) (by decide) (by decide) (by decide) (by decide)),
      (h c _ (mem_uc main_arg5 (by decide))).trans (W9_keep m c main_arg5 (by decide) (by decide) (by decide) (by decide) (by decide) (by decide) (by decide) (by decide)),
      (h c _ (mem_uc main_arg6 (by decide))).trans (W9_keep m c main_arg6 (by decide) (by decide) (by decide) (by decide) (by decide) (by decide) (by decide) (by decide)),
      (h c _ (mem_uc main_arg7 (by decide))).trans (W9_keep m c main_arg7 (by decide) (by decide) (by decide) (by decide) (by decide) (by decide) (by decide) (by decide)),
      (h c _ (mem_uc main_arg8 (by decide))).trans (W9_keep m c main_arg8 (by decide) (by decide) (by decide) (by decide) (by decide) (by decide) (by decide) (by decide)),
      (h c _ (mem_uc main_arg9 (by decide))).trans (W9_keep m c main_arg9 (by decide) (by decide) (by decide) (by decide) (by decide) (by decide) (by decide) (by decide)),
      (h c _ (mem_uc main_arg10 (by decide))).trans (W9_keep m c main_arg10 (by decide) (by decide) (by decide) (by decide) (by decide) (by decide) (by decide) (by decide)),
      (h c _ (mem_uc main_arg11 (by decide))).trans (W9_keep m c main_arg11 (by decide) (by decide) (by decide) (by decide) (by decide) (by decide) (by decide) (by decide)),
      (h c _ (mem_uc main_arg12 (by decide))).trans (W9_keep m c main_arg12 (by decide) (by decide) (by decide) (by decide) (by decide) (by decide) (by decide) (by decide)),
      (h c _ (mem_uc main_arg13 (by decide))).trans (W9_keep m c main_arg13 (by decide) (by decide) (by decide) (by decide) (by decide) (by decide) (by decide) (by decide)),
      (h c _ (mem_uc main_arg14 (by decide))).trans (W9_keep m c main_arg14 (by decide) (by decide) (by decide) (by decide) (by decide) (by decide) (by decide) (by decide)),
      (h c _ (mem_uc main_arg15 (by decide))).trans (W9_keep m c main_arg15 (by decide) (by decide) (by decide) (by decide) (by decide) (by decide) (by decide) (by decide)),
      (h c _ (mem_uc main_arg16 (by decide))).trans (W9_keep m c main_arg16 (by decide) (by decide) (by decide) (by decide) (by decide) (by decide) (by decide) (by decide)),
      (h c _ (mem_uc main_arg17 (by decide))).trans (W9_keep m c main_arg17 (by decide) (by decide) (by decide) (by decide) (by decide) (by decide) (by decide) (by decide)),
      (h c _ (mem_uc main_arg18 (by decide))).trans (W9_keep m c main_arg18 (by decide) (by decide) (by decide) (by decide) (by decide) (by decide) (by decide) (by decide)),
      (h c _ (mem_uc main_arg19 (by decide))).trans (W9_keep m c main_arg19 (by decide) (by decide) (by decide) (by decide) (by decide) (by decide) (by decide) (by decide))⟩) (run_all m ρ)

end Cert.Kernel.Hand

end
-- ==== Proof.EdgeBody.lean ====
/-
  The edge kernel's body (the first pallas_call: one tile of 4000 edges per grid point). From its twelve input blocks held
  whole — the two gathered feature tiles, the packed geometry tile [diff | rad], and the nine weight and bias blocks — it
  stores two whole blocks: the message tile m_ij (a function of the first eight inputs) and the weighted direction tile
  diff / (sqrt rad + eps) * weight (a function of all twelve). This module names those two functions and proves the
  body's triple: the inputs are handed back unchanged and each output buffer holds its function of the inputs.
-/
import proofs.«413287_j91122026152067_3_alg».proof.Proof.Gen.KernelIdeal.Launch
import proofs.«413287_j91122026152067_3_alg».proof.Proof.Gen.KernelIdeal.Skeleton
import proofs.«413287_j91122026152067_3_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The message tile the body stores into its first output buffer: the two-layer edge network on [h_r | h_c | rad]. -/
def edgeM (x0 x1 : Vec F S4000x128 .f32) (x2 : Vec F S4000x4 .f32) (x3 : Vec F S256x128 .f32) (x4 : Vec F S1x128 .f32)
    (x5 : Vec F S128 .f32) (x6 : Vec F S128x128 .f32) (x7 : Vec F S128 .f32) : Vec F S4000x128 .f32 :=
  k0_pay5 x0 x1 x2 x3 x4 x5 x6 x7

/-- The weighted direction tile the body stores into its second output buffer: the normalised difference times the
    per-edge scalar weight the coordinate network gives the message. -/
def edgeW (x0 x1 : Vec F S4000x128 .f32) (x2 : Vec F S4000x4 .f32) (x3 : Vec F S256x128 .f32) (x4 : Vec F S1x128 .f32)
    (x5 : Vec F S128 .f32) (x6 : Vec F S128x128 .f32) (x7 : Vec F S128 .f32) (x8 : Vec F S128x128 .f32) (x9 : Vec F S128 .f32)
    (x10 : Vec F S1x128 .f32) (x11 : Vec F S1 .f32) : Vec F S4000x3 .f32 :=
  k0_pay1 (k0_pay4 x2) (k0_pay5 x0 x1 x2 x3 x4 x5 x6 x7) x8 x9 x10 x11

/-- The two functions as the program's own payloads (by definition). -/
theorem edgeM_eq (x0 x1 : Vec F S4000x128 .f32) (x2 : Vec F S4000x4 .f32) (x3 : Vec F S256x128 .f32) (x4 : Vec F S1x128 .f32)
    (x5 : Vec F S128 .f32) (x6 : Vec F S128x128 .f32) (x7 : Vec F S128 .f32) :
    edgeM x0 x1 x2 x3 x4 x5 x6 x7 = k0_pay5 x0 x1 x2 x3 x4 x5 x6 x7 := rfl

theorem edgeW_eq (x0 x1 : Vec F S4000x128 .f32) (x2 : Vec F S4000x4 .f32) (x3 : Vec F S256x128 .f32) (x4 : Vec F S1x128 .f32)
    (x5 : Vec F S128 .f32) (x6 : Vec F S128x128 .f32) (x7 : Vec F S128 .f32) (x8 : Vec F S128x128 .f32) (x9 : Vec F S128 .f32)
    (x10 : Vec F S1x128 .f32) (x11 : Vec F S1 .f32) :
    edgeW x0 x1 x2 x3 x4 x5 x6 x7 x8 x9 x10 x11
      = k0_pay1 (k0_pay4 x2) (k0_pay5 x0 x1 x2 x3 x4 x5 x6 x7) x8 x9 x10 x11 := rfl

/-- The offsets of a whole-block rectangle are zero, at rank two and at rank one. -/
theorem edge_zero2 : (![0, 0] : Fin 2 → Nat) = fun _ => 0 := funext fun a => by fin_cases a <;> rfl
theorem edge_zero1 : (![0] : Fin 1 → Nat) = fun _ => 0 := funext fun a => by fin_cases a; rfl

/-- The whole-block rectangles of the two output buffers. -/
abbrev edgeRectM : Rect S4000x128 := Rect.unit (s := S4000x128) ![0, 0] S4000x128.size inb_S4000x128_S4000x128_0_0
abbrev edgeRectW : Rect S4000x3 := Rect.unit (s := S4000x3) ![0, 0] S4000x3.size inb_S4000x3_S4000x3_0_0

/-- One store through the whole-block rectangle covers the buffer. -/
theorem edgeCoverM (p : Vec F S4000x128 .f32) (y : S4000x128.Idx) :
    ∃ pc ∈ ([⟨edgeRectM, p⟩] : List (View.Piece (Elt F) S4000x128 .f32)), y ∈ pc.1.set :=
  ⟨_, List.mem_singleton_self _, View.mem_set_unit_zero (S := S4000x128) edge_zero2 inb_S4000x128_S4000x128_0_0 y⟩

theorem edgeCoverW (p : Vec F S4000x3 .f32) (y : S4000x3.Idx) :
    ∃ pc ∈ ([⟨edgeRectW, p⟩] : List (View.Piece (Elt F) S4000x3 .f32)), y ∈ pc.1.set :=
  ⟨_, List.mem_singleton_self _, View.mem_set_unit_zero (S := S4000x3) edge_zero2 inb_S4000x3_S4000x3_0_0 y⟩

set_option maxHeartbeats 1000000 in
/-- The body on whole staging memrefs: inputs at their read contents, outputs at anything; it returns with the inputs
    as they were and the outputs at `edgeM` and `edgeW` of the inputs. Each load reads a whole block through the rectangle
    at zero offsets, so it reads the contents; each output is stored once through such a rectangle, which covers the
    buffer, so the buffer reads back as the stored payload. -/
theorem sound_kernel0 (c : Dev nD) (E : Set ℕ) (i : grid0.Coords)
    (a1 : Memref sig .tc .vmem S4000x128 .f32) (h1 : a1.IsWhole) (a2 : Memref sig .tc .vmem S4000x128 .f32) (h2 : a2.IsWhole)
    (a3 : Memref sig .tc .vmem S4000x4 .f32) (h3 : a3.IsWhole) (a4 : Memref sig .tc .vmem S256x128 .f32) (h4 : a4.IsWhole)
    (a5 : Memref sig .tc .vmem S1x128 .f32) (h5 : a5.IsWhole) (a6 : Memref sig .tc .vmem S128 .f32) (h6 : a6.IsWhole)
    (a7 : Memref sig .tc .vmem S128x128 .f32) (h7 : a7.IsWhole) (a8 : Memref sig .tc .vmem S128 .f32) (h8 : a8.IsWhole)
    (a9 : Memref sig .tc .vmem S128x128 .f32) (h9 : a9.IsWhole) (a10 : Memref sig .tc .vmem S128 .f32) (h10 : a10.IsWhole)
    (a11 : Memref sig .tc .vmem S1x128 .f32) (h11 : a11.IsWhole) (a12 : Memref sig .tc .vmem S1 .f32) (h12 : a12.IsWhole)
    (a13 : Memref sig .tc .vmem S4000x128 .f32) (h13 : a13.IsWhole) (a14 : Memref sig .tc .vmem S4000x3 .f32) (h14 : a14.IsWhole)
    (x0 x1 : Vec F S4000x128 .f32) (x2 : Vec F S4000x4 .f32) (x3 : Vec F S256x128 .f32) (x4 : Vec F S1x128 .f32)
    (x5 : Vec F S128 .f32) (x6 : Vec F S128x128 .f32) (x7 : Vec F S128 .f32) (x8 : Vec F S128x128 .f32) (x9 : Vec F S128 .f32)
    (x10 : Vec F S1x128 .f32) (x11 : Vec F S1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ owns (c : Thread nD τ) a10 fullShare x9 ∗ owns (c : Thread nD τ) a11 fullShare x10 ∗ owns (c : Thread nD τ) a12 fullShare x11
        ∗ (∃ d, owns (c : Thread nD τ) a13 fullShare d) ∗ (∃ d, owns (c : Thread nD τ) a14 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7 ∗ owns (c : Thread nD τ) a9 fullShare x8
            ∗ owns (c : Thread nD τ) a10 fullShare x9 ∗ owns (c : Thread nD τ) a11 fullShare x10 ∗ owns (c : Thread nD τ) a12 fullShare x11
            ∗ owns (c : Thread nD τ) a13 fullShare (edgeM x0 x1 x2 x3 x4 x5 x6 x7)
            ∗ owns (c : Thread nD τ) a14 fullShare (edgeW x0 x1 x2 x3 x4 x5 x6 x7 x8 x9 x10 x11)) -∗ K ⟨⟩))
      ⊢ wp frame (wpE (defs₀ (F := F)) Variants.none c none) E
          (cc0__edge_kernel_body i a1 h1 a2 h2 a3 h3 a4 h4 a5 h5 a6 h6 a7 h7 a8 h8 a9 h9 a10 h10 a11 h11 a12 h12 a13 h13 a14 h14) K := by
  simp only [cc0__edge_kernel_body_eq_skeleton]; unfold cc0__edge_kernel_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%d13, %f13, -, H13⟩, ⟨%d14, %f14, -, H14⟩, Hk⟩
  subst hf1 hf2 hf3 hf4 hf5 hf6 hf7 hf8 hf9 hf10 hf11 hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    rw [View.read_writes_eq_canon _ _ _ (edgeCoverM _),
      View.canon_unit_zero (S := S4000x128) edge_zero2]
    unfold edgeM
    simp only [View.readAt_eq_ld, View.ld_unit_zero (S := S4000x128) edge_zero2, View.ld_unit_zero (S := S4000x4) edge_zero2,
      View.ld_unit_zero (S := S256x128) edge_zero2, View.ld_unit_zero (S := S1x128) edge_zero2, View.ld_unit_zero (S := S128) edge_zero1,
      View.ld_unit_zero (S := S128x128) edge_zero2, View.ld_unit_zero (S := S1) edge_zero1]
  iexists _; isplitr
  swap; · iexact H14
  ipureintro
  rw [View.read_writes_eq_canon _ _ _ (edgeCoverW _),
    View.canon_unit_zero (S := S4000x3) edge_zero2]
  unfold edgeW
  simp only [View.readAt_eq_ld, View.ld_unit_zero (S := S4000x128) edge_zero2, View.ld_unit_zero (S := S4000x4) edge_zero2,
      View.ld_unit_zero (S := S256x128) edge_zero2, View.ld_unit_zero (S := S1x128) edge_zero2, View.ld_unit_zero (S := S128) edge_zero1,
      View.ld_unit_zero (S := S128x128) edge_zero2, View.ld_unit_zero (S := S1) edge_zero1]

end Cert.KernelIdeal.Hand

end
-- ==== Proof.Region0.lean ====
/-
  The first pallas_call (the edge kernel, 125 grid points of 4000 edges) as a pipeline: each window's block at a grid
  point read off the array the region finds on entry, the pipeline's proof data (after the body at point t every input
  buffer still holds its block, the two output buffers hold the body's two functions of the input blocks), and the body
  obligation at every point from the body's triple.
-/
import proofs.«413287_j91122026152067_3_alg».proof.Proof.EdgeBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the edge pipeline on core `c`: the arrays as found; after the body at point `t` each input's buffer
    at its block, the message buffer at `edgeM` and the direction buffer at `edgeW` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => edgeM (iblk0 V c 0 t) (iblk0 V c 1 t) (iblk0 V c 2 t) (iblk0 V c 3 t) (iblk0 V c 4 t) (iblk0 V c 5 t) (iblk0 V c 6 t) (iblk0 V c 7 t)
    | ⟨13, _⟩ => edgeW (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = edgeM (iblk0 V c 0 t) (iblk0 V c 1 t) (iblk0 V c 2 t) (iblk0 V c 3 t) (iblk0 V c 4 t) (iblk0 V c 5 t) (iblk0 V c 6 t) (iblk0 V c 7 t) := by dsimp only [dat0]
theorem after0_13 (c : Dev nD) (t : Fin cfg0.N) : (dat0 V c).after 13 t = edgeW (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

/-! Each input's current staging buffer holds its block at every point, fetched there or not: the tile windows (0, 1, 2)
    are fetched at every point; the weight windows (3 to 11) are fetched at point 0 only and their block index never moves. -/
theorem before0_0 (c : Dev nD) (t : Fin cfg0.N) (d) : (dat0 V c).before 0 t d = iblk0 V c 0 t := by
  -- the body leaves the block where it found it, and the window is uncut: what it leaves is the array's block
  have hkeep : ∀ s, (cfg0.win 0).cut (cfg0.grid.coords s) ((dat0 V c).after 0 s) = (dat0 V c).blockOf 0 s := fun s => by
    rw [after0_0]; unfold Dat.blockOf iblk0; rw [A_eq0]
  -- so the buffer holds what a fetch at this point would put there; for an uncut window that is the block
  rw [(dat0 V c).before_in_eq_fetched 0 rfl (fun _ => rfl) (fun _ _ _ => rfl) hkeep t d]
  unfold Dat.fetched Dat.blockOf iblk0; rw [A_eq0]; rfl
theorem before0_1 (c : Dev nD) (t : Fin cfg0.N) (d) : (dat0 V c).before 1 t d = iblk0 V c 1 t := by
  -- the body leaves the block where it found it, and the window is uncut: what it leaves is the array's block
  have hkeep : ∀ s, (cfg0.win 1).cut (cfg0.grid.coords s) ((dat0 V c).after 1 s) = (dat0 V c).blockOf 1 s := fun s => by
    rw [after0_1]; unfold Dat.blockOf iblk0; rw [A_eq0]
  -- so the buffer holds what a fetch at this point would put there; for an uncut window that is the block
  rw [(dat0 V c).before_in_eq_fetched 1 rfl (fun _ => rfl) (fun _ _ _ => rfl) hkeep t d]
  unfold Dat.fetched Dat.blockOf iblk0; rw [A_eq0]; rfl
theorem before0_2 (c : Dev nD) (t : Fin cfg0.N) (d) : (dat0 V c).before 2 t d = iblk0 V c 2 t := by
  -- the body leaves the block where it found it, and the window is uncut: what it leaves is the array's block
  have hkeep : ∀ s, (cfg0.win 2).cut (cfg0.grid.coords s) ((dat0 V c).after 2 s) = (dat0 V c).blockOf 2 s := fun s => by
    rw [after0_2]; unfold Dat.blockOf iblk0; rw [A_eq0]
  -- so the buffer holds what a fetch at this point would put there; for an uncut window that is the block
  rw [(dat0 V c).before_in_eq_fetched 2 rfl (fun _ => rfl) (fun _ _ _ => rfl) hkeep t d]
  unfold Dat.fetched Dat.blockOf iblk0; rw [A_eq0]; rfl
theorem before0_3 (c : Dev nD) (t : Fin cfg0.N) (d) : (dat0 V c).before 3 t d = iblk0 V c 3 t := by
  -- the body leaves the block where it found it, and the window is uncut: what it leaves is the array's block
  have hkeep : ∀ s, (cfg0.win 3).cut (cfg0.grid.coords s) ((dat0 V c).after 3 s) = (dat0 V c).blockOf 3 s := fun s => by
    rw [after0_3]; unfold Dat.blockOf iblk0; rw [A_eq0]
  -- so the buffer holds what a fetch at this point would put there; for an uncut window that is the block
  rw [(dat0 V c).before_in_eq_fetched 3 rfl (fun _ => rfl) (fun _ _ _ => rfl) hkeep t d]
  unfold Dat.fetched Dat.blockOf iblk0; rw [A_eq0]; rfl
theorem before0_4 (c : Dev nD) (t : Fin cfg0.N) (d) : (dat0 V c).before 4 t d = iblk0 V c 4 t := by
  -- the body leaves the block where it found it, and the window is uncut: what it leaves is the array's block
  have hkeep : ∀ s, (cfg0.win 4).cut (cfg0.grid.coords s) ((dat0 V c).after 4 s) = (dat0 V c).blockOf 4 s := fun s => by
    rw [after0_4]; unfold Dat.blockOf iblk0; rw [A_eq0]
  -- so the buffer holds what a fetch at this point would put there; for an uncut window that is the block
  rw [(dat0 V c).before_in_eq_fetched 4 rfl (fun _ => rfl) (fun _ _ _ => rfl) hkeep t d]
  unfold Dat.fetched Dat.blockOf iblk0; rw [A_eq0]; rfl
theorem before0_5 (c : Dev nD) (t : Fin cfg0.N) (d) : (dat0 V c).before 5 t d = iblk0 V c 5 t := by
  -- the body leaves the block where it found it, and the window is uncut: what it leaves is the array's block
  have hkeep : ∀ s, (cfg0.win 5).cut (cfg0.grid.coords s) ((dat0 V c).after 5 s) = (dat0 V c).blockOf 5 s := fun s => by
    rw [after0_5]; unfold Dat.blockOf iblk0; rw [A_eq0]
  -- so the buffer holds what a fetch at this point would put there; for an uncut window that is the block
  rw [(dat0 V c).before_in_eq_fetched 5 rfl (fun _ => rfl) (fun _ _ _ => rfl) hkeep t d]
  unfold Dat.fetched Dat.blockOf iblk0; rw [A_eq0]; rfl
theorem before0_6 (c : Dev nD) (t : Fin cfg0.N) (d) : (dat0 V c).before 6 t d = iblk0 V c 6 t := by
  -- the body leaves the block where it found it, and the window is uncut: what it leaves is the array's block
  have hkeep : ∀ s, (cfg0.win 6).cut (cfg0.grid.coords s) ((dat0 V c).after 6 s) = (dat0 V c).blockOf 6 s := fun s => by
    rw [after0_6]; unfold Dat.blockOf iblk0; rw [A_eq0]
  -- so the buffer holds what a fetch at this point would put there; for an uncut window that is the block
  rw [(dat0 V c).before_in_eq_fetched 6 rfl (fun _ => rfl) (fun _ _ _ => rfl) hkeep t d]
  unfold Dat.fetched Dat.blockOf iblk0; rw [A_eq0]; rfl
theorem before0_7 (c : Dev nD) (t : Fin cfg0.N) (d) : (dat0 V c).before 7 t d = iblk0 V c 7 t := by
  -- the body leaves the block where it found it, and the window is uncut: what it leaves is the array's block
  have hkeep : ∀ s, (cfg0.win 7).cut (cfg0.grid.coords s) ((dat0 V c).after 7 s) = (dat0 V c).blockOf 7 s := fun s => by
    rw [after0_7]; unfold Dat.blockOf iblk0; rw [A_eq0]
  -- so the buffer holds what a fetch at this point would put there; for an uncut window that is the block
  rw [(dat0 V c).before_in_eq_fetched 7 rfl (fun _ => rfl) (fun _ _ _ => rfl) hkeep t d]
  unfold Dat.fetched Dat.blockOf iblk0; rw [A_eq0]; rfl
theorem before0_8 (c : Dev nD) (t : Fin cfg0.N) (d) : (dat0 V c).before 8 t d = iblk0 V c 8 t := by
  -- the body leaves the block where it found it, and the window is uncut: what it leaves is the array's block
  have hkeep : ∀ s, (cfg0.win 8).cut (cfg0.grid.coords s) ((dat0 V c).after 8 s) = (dat0 V c).blockOf 8 s := fun s => by
    rw [after0_8]; unfold Dat.blockOf iblk0; rw [A_eq0]
  -- so the buffer holds what a fetch at this point would put there; for an uncut window that is the block
  rw [(dat0 V c).before_in_eq_fetched 8 rfl (fun _ => rfl) (fun _ _ _ => rfl) hkeep t d]
  unfold Dat.fetched Dat.blockOf iblk0; rw [A_eq0]; rfl
theorem before0_9 (c : Dev nD) (t : Fin cfg0.N) (d) : (dat0 V c).before 9 t d = iblk0 V c 9 t := by
  -- the body leaves the block where it found it, and the window is uncut: what it leaves is the array's block
  have hkeep : ∀ s, (cfg0.win 9).cut (cfg0.grid.coords s) ((dat0 V c).after 9 s) = (dat0 V c).blockOf 9 s := fun s => by
    rw [after0_9]; unfold Dat.blockOf iblk0; rw [A_eq0]
  -- so the buffer holds what a fetch at this point would put there; for an uncut window that is the block
  rw [(dat0 V c).before_in_eq_fetched 9 rfl (fun _ => rfl) (fun _ _ _ => rfl) hkeep t d]
  unfold Dat.fetched Dat.blockOf iblk0; rw [A_eq0]; rfl
theorem before0_10 (c : Dev nD) (t : Fin cfg0.N) (d) : (dat0 V c).before 10 t d = iblk0 V c 10 t := by
  -- the body leaves the block where it found it, and the window is uncut: what it leaves is the array's block
  have hkeep : ∀ s, (cfg0.win 10).cut (cfg0.grid.coords s) ((dat0 V c).after 10 s) = (dat0 V c).blockOf 10 s := fun s => by
    rw [after0_10]; unfold Dat.blockOf iblk0; rw [A_eq0]
  -- so the buffer holds what a fetch at this point would put there; for an uncut window that is the block
  rw [(dat0 V c).before_in_eq_fetched 10 rfl (fun _ => rfl) (fun _ _ _ => rfl) hkeep t d]
  unfold Dat.fetched Dat.blockOf iblk0; rw [A_eq0]; rfl
theorem before0_11 (c : Dev nD) (t : Fin cfg0.N) (d) : (dat0 V c).before 11 t d = iblk0 V c 11 t := by
  -- the body leaves the block where it found it, and the window is uncut: what it leaves is the array's block
  have hkeep : ∀ s, (cfg0.win 11).cut (cfg0.grid.coords s) ((dat0 V c).after 11 s) = (dat0 V c).blockOf 11 s := fun s => by
    rw [after0_11]; unfold Dat.blockOf iblk0; rw [A_eq0]
  -- so the buffer holds what a fetch at this point would put there; for an uncut window that is the block
  rw [(dat0 V c).before_in_eq_fetched 11 rfl (fun _ => rfl) (fun _ _ _ => rfl) hkeep t d]
  unfold Dat.fetched Dat.blockOf iblk0; rw [A_eq0]; rfl

/-! ## The body obligation, at a generic point -/

/-- What the pipeline hands the body at point `t`: the invariant, what the core owes, and each of the fourteen windows'
    current staging memrefs at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- What the body hands back: the same invariant and dues, and each staging memref at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

/-- The body at any point `t`. Each of the twelve input memrefs holds its array's block there (`before0_w`), whatever
    the two output memrefs hold; the body's triple at those twelve blocks returns the inputs unchanged, the message
    memref at `edgeM` and the direction memref at `edgeW` of the blocks, which is the proof data's `after`. The
    invariant and the dues do not depend on the point and are carried round the call. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  -- the inputs' contents before the body, and every window's after it, as blocks of the arrays
  simp only [before0_0, before0_1, before0_2, before0_3, before0_4, before0_5, before0_6, before0_7, before0_8, before0_9, before0_10, before0_11]
  rw [after0_0, after0_1, after0_2, after0_3, after0_4, after0_5, after0_6, after0_7, after0_8, after0_9, after0_10, after0_11, after0_12, after0_13]
  -- the invariant and the dues are the same at `t` and at its successor
  rw [show (dat0 V c).Φ t.succ = (dat0 V c).Φ t.castSucc from rfl,
    show (dat0 V c).owesAt () t.succ = (dat0 V c).owesAt () t.castSucc from rfl]
  iintro ⟨Inv, Due, ⟨%d0, B0⟩, ⟨%d1, B1⟩, ⟨%d2, B2⟩, ⟨%d3, B3⟩, ⟨%d4, B4⟩, ⟨%d5, B5⟩, ⟨%d6, B6⟩, ⟨%d7, B7⟩, ⟨%d8, B8⟩, ⟨%d9, B9⟩, ⟨%d10, B10⟩, ⟨%d11, B11⟩, ⟨%d12, B12⟩, ⟨%d13, B13⟩⟩
  iapply (sound_kernel0 c Set.univ _ _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexists _; iexact B12
  isplitl [B13]; · iexists _; iexact B13
  iintro ⟨B0, B1, B2, B3, B4, B5, B6, B7, B8, B9, B10, B11, B12, B13⟩
  isplitl [Inv]; · iexact Inv
  isplitl [Due]; · iexact Due
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  iexact B13

/-- The library's body obligation at every point: the input memrefs hold their blocks, so the body's triple applies;
    the invariant and the core's dues pass through unread. -/
theorem body_obligation0 (c : Dev nD) : BodyObligation (dat0 (F := F) V c) (defs₀ (F := F)) Variants.none () Set.univ := by
  intro t
  -- the star over the fourteen windows, spelled out on both sides
  rw [bigSep_W0, bigSep_W0]
  exact sound_body0 V c t

end Cert.KernelIdeal.Hand

end
-- ==== Proof.NodeBody.lean ====
/-
  The node kernel's body (the second pallas_call: one tile of 2000 nodes per grid point). From its eleven input blocks
  held whole — the feature tile h, the aggregated message tile m_i, the packed tile [vel | coord | coors_sum] and the
  eight weight and bias blocks — it stores two whole blocks: the new coordinates coord + coors_sum + vel * (velocity
  network of h), and the new features (the node network on [h | m_i]). This module names those two functions and proves
  the body's triple.
-/
import proofs.«413287_j91122026152067_3_alg».proof.Proof.Gen.KernelIdeal.Launch
import proofs.«413287_j91122026152067_3_alg».proof.Proof.Gen.KernelIdeal.Skeleton
import proofs.«413287_j91122026152067_3_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The coordinate tile the body stores into its first output buffer. -/
def nodeC (x0 : Vec F S2000x128 .f32) (x2 : Vec F S2000x9 .f32) (x3 : Vec F S128x128 .f32) (x4 : Vec F S128 .f32)
    (x5 : Vec F S1x128 .f32) (x6 : Vec F S1 .f32) : Vec F S2000x3 .f32 :=
  k1_pay2 x0 x2 x3 x4 x5 x6

/-- The feature tile the body stores into its second output buffer. -/
def nodeH (x0 x1 : Vec F S2000x128 .f32) (x7 : Vec F S256x128 .f32) (x8 : Vec F S128 .f32) (x9 : Vec F S128x128 .f32)
    (x10 : Vec F S128 .f32) : Vec F S2000x128 .f32 :=
  k1_pay1 (k1_pay3 x0 x1 x7 x8) x9 x10

/-- `nodeC` is the coordinate payload of the body's first store. -/
theorem nodeC_eq (x0 : Vec F S2000x128 .f32) (x2 : Vec F S2000x9 .f32) (x3 : Vec F S128x128 .f32) (x4 : Vec F S128 .f32)
    (x5 : Vec F S1x128 .f32) (x6 : Vec F S1 .f32) : nodeC x0 x2 x3 x4 x5 x6 = k1_pay2 x0 x2 x3 x4 x5 x6 := rfl

/-- `nodeH` is the feature payload of the body's second store, on the hidden layer the first part returns. -/
theorem nodeH_eq (x0 x1 : Vec F S2000x128 .f32) (x7 : Vec F S256x128 .f32) (x8 : Vec F S128 .f32) (x9 : Vec F S128x128 .f32)
    (x10 : Vec F S128 .f32) : nodeH x0 x1 x7 x8 x9 x10 = k1_pay1 (k1_pay3 x0 x1 x7 x8) x9 x10 := rfl

/-- The zero offsets of a rank-two rectangle are the constant function zero. -/
private theorem zero_off2 : (![0, 0] : Fin 2 → ℕ) = fun _ => 0 := by funext a; fin_cases a <;> rfl
/-- The same for a rank-one rectangle. -/
private theorem zero_off1 : (![0] : Fin 1 → ℕ) = fun _ => 0 := by funext a; fin_cases a; rfl

/-- A load through the rectangle that is the whole buffer at offset zero reads the buffer's contents. -/
private theorem readAt_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f :=
  View.ld_unit_zero h inb _

/-- One store through that rectangle leaves exactly its payload, whatever the buffer held before. -/
private theorem read_store_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

set_option maxHeartbeats 1000000 in
/-- The body on whole staging memrefs: inputs at their read contents, outputs at anything; it returns with the inputs
    as they were and the outputs at `nodeC` and `nodeH` of the inputs. -/
theorem sound_kernel1 (c : Dev nD) (E : Set ℕ) (i : grid1.Coords)
    (a1 : Memref sig .tc .vmem S2000x128 .f32) (h1 : a1.IsWhole) (a2 : Memref sig .tc .vmem S2000x128 .f32) (h2 : a2.IsWhole)
    (a3 : Memref sig .tc .vmem S2000x9 .f32) (h3 : a3.IsWhole) (a4 : Memref sig .tc .vmem S128x128 .f32) (h4 : a4.IsWhole)
    (a5 : Memref sig .tc .vmem S128 .f32) (h5 : a5.IsWhole) (a6 : Memref sig .tc .vmem S1x128 .f32) (h6 : a6.IsWhole)
    (a7 : Memref sig .tc .vmem S1 .f32) (h7 : a7.IsWhole) (a8 : Memref sig .tc .vmem S256x128 .f32) (h8 : a8.IsWhole)
    (a9 : Memref sig .tc .vmem S128 .f32) (h9 : a9.IsWhole) (a10 : Memref sig .tc .vmem S128x128 .f32) (h10 : a10.IsWhole)
    (a11 : Memref sig .tc .vmem S128 .f32) (h11 : a11.IsWhole) (a12 : Memref sig .tc .vmem S2000x3 .f32) (h12 : a12.IsWhole)
    (a13 : Memref sig .tc .vmem S2000x128 .f32) (h13 : a13.IsWhole)
    (x0 x1 : Vec F S2000x128 .f32) (x2 : Vec F S2000x9 .f32) (x3 : Vec F S128x128 .f32) (x4 : Vec F S128 .f32)
    (x5 : Vec F S1x128 .f32) (x6 : Vec F S1 .f32) (x7 : Vec F S256x128 .f32) (x8 : Vec F S128 .f32) (x9 : Vec F S128x128 .f32)
    (x10 : Vec F S128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ owns (c : Thread nD τ) a10 fullShare x9 ∗ owns (c : Thread nD τ) a11 fullShare x10
        ∗ (∃ d, owns (c : Thread nD τ) a12 fullShare d) ∗ (∃ d, owns (c : Thread nD τ) a13 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7 ∗ owns (c : Thread nD τ) a9 fullShare x8
            ∗ owns (c : Thread nD τ) a10 fullShare x9 ∗ owns (c : Thread nD τ) a11 fullShare x10
            ∗ owns (c : Thread nD τ) a12 fullShare (nodeC x0 x2 x3 x4 x5 x6)
            ∗ owns (c : Thread nD τ) a13 fullShare (nodeH x0 x1 x7 x8 x9 x10)) -∗ K ⟨⟩))
      ⊢ wp frame (wpE (defs₀ (F := F)) Variants.none c none) E
          (cc1__node_kernel_body i a1 h1 a2 h2 a3 h3 a4 h4 a5 h5 a6 h6 a7 h7 a8 h8 a9 h9 a10 h10 a11 h11 a12 h12 a13 h13) K := by
  simp only [cc1__node_kernel_body_eq_skeleton]; unfold cc1__node_kernel_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩,
    ⟨%d12, %f12, -, H12⟩, ⟨%d13, %f13, -, H13⟩, Hk⟩
  subst hf1 hf2 hf3 hf4 hf5 hf6 hf7 hf8 hf9 hf10 hf11
  -- run the eleven loads and two stores; each output buffer now holds one whole-buffer write over what it held
  sl_exec
  sl_step
  iapply Hk
  -- the inputs go back unchanged
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  -- the first output reads back as the one payload stored, every load having read its whole buffer
  isplitl [H12]
  · iexists _; isplitr
    swap; · iexact H12
    ipureintro
    refine (read_store_whole _ _ zero_off2 _ _).trans ?_
    simp only [readAt_whole (S := S2000x128) _ _ zero_off2, readAt_whole (S := S2000x9) _ _ zero_off2,
      readAt_whole (S := S128x128) _ _ zero_off2, readAt_whole (S := S256x128) _ _ zero_off2,
      readAt_whole (S := S1x128) _ _ zero_off2, readAt_whole (S := S128) _ _ zero_off1, readAt_whole (S := S1) _ _ zero_off1]
    rfl
  -- and so does the second
  iexists _; isplitr
  swap; · iexact H13
  ipureintro
  refine (read_store_whole _ _ zero_off2 _ _).trans ?_
  simp only [readAt_whole (S := S2000x128) _ _ zero_off2, readAt_whole (S := S2000x9) _ _ zero_off2,
      readAt_whole (S := S128x128) _ _ zero_off2, readAt_whole (S := S256x128) _ _ zero_off2,
      readAt_whole (S := S1x128) _ _ zero_off2, readAt_whole (S := S128) _ _ zero_off1, readAt_whole (S := S1) _ _ zero_off1]
  rfl

end Cert.KernelIdeal.Hand

end
-- ==== Proof.Region1.lean ====
/-
  The second pallas_call (the node kernel, 25 grid points of 2000 nodes) as a pipeline: each window's block at a grid
  point read off the array the region finds on entry, the pipeline's proof data (after the body at point t every input
  buffer still holds its block, the two output buffers hold the body's two functions of the input blocks), and the body
  obligation at every point from the body's triple.
-/
import proofs.«413287_j91122026152067_3_alg».proof.Proof.NodeBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the node pipeline on core `c`: the arrays as found; after the body at point `t` each input's buffer
    at its block, the coordinate buffer at `nodeC` and the feature buffer at `nodeH` of the input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => nodeC (iblk1 V c 0 t) (iblk1 V c 2 t) (iblk1 V c 3 t) (iblk1 V c 4 t) (iblk1 V c 5 t) (iblk1 V c 6 t)
    | ⟨12, _⟩ => nodeH (iblk1 V c 0 t) (iblk1 V c 1 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = nodeC (iblk1 V c 0 t) (iblk1 V c 2 t) (iblk1 V c 3 t) (iblk1 V c 4 t) (iblk1 V c 5 t) (iblk1 V c 6 t) := by dsimp only [dat1]
theorem after1_12 (c : Dev nD) (t : Fin cfg1.N) : (dat1 V c).after 12 t = nodeH (iblk1 V c 0 t) (iblk1 V c 1 t) (iblk1 V c 7 t) (iblk1 V c 8 t) (iblk1 V c 9 t) (iblk1 V c 10 t) := by dsimp only [dat1]

/-! Each input's current staging buffer holds its block at every point, fetched there or not: the tile windows (0, 1, 2)
    are fetched at every point; the weight windows (3 to 10) are fetched at point 0 only and their block index never moves. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)

/-! The body obligation at a generic point, its big star over the thirteen windows written window by window. -/

/-- What the body is handed at point `t`: the invariant, the core's dues, and each window's current staging buffer at
    what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- What it returns: the invariant and the dues at the next point, each buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The body at any point. The eleven input buffers hold their blocks (`before1_w`), the two output buffers hold
    anything, so the body's triple applies at the input blocks; it hands the inputs back unchanged and the outputs at
    `nodeC` and `nodeH` of the input blocks, which is what the proof data says the body leaves. The invariant and the
    dues do not depend on the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation at every point: the input memrefs hold their blocks, so the body's triple applies;
    the invariant and the core's dues pass through unread. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
/-
  The whole run of @main: six stretches of host operations (the two index rows, four gathers with their range masks, the
  difference, the squared distance and the packed and sliced operands), the edge kernel, one more stretch (the two segment
  sums, the packed node tile, a transpose), the node kernel. The buffer contents at each boundary are a fold from the launch
  memory: a host stretch applies its operations; a pallas call leaves its windows' arrays at what its pipeline's write-backs
  give (an input window's array as entered) and every other buffer as entered. Every weakly fair execution terminates with
  every unscoped buffer at the last valuation of that fold; the frame claim and the two results are read off it.
-/
import proofs.«413287_j91122026152067_3_alg».proof.Proof.Region0
import proofs.«413287_j91122026152067_3_alg».proof.Proof.Region1
import proofs.«413287_j91122026152067_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers when the edge kernel is entered: the launch memory after the six host stretches. -/
abbrev W6 : Dev nD → Valuation τ sig (Elt F) := fun c => V6 m c
/-- The same read at the TensorCore's references (what the edge pipeline's proof data take). -/
abbrev E0 : (c : Dev nD) → (b : Ref sig .tc) → Buf (Elt F) ((c : Thread nD τ).loc b) := fun c b => W6 m c b
/-- At pallas call 0's exit: its arrays at what the pipeline leaves (the inputs as entered, each output's write-backs
    folded), every other buffer as entered. -/
def W7 (c : Dev nD) : Valuation τ sig (Elt F) :=
  Pipeline.withArrays spec0 c (W6 m c) fun w => (dat0 (E0 m) c).arrAt w cfg0.N
theorem W7_arr (c : Dev nD) (w : Fin cfg0.W) :
    W7 m c (Proc.devRef .tc (Pipeline.arrRef spec0 w)) = (dat0 (E0 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = W6 m c (Proc.devRef .tc b) := by
  unfold W7; exact Pipeline.withArrays_of_ne spec0 c _ _ b hb
/-- The same read at the TensorCore's references. -/
abbrev X7 : (c : Dev nD) → (b : Ref sig .tc) → Buf (Elt F) ((c : Thread nD τ).loc b) := fun c b => W7 m c b
theorem hF0 (c : Dev nD) (w : Fin cfg0.W) : (dat0 (E0 m) c).arrAt w cfg0.N = X7 m c (Pipeline.arrRef spec0 w) :=
  (W7_arr m c w).symm
theorem hrest0 (c : Dev nD) : ∀ b, b ∉ Finset.univ.image (Pipeline.arrRef spec0) → X7 m c b = E0 m c b :=
  fun b hb => W7_of_ne m c b fun w e => hb (Finset.mem_image.mpr ⟨w, Finset.mem_univ _, e⟩)

/-- After the stretch between the two kernels (the node kernel's entry). -/
abbrev W8 : Dev nD → Valuation τ sig (Elt F) := fun c => StableHlo.after hostOps1 (W7 m c)
abbrev E1 : (c : Dev nD) → (b : Ref sig .tc) → Buf (Elt F) ((c : Thread nD τ).loc b) := fun c b => W8 m c b
/-- At pallas call 1's exit: its arrays at what the pipeline leaves (the inputs as entered, each output's write-backs
    folded), every other buffer as entered. -/
def W9 (c : Dev nD) : Valuation τ sig (Elt F) :=
  Pipeline.withArrays spec1 c (W8 m c) fun w => (dat1 (E1 m) c).arrAt w cfg1.N
theorem W9_arr (c : Dev nD) (w : Fin cfg1.W) :
    W9 m c (Proc.devRef .tc (Pipeline.arrRef spec1 w)) = (dat1 (E1 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb
/-- The same read at the TensorCore's references. -/
abbrev X9 : (c : Dev nD) → (b : Ref sig .tc) → Buf (Elt F) ((c : Thread nD τ).loc b) := fun c b => W9 m c b
theorem hF1 (c : Dev nD) (w : Fin cfg1.W) : (dat1 (E1 m) c).arrAt w cfg1.N = X9 m c (Pipeline.arrRef spec1 w) :=
  (W9_arr m c w).symm
theorem hrest1 (c : Dev nD) : ∀ b, b ∉ Finset.univ.image (Pipeline.arrRef spec1) → X9 m c b = E1 m c b :=
  fun b hb => W9_of_ne m c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W9 m c) ∗ ∃ r, prngReg c r)

/-! ## The two pallas calls as segments -/

set_option backward.isDefEq.respectTransparency.types false in
/-- Pallas call 0 over the thread state: entered from every unscoped buffer at `W6`, left at `W7`. Its arrays
    are split out of the unscoped buffers on entry and put back at what the pipeline leaves on exit; the generator register
    goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X7 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at `W8`, left at `W9`. Its arrays
    are split out of the unscoped buffers on entry and put back at what the pipeline leaves on exit; the generator register
    goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X9 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .region (reg0 m),
    .host (hseg hostOps1 hostOps1_sub hostOps1_fresh (W7 m)),
    .region (reg1 m) ]
/-- @main IS the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every final
    state has every unscoped buffer of every core at the last valuation of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m c)
            ∗ ((∃ r, prngReg c r) ∗ ∃ W, owes (c : Thread nD τ) (0 : CellTallies nD τ sig Unit) W)) : sProp 𝕄)
          ⊢ iprop((StableHlo.held (c : Thread nD τ) (Pipeline.ucRefs τ sig) (W9 m c) ∗ ∃ r, prngReg c r)
            ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.KernelIdeal.Hand

end
-- ==== Proof.KResults.lean ====
/-
  What the run leaves: a buffer that no host stretch writes and that is not an output of either kernel ends holding its
  launch contents (a kernel's input window's array is handed back as entered; any other buffer bypasses the kernel), so
  the twenty arguments end as launched; the two results end at what the node kernel's pipeline leaves in its two output
  arrays.
-/
import proofs.«413287_j91122026152067_3_alg».proof.Proof.KRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A buffer other than the edge kernel's two outputs holds after it what it held before. -/
theorem X7_keep (c : Dev nD) (r : Ref sig .tc) (h0 : r ≠ main_v16_0) (h1 : r ≠ main_v16_1) : X7 m c r = E0 m c r := by
  by_cases h : r ∈ Finset.univ.image (Pipeline.arrRef spec0)
  · obtain ⟨w, -, rfl⟩ := Finset.mem_image.mp h
    rw [← hF0 m c w]
    fin_cases w
    all_goals first
      | exact absurd rfl h0
      | exact absurd rfl h1
      | exact ((dat0 (E0 m) c).arrAt_in _ rfl _).trans (A_eq0 (E0 m) c _)
  · exact hrest0 m c r h

/-- A buffer other than the node kernel's two outputs holds after it what it held before. -/
theorem X9_keep (c : Dev nD) (r : Ref sig .tc) (h0 : r ≠ main_v25_0) (h1 : r ≠ main_v25_1) : X9 m c r = E1 m c r := by
  by_cases h : r ∈ Finset.univ.image (Pipeline.arrRef spec1)
  · obtain ⟨w, -, rfl⟩ := Finset.mem_image.mp h
    rw [← hF1 m c w]
    fin_cases w
    all_goals first
      | exact absurd rfl h0
      | exact absurd rfl h1
      | exact ((dat1 (E1 m) c).arrAt_in _ rfl _).trans (A_eq1 (E1 m) c _)
  · exact hrest1 m c r h

/-- A buffer none of the six stretches before the edge kernel writes holds its launch contents when that kernel is entered. -/
theorem W6_keep (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) : W6 m c (Proc.devRef .tc r) = m ((c : Thread nD τ).loc r) :=
  (V6_of m c r h5).trans <| (V5_of m c r h4).trans <| (V4_of m c r h3).trans <| (V3_of m c r h2).trans <| (V2_of m c r h1).trans <|
    (V1_of m c r h0).trans rfl

/-- A buffer no host stretch writes and the edge kernel does not output holds its launch contents when the node kernel is
    entered. -/
theorem W8_keep (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h7 : r ∉ hostOps1_W) (ho0 : r ≠ main_v16_0) (ho1 : r ≠ main_v16_1) :
    W8 m c (Proc.devRef .tc r) = m ((c : Thread nD τ).loc r) :=
  (StableHlo.after_of_writes_sub hostOps1 _ hostOps1_writes h7).trans <| (X7_keep m c r ho0 ho1).trans (W6_keep m c r h0 h1 h2 h3 h4 h5)

/-- A buffer no host stretch writes and no kernel outputs ends at its launch contents. -/
theorem W9_keep (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h7 : r ∉ hostOps1_W)
    (ho : r ∉ ([main_v16_0, main_v16_1, main_v25_0, main_v25_1] : List (Ref sig .tc))) :
    W9 m c (Proc.devRef .tc r) = m ((c : Thread nD τ).loc r) :=
  (X9_keep m c r (fun e => ho (by simp [e])) (fun e => ho (by simp [e]))).trans
    (W8_keep m c r h0 h1 h2 h3 h4 h5 h7 (fun e => ho (by simp [e])) (fun e => ho (by simp [e])))

/-- The frame: from any memory with zero counters every weakly fair execution terminates, nothing faulting, and the
    twenty argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_arg0 (by decide))).trans (W9_keep m c main_arg0 (by decide) (by decide) (by decide) (by decide) (by decide) (by decide) (by decide) (by decide)),
      (h c _ (mem_uc main_arg1 (by decide))).trans (W9_keep m c main_arg1 (by decide) (by decide) (by decide) (by decide) (by decide) (by decide) (by decide) (by decide)),
      (h c _ (mem_uc main_arg2 (by decide))).trans (W9_keep m c main_arg2 (by decide) (by decide) (by decide) (by decide) (by decide) (by decide) (by decide) (by decide)),
      (h c _ (mem_uc main_arg3 (by decide))).trans (W9_keep m c main_arg3 (by decide) (by decide) (by decide) (by decide) (by decide) (by decide) (by decide) (by decide)),
      (h c _ (mem_uc main_arg4 (by decide))).trans (W9_keep m c main_arg4 (by decide) (by decide) (by decide) (by decide) (by decide) (by decide) (by decide) (by decide)),
      (h c _ (mem_uc main_arg5 (by decide))).trans (W9_keep m c main_arg5 (by decide) (by decide) (by decide) (by decide) (by decide) (by decide) (by decide) (by decide)),
      (h c _ (mem_uc main_arg6 (by decide))).trans (W9_keep m c main_arg6 (by decide) (by decide) (by decide) (by decide) (by decide) (by decide) (by decide) (by decide)),
      (h c _ (mem_uc main_arg7 (by decide))).trans (W9_keep m c main_arg7 (by decide) (by decide) (by decide) (by decide) (by decide) (by decide) (by decide) (by decide)),
      (h c _ (mem_uc main_arg8 (by decide))).trans (W9_keep m c main_arg8 (by decide) (by decide) (by decide) (by decide) (by decide) (by decide) (by decide) (by decide)),
      (h c _ (mem_uc main_arg9 (by decide))).trans (W9_keep m c main_arg9 (by decide) (by decide) (by decide) (by decide) (by decide) (by decide) (by decide) (by decide)),
      (h c _ (mem_uc main_arg10 (by decide))).trans (W9_keep m c main_arg10 (by decide) (by decide) (by decide) (by decide) (by decide) (by decide) (by decide) (by decide)),
      (h c _ (mem_uc main_arg11 (by decide))).trans (W9_keep m c main_arg11 (by decide) (by decide) (by decide) (by decide) (by decide) (by decide) (by decide) (by decide)),
      (h c _ (mem_uc main_arg12 (by decide))).trans (W9_keep m c main_arg12 (by decide) (by decide) (by decide) (by decide) (by decide) (by decide) (by decide) (by decide)),
      (h c _ (mem_uc main_arg13 (by decide))).trans (W9_keep m c main_arg13 (by decide) (by decide) (by decide) (by decide) (by decide) (by decide) (by decide) (by decide)),
      (h c _ (mem_uc main_arg14 (by decide))).trans (W9_keep m c main_arg14 (by decide) (by decide) (by decide) (by decide) (by decide) (by decide) (by decide) (by decide)),
      (h c _ (mem_uc main_arg15 (by decide))).trans (W9_keep m c main_arg15 (by decide) (by decide) (by decide) (by decide) (by decide) (by decide) (by decide) (by decide)),
      (h c _ (mem_uc main_arg16 (by decide))).trans (W9_keep m c main_arg16 (by decide) (by decide) (by decide) (by decide) (by decide) (by decide) (by decide) (by decide)),
      (h c _ (mem_uc main_arg17 (by decide))).trans (W9_keep m c main_arg17 (by decide) (by decide) (by decide) (by decide) (by decide) (by decide) (by decide) (by decide)),
      (h c _ (mem_uc main_arg18 (by decide))).trans (W9_keep m c main_arg18 (by decide) (by decide) (by decide) (by decide) (by decide) (by decide) (by decide) (by decide)),
      (h c _ (mem_uc main_arg19 (by decide))).trans (W9_keep m c main_arg19 (by decide) (by decide) (by decide) (by decide) (by decide) (by decide) (by decide) (by decide))⟩) (run_all m ρ)

/-- The run with its results named: the feature result is what the node pipeline leaves in its second output array, the
    coordinate result what it leaves in its first; the arguments end as launched. -/
theorem run_val : θ_run defs (onTc (τ := τ) (main (F := F))) ⟨m, fun _ => 0, ρ⟩ (fun r => ∀ c : Dev nD,
      r.2.mem ((c.tc : Thread nD τ).loc main_v25_1) = (dat1 (E1 m) c).arrAt 12 cfg1.N
      ∧ r.2.mem ((c.tc : Thread nD τ).loc main_v25_0) = (dat1 (E1 m) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_v25_1 (by decide))).trans (W9_arr m c 12),
      (h c _ (mem_uc main_v25_0 (by decide))).trans (W9_arr m c 11),
      (h c _ (mem_uc main_arg0 (by decide))).trans (W9_keep m c main_arg0 (by decide) (by decide) (by decide) (by decide) (by decide) (by decide) (by decide) (by decide)),
      (h c _ (mem_uc main_arg1 (by decide))).trans (W9_keep m c main_arg1 (by decide) (by decide) (by decide) (by decide) (by decide) (by decide) (by decide) (by decide)),
      (h c _ (mem_uc main_arg2 (by decide))).trans (W9_keep m c main_arg2 (by decide) (by decide) (by decide) (by decide) (by decide) (by decide) (by decide) (by decide)),
      (h c _ (mem_uc main_arg3 (by decide))).trans (W9_keep m c main_arg3 (by decide) (by decide) (by decide) (by decide) (by decide) (by decide) (by decide) (by decide)),
      (h c _ (mem_uc main_arg4 (by decide))).trans (W9_keep m c main_arg4 (by decide) (by decide) (by decide) (by decide) (by decide) (by decide) (by decide) (by decide)),
      (h c _ (mem_uc main_arg5 (by decide))).trans (W9_keep m c main_arg5 (by decide) (by decide) (by decide) (by decide) (by decide) (by decide) (by decide) (by decide)),
      (h c _ (mem_uc main_arg6 (by decide))).trans (W9_keep m c main_arg6 (by decide) (by decide) (by decide) (by decide) (by decide) (by decide) (by decide) (by decide)),
      (h c _ (mem_uc main_arg7 (by decide))).trans (W9_keep m c main_arg7 (by decide) (by decide) (by decide) (by decide) (by decide) (by decide) (by decide) (by decide)),
      (h c _ (mem_uc main_arg8 (by decide))).trans (W9_keep m c main_arg8 (by decide) (by decide) (by decide) (by decide) (by decide) (by decide) (by decide) (by decide)),
      (h c _ (mem_uc main_arg9 (by decide))).trans (W9_keep m c main_arg9 (by decide) (by decide) (by decide) (by decide) (by decide) (by decide) (by decide) (by decide)),
      (h c _ (mem_uc main_arg10 (by decide))).trans (W9_keep m c main_arg10 (by decide) (by decide) (by decide) (by decide) (by decide) (by decide) (by decide) (by decide)),
      (h c _ (mem_uc main_arg11 (by decide))).trans (W9_keep m c main_arg11 (by decide) (by decide) (by decide) (by decide) (by decide) (by decide) (by decide) (by decide)),
      (h c _ (mem_uc main_arg12 (by decide))).trans (W9_keep m c main_arg12 (by decide) (by decide) (by decide) (by decide) (by decide) (by decide) (by decide) (by decide)),
      (h c _ (mem_uc main_arg13 (by decide))).trans (W9_keep m c main_arg13 (by decide) (by decide) (by decide) (by decide) (by decide) (by decide) (by decide) (by decide)),
      (h c _ (mem_uc main_arg14 (by decide))).trans (W9_keep m c main_arg14 (by decide) (by decide) (by decide) (by decide) (by decide) (by decide) (by decide) (by decide)),
      (h c _ (mem_uc main_arg15 (by decide))).trans (W9_keep m c main_arg15 (by decide) (by decide) (by decide) (by decide) (by decide) (by decide) (by decide) (by decide)),
      (h c _ (mem_uc main_arg16 (by decide))).trans (W9_keep m c main_arg16 (by decide) (by decide) (by decide) (by decide) (by decide) (by decide) (by decide) (by decide)),
      (h c _ (mem_uc main_arg17 (by decide))).trans (W9_keep m c main_arg17 (by decide) (by decide) (by decide) (by decide) (by decide) (by decide) (by decide) (by decide)),
      (h c _ (mem_uc main_arg18 (by decide))).trans (W9_keep m c main_arg18 (by decide) (by decide) (by decide) (by decide) (by decide) (by decide) (by decide) (by decide)),
      (h c _ (mem_uc main_arg19 (by decide))).trans (W9_keep m c main_arg19 (by decide) (by decide) (by decide) (by decide) (by decide) (by decide) (by decide) (by decide))⟩) (run_all m ρ)

end Cert.KernelIdeal.Hand

end
-- ==== Proof.Spec.lean ====
/-
  The layer's arithmetic, row by row, over the extended reals; no program is imported.

  One edge e with endpoint features hr, hc (128 numbers each), squared distance rad and difference vector diff:
    hidden_k  = silu (Σ_{l<256} [hr | hc]_l · W1[l, k] + rad · w_rad[k] + b1[k])          (first edge layer; the 257th input
                                                                                          coordinate, rad, is kept apart)
    m_j       = silu (Σ_k hidden_k · W2[k, j] + b2[j])                                      (the message)
    weight    = Σ_k silu (Σ_l m_l · Wc1[l, k] + bc1[k]) · wc2[k] + bc2                      (one scalar per edge)
    wdiff_a   = diff_a / (sqrt rad + eps) · weight                                         (a = 0, 1, 2)
  One node with features h, aggregated message mi, velocity vel, position coord and aggregated direction cs:
    coord'_a  = (coord_a + cs_a) + vel_a · (Σ_k silu (Σ_l h_l · Wv1[l, k] + bv1[k]) · wv2[k] + bv2)
    h'_j      = Σ_k silu (Σ_{l<256} [h | mi]_l · Wn1[l, k] + bn1[k]) · Wn2[k, j] + bn2[j]
  silu x = x · logistic x. The scalar-weight network of an edge and the velocity network of a node are one function.
-/
import Idealize.ShloMosaic.PureOps.Ideal
import Idealize.ShloMosaic.Lib.ValueIdx

noncomputable section

namespace EgnnSpec

open Idealize.ShloMosaic Idealize.ShloMosaic.ValueIdx

abbrev M (r c : Nat) : Type := (⟨2, ![r, c]⟩ : Shape).Idx → EReal
abbrev Vc (n : Nat) : Type := (⟨1, ![n]⟩ : Shape).Idx → EReal

/-- x · logistic x. -/
def silu (x : EReal) : EReal := x * Ideal.logistic x

/-- Two rows of 128 laid side by side as one row of 256. -/
def cat2 (a b : Fin 128 → EReal) (l : Fin 256) : EReal :=
  if h : l.val < 128 then a ⟨l.val, h⟩ else b ⟨l.val - 128, by omega⟩

/-- The first edge layer at hidden unit k. -/
def hid1 (hr hc : Fin 128 → EReal) (rad : EReal) (W1 : M 256 128) (wr : M 1 128) (b1 : Vc 128) (k : Fin 128) : EReal :=
  silu ((∑ l : Fin 256, cat2 hr hc l * W1 (ix2 l k)) + rad * wr (ix2 0 k) + b1 (ix1 k))

/-- The message at feature j. -/
def mijRow (hr hc : Fin 128 → EReal) (rad : EReal) (W1 : M 256 128) (wr : M 1 128) (b1 : Vc 128) (W2 : M 128 128) (b2 : Vc 128)
    (j : Fin 128) : EReal :=
  silu ((∑ k : Fin 128, hid1 hr hc rad W1 wr b1 k * W2 (ix2 k j)) + b2 (ix1 j))

/-- A 128 → 128 → 1 network with silu after its first layer: one scalar from a row of 128. -/
def scalarNet (x : Fin 128 → EReal) (Wa : M 128 128) (ba : Vc 128) (wb : M 1 128) (bb : Vc 1) : EReal :=
  (∑ k : Fin 128, silu ((∑ l : Fin 128, x l * Wa (ix2 l k)) + ba (ix1 k)) * wb (ix2 0 k)) + bb (ix1 0)

/-- The literal the normalisation adds to the distance (the single-precision number nearest 1e-8). -/
def eps : EReal := Ideal.ofBits .f32 0x322BCC77#32

/-- The weighted direction at coordinate a. -/
def wdRow (diff : Fin 3 → EReal) (rad : EReal) (m : Fin 128 → EReal) (Wc1 : M 128 128) (bc1 : Vc 128) (wc2 : M 1 128) (bc2 : Vc 1)
    (a : Fin 3) : EReal :=
  Ideal.div (diff a) (Ideal.sqrt rad + eps) * scalarNet m Wc1 bc1 wc2 bc2

/-- The new position at coordinate a. -/
def coutRow (vel coord cs : Fin 3 → EReal) (h : Fin 128 → EReal) (Wv1 : M 128 128) (bv1 : Vc 128) (wv2 : M 1 128) (bv2 : Vc 1)
    (a : Fin 3) : EReal :=
  (coord a + cs a) + vel a * scalarNet h Wv1 bv1 wv2 bv2

/-- The new feature j. -/
def houtRow (h mi : Fin 128 → EReal) (Wn1 : M 256 128) (bn1 : Vc 128) (Wn2 : M 128 128) (bn2 : Vc 128) (j : Fin 128) : EReal :=
  (∑ k : Fin 128, silu ((∑ l : Fin 256, cat2 h mi l * Wn1 (ix2 l k)) + bn1 (ix1 k)) * Wn2 (ix2 k j)) + bn2 (ix1 j)

end EgnnSpec

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.NodeValue.lean ====
/-
  The node kernel's two stored tiles read at an entry, at the ideal values: row n of the coordinate tile is the spec's
  new position of that row's velocity, position and aggregated direction (columns 0-2, 3-5, 6-8 of the packed tile) and
  of row n of the feature tile; row n of the feature tile is the spec's node network of row n of the feature tile and of
  the aggregated message tile. Each matrix product into the zero accumulator is the plain sum over the contracted
  coordinate; the lane sum of the 128 -> 1 layer is a plain sum too.
-/
import proofs.«413287_j91122026152067_3_alg».proof.Proof.Gen.KernelIdeal.Skeleton
import proofs.«413287_j91122026152067_3_alg».proof.Proof.Spec
import proofs.«413287_j91122026152067_3_alg».proof.Proof.LibPlainMatmul
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen EgnnSpec
open Idealize.ShloMosaic Idealize.ShloMosaic.ValueIdx

namespace Node

/-! ## Layout operations read at an entry -/

section Layout
variable {α : Type}

/-- A vector of length b cast to one row and laid over a rows reads, at (p, c), the vector at c. -/
theorem rowOfVec_apply {a b : ℕ} (v : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc 0 c)

/-- A one-row matrix cast to its own shape and laid over a rows reads, at (p, c), its row at c. -/
theorem rowOfRow_apply {a b : ℕ} (v : (⟨2, ![1, b]⟩ : Shape).Idx → α) (hc : (⟨2, ![1, b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = v (ix2 (0 : Fin 1) c) := by
  rw [shapeCast_self]; exact broadcastTo_1b_ab_apply v hb p c

/-- A vector of length a cast to one column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column laid over b columns reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry vector cast to a 1×1 matrix and laid over a rows reads its one entry everywhere. -/
theorem scalarCol_apply {a : ℕ} (v : (⟨1, ![1]⟩ : Shape).Idx → α) (hc : (⟨1, ![1]⟩ : Shape).ShapeCasts ⟨2, ![1, 1]⟩)
    (hb : (⟨2, ![1, 1]⟩ : Shape).Broadcasts ⟨2, ![a, 1]⟩) (p : Fin a) (u : Fin 1) :
    broadcastTo ⟨2, ![a, 1]⟩ (shapeCast ⟨2, ![1, 1]⟩ v hc) hb (ix2 p u) = v (ix1 (0 : Fin 1)) := by
  obtain rfl : u = 0 := Subsingleton.elim _ _
  exact rowOfVec_apply v hc hb p 0

end Layout

/-- Two 128-wide tiles laid side by side read, at (p, l), the spec's side-by-side row of their rows p. -/
theorem concat_apply {m : ℕ} (x₁ x₂ : (⟨2, ![m, 128]⟩ : Shape).Idx → EReal)
    (h : Shape.Concatenates [(⟨2, ![m, 128]⟩ : Shape), ⟨2, ![m, 128]⟩] ⟨2, ![m, 256]⟩ 1) (p : Fin m) (l : Fin 256) :
    concatenate ⟨2, ![m, 256]⟩ 1 [⟨⟨2, ![m, 128]⟩, x₁⟩, ⟨⟨2, ![m, 128]⟩, x₂⟩] h (ix2 p l)
      = cat2 (fun c => x₁ (ix2 p c)) (fun c => x₂ (ix2 p c)) l := by
  unfold cat2
  split
  · next hl =>
    exact concatenate_pair_apply_left 1 x₁ x₂ h (ix2 p l) rfl (ix2 p (⟨l.val, hl⟩ : Fin 128)) (fun b => by
      match b with
      | ⟨0, _⟩ => rfl
      | ⟨1, _⟩ => rfl)
  · next hl =>
    exact concatenate_pair_apply_right 1 x₁ x₂ h (ix2 p l) rfl rfl (ix2 p (⟨l.val - 128, by omega⟩ : Fin 128)) (fun b hb => by
      match b, hb with
      | ⟨0, _⟩, _ => rfl
      | ⟨1, _⟩, hb => exact absurd rfl hb) (by
      show l.val - 128 + 128 = l.val
      omega)

/-! ## The arithmetic read at an entry -/

/-- The logistic of a tile at an entry. -/
theorem logistic_apply {s : Shape} {φ : FTy} (a : FVec Ideal s φ) (i : s.Idx) : logistic a i = Ideal.logistic (a i) := rfl

/-- The sum over the 128 lanes of row r of an m×k tile. -/
theorem laneSum_apply {m k : ℕ} (src : FVec Ideal ⟨2, ![m, k]⟩ .f32) (h : (⟨2, ![m, k]⟩ : Shape).Reduces [1] ⟨1, ![m]⟩)
    (hφ : FKind.Formats .f32) (hacc : (0x00000000#32 : BitVec 32) = 0x00000000#32) (r : Fin m) :
    multiReduction (F := Ideal) .add [1] ⟨1, ![m]⟩ src 0x00000000#32 h hφ hacc (ix1 r) = ∑ c : Fin k, src (ix2 r c) := by
  refine (Ideal.multiReduction_add_single src 0x00000000#32 h hφ hacc (ix1 r)).trans ?_
  refine Finset.sum_congr rfl fun c _ => congrArg src ?_
  funext ax
  apply Fin.ext
  match ax with
  | ⟨0, _⟩ => rfl
  | ⟨1, _⟩ => rfl

/-- The product of a 2000×128 tile by a 128×128 matrix into zero, at (n, j). -/
theorem mm128_apply (A : FVec Ideal S2000x128 .f32) (B : FVec Ideal S128x128 .f32) (n : Fin 2000) (j : Fin 128) :
    matmul (F := Ideal) dot_S2000x128_S128x128_S2000x128_1_0_0_1_n_n none A B (constant S2000x128 .f32 0x00000000#32) (ix2 n j)
      = ∑ c : Fin 128, A (ix2 n c) * B (ix2 c j) :=
  PlainMatmul.matmul_zero_apply_of_eq _ rfl none A B n j

/-- The product of a 2000×256 tile by a 256×128 matrix into zero, at (n, j). -/
theorem mm256_apply (A : FVec Ideal S2000x256 .f32) (B : FVec Ideal S256x128 .f32) (n : Fin 2000) (j : Fin 128) :
    matmul (F := Ideal) dot_S2000x256_S256x128_S2000x128_1_0_0_1_n_n none A B (constant S2000x128 .f32 0x00000000#32) (ix2 n j)
      = ∑ c : Fin 256, A (ix2 n c) * B (ix2 c j) :=
  PlainMatmul.matmul_zero_apply_of_eq _ rfl none A B n j

/-! ## The layers -/

/-- The velocity network's column: the 128 → 128 → 1 network of row n of the feature tile, whatever the unit coordinate. -/
theorem vnet_apply (x0 : FVec Ideal S2000x128 .f32) (W : FVec Ideal S128x128 .f32) (b : FVec Ideal S128 .f32)
    (w : FVec Ideal S1x128 .f32) (c : FVec Ideal S1 .f32)
    (hc1 : S128.ShapeCasts S1x128) (hb1 : S1x128.Broadcasts S2000x128) (hc2 : S1x128.ShapeCasts S1x128)
    (hr : S2000x128.Reduces [1] S2000) (hφ : FKind.Formats .f32) (hacc : (0x00000000#32 : BitVec 32) = 0x00000000#32)
    (hc3 : S2000.ShapeCasts S2000x1) (hc4 : S1.ShapeCasts S1x1) (hb2 : S1x1.Broadcasts S2000x1) (n : Fin 2000) (u : Fin 1) :
    addf
        (shapeCast S2000x1
          (multiReduction (F := Ideal) .add [1] S2000
            (mulf
              (mulf
                (addf (matmul dot_S2000x128_S128x128_S2000x128_1_0_0_1_n_n none x0 W (constant S2000x128 .f32 0x00000000#32))
                  (broadcastTo S2000x128 (shapeCast S1x128 b hc1) hb1))
                (logistic
                  (addf (matmul dot_S2000x128_S128x128_S2000x128_1_0_0_1_n_n none x0 W (constant S2000x128 .f32 0x00000000#32))
                    (broadcastTo S2000x128 (shapeCast S1x128 b hc1) hb1))))
              (broadcastTo S2000x128 (shapeCast S1x128 w hc2) hb1))
            0x00000000#32 hr hφ hacc)
          hc3)
        (broadcastTo S2000x1 (shapeCast S1x1 c hc4) hb2) (ix2 n u)
      = scalarNet (fun l => x0 (ix2 n l)) W b w c := by
  unfold scalarNet
  rw [addf_apply, shapeCast_a_a1_apply, scalarCol_apply]
  refine congrArg (· + c (ix1 (0 : Fin 1))) ?_
  refine (laneSum_apply _ hr hφ hacc n).trans ?_
  refine Finset.sum_congr rfl fun k _ => ?_
  rw [mulf_apply, mulf_apply, logistic_apply, addf_apply, mm128_apply, rowOfVec_apply, rowOfRow_apply]
  rfl

/-- The first node layer before its activation, at (n, k): row n of [h | m_i] against column k, plus the bias. -/
theorem pay3_apply (x0 x1 : Vec Ideal S2000x128 .f32) (x7 : Vec Ideal S256x128 .f32) (x8 : Vec Ideal S128 .f32)
    (n : Fin 2000) (k : Fin 128) :
    k1_pay3 (F := Ideal) x0 x1 x7 x8 (ix2 n k)
      = (∑ l : Fin 256, cat2 (fun c => x0 (ix2 n c)) (fun c => x1 (ix2 n c)) l * x7 (ix2 l k)) + x8 (ix1 k) := by
  unfold k1_pay3
  simp only [addf_apply]
  rw [mm256_apply, rowOfVec_apply, shapeCast_self]
  refine congrArg (· + x8 (ix1 k)) (Finset.sum_congr rfl fun l _ => ?_)
  rw [concat_apply]

end Node

open Node

/-- The coordinate tile at (n, a). -/
theorem pay2_apply (x0 : Vec Ideal S2000x128 .f32) (x2 : Vec Ideal S2000x9 .f32) (x3 : Vec Ideal S128x128 .f32)
    (x4 : Vec Ideal S128 .f32) (x5 : Vec Ideal S1x128 .f32) (x6 : Vec Ideal S1 .f32) (n : Fin 2000) (a : Fin 3) :
    k1_pay2 (F := Ideal) x0 x2 x3 x4 x5 x6 (ix2 n a)
      = coutRow (fun b => x2 (ix2 n (⟨b.val, by omega⟩ : Fin 9))) (fun b => x2 (ix2 n (⟨b.val + 3, by omega⟩ : Fin 9)))
          (fun b => x2 (ix2 n (⟨b.val + 6, by omega⟩ : Fin 9))) (fun l => x0 (ix2 n l)) x3 x4 x5 x6 a := by
  unfold k1_pay2
  simp only [addf_apply, mulf_apply]
  -- the packed tile's three column groups, and the network's column laid over the three coordinates
  rw [shapeCast_self,
    slice2_axis1_apply 3 x2 _ n a (⟨a.val + 3, by omega⟩ : Fin 9) (Nat.add_comm _ _),
    slice2_axis1_apply 6 x2 _ n a (⟨a.val + 6, by omega⟩ : Fin 9) (Nat.add_comm _ _),
    slice2_axis1_apply 0 x2 _ n a (⟨a.val, by omega⟩ : Fin 9) (Nat.zero_add _).symm,
    broadcastTo_a1_ab_apply]
  unfold coutRow
  congr 1
  congr 1
  exact vnet_apply x0 x3 x4 x5 x6 _ _ _ _ _ _ _ _ _ n 0

/-- The feature tile at (n, j). -/
theorem pay13_apply (x0 x1 : Vec Ideal S2000x128 .f32) (x7 : Vec Ideal S256x128 .f32) (x8 : Vec Ideal S128 .f32)
    (x9 : Vec Ideal S128x128 .f32) (x10 : Vec Ideal S128 .f32) (n : Fin 2000) (j : Fin 128) :
    k1_pay1 (F := Ideal) (k1_pay3 x0 x1 x7 x8) x9 x10 (ix2 n j)
      = houtRow (fun l => x0 (ix2 n l)) (fun l => x1 (ix2 n l)) x7 x8 x9 x10 j := by
  unfold k1_pay1
  simp only [addf_apply]
  rw [mm128_apply, rowOfVec_apply]
  unfold houtRow
  refine congrArg (· + x10 (ix1 j)) (Finset.sum_congr rfl fun k _ => ?_)
  rw [mulf_apply, logistic_apply, pay3_apply]
  rfl

end Cert.KernelIdeal.Val

end
-- ==== Proof.Blocks1.lean ====
/-
  From blocks to arrays, for the node kernel: each grid point t writes back rows 2000 t … 2000 t + 1999 of the two output
  arrays, and row n of a written block depends only on row n of the three tiled inputs and on the whole weight blocks,
  which are the whole weight arrays. So after the last point the coordinate array at (n, a) is the spec's new position of
  node n (velocity, position and aggregated direction are columns 0-2, 3-5, 6-8 of the packed array) and the feature array
  at (n, j) the spec's node network of row n of the feature array and of the aggregated message array.
-/
import proofs.«413287_j91122026152067_3_alg».proof.Proof.Region1
import proofs.«413287_j91122026152067_3_alg».proof.Proof.NodeValue
import Idealize.ShloMosaic.Lib.Pipeline.Value

set_option maxRecDepth 16384

noncomputable section

namespace Cert.KernelIdeal.Val

open Cert.KernelIdeal Cert.KernelIdeal.Gen Cert.KernelIdeal.Hand EgnnSpec
open Idealize.ShloMosaic Idealize.ShloMosaic.TcCoe Idealize.ShloMosaic.ValueIdx
open Idealize.ShloMosaic.Pipeline (Dat)

-- the TensorCore's buffer contents when the node kernel is entered
variable (V : (c : Dev nD) → (b : Ref sig .tc) → Buf (Elt Ideal) ((c : Thread nD τ).loc b))

namespace B1

/-- The block index of every window at every grid point: the three tiled inputs and the two outputs sit at the point's
    own number on the row axis and at zero on the column axis; every weight window sits at zero on every axis. -/
theorem idx_tiles : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_11.index t (0 : Fin 2) = t.val ∧ win1_11.index t (1 : Fin 2) = 0
    ∧ win1_12.index t (0 : Fin 2) = t.val ∧ win1_12.index t (1 : Fin 2) = 0 :=
  (by decide +kernel : ∀ t : Fin grid1.N, _)

theorem idx_weights : ∀ t : Fin cfg1.N,
    win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = 0 ∧ win1_9.index t (1 : Fin 2) = 0
    ∧ win1_10.index t (0 : Fin 1) = 0 :=
  (by decide +kernel : ∀ t : Fin grid1.N, _)

/-- The feature array as one function of the arrays the node kernel reads, index by index. -/
abbrev Gh (a0 a1 : S50000x128.Idx → Elt Ideal .f32) (x7 : S256x128.Idx → Elt Ideal .f32) (x8 : S128.Idx → Elt Ideal .f32)
    (x9 : S128x128.Idx → Elt Ideal .f32) (x10 : S128.Idx → Elt Ideal .f32) : S50000x128.Idx → Elt Ideal .f32 :=
  fun i => houtRow (fun l => a0 (ix2 (i 0) l)) (fun l => a1 (ix2 (i 0) l)) x7 x8 x9 x10 (i 1)

/-- A tile whose row n is row r of the array, for both tiled inputs, gives at (n, j) the feature array's function at (r, j). -/
theorem hblock (x0 x1 : Vec Ideal S2000x128 .f32) (a0 a1 : S50000x128.Idx → Elt Ideal .f32) (x7 : Vec Ideal S256x128 .f32)
    (x8 : Vec Ideal S128 .f32) (x9 : Vec Ideal S128x128 .f32) (x10 : Vec Ideal S128 .f32) (n : Fin 2000) (j : Fin 128) (r : Fin 50000)
    (h0 : ∀ l : Fin 128, x0 (ix2 n l) = a0 (ix2 r l)) (h1 : ∀ l : Fin 128, x1 (ix2 n l) = a1 (ix2 r l)) :
    k1_pay1 (F := Ideal) (k1_pay3 x0 x1 x7 x8) x9 x10 (ix2 n j) = Gh a0 a1 x7 x8 x9 x10 (ix2 r j) := by
  rw [pay13_apply]
  show houtRow _ _ x7 x8 x9 x10 j = houtRow (fun l => a0 (ix2 r l)) (fun l => a1 (ix2 r l)) x7 x8 x9 x10 j
  rw [funext h0, funext h1]

/-- Row n of the feature tile at point t is row 2000 t + n of the feature array. -/
theorem tile0_apply (c : Dev nD) (t : Fin cfg1.N) (n : Fin 2000) (l : Fin 128) (r : Fin 50000) (hr : r.val = t.val * 2000 + n.val) :
    (iblk1 V c 0 t : Vec Ideal S2000x128 .f32) (ix2 n l) = V c main_arg0 (ix2 r l) := by
  obtain ⟨e0, e1, -⟩ := idx_tiles t
  unfold iblk1
  rw [View.read_apply]
  show V c main_arg0 (((cfg1.win 0).blk t).view.emb (ix2 n l)) = V c main_arg0 (ix2 r l)
  congr 1
  funext a
  apply Fin.ext
  match a with
  | ⟨0, _⟩ => show win1_0.index t (0 : Fin 2) * 2000 + 1 * n.val = r.val; omega
  | ⟨1, _⟩ => show win1_0.index t (1 : Fin 2) * 128 + 1 * l.val = l.val; omega

/-- Row n of the aggregated-message tile at point t is row 2000 t + n of the aggregated-message array. -/
theorem tile1_apply (c : Dev nD) (t : Fin cfg1.N) (n : Fin 2000) (l : Fin 128) (r : Fin 50000) (hr : r.val = t.val * 2000 + n.val) :
    (iblk1 V c 1 t : Vec Ideal S2000x128 .f32) (ix2 n l) = V c main_v22 (ix2 r l) := by
  obtain ⟨-, -, e0, e1, -⟩ := idx_tiles t
  unfold iblk1
  rw [View.read_apply]
  show V c main_v22 (((cfg1.win 1).blk t).view.emb (ix2 n l)) = V c main_v22 (ix2 r l)
  congr 1
  funext a
  apply Fin.ext
  match a with
  | ⟨0, _⟩ => show win1_1.index t (0 : Fin 2) * 2000 + 1 * n.val = r.val; omega
  | ⟨1, _⟩ => show win1_1.index t (1 : Fin 2) * 128 + 1 * l.val = l.val; omega

/-- The weight blocks of the feature network are the whole weight arrays, at every point. -/
theorem wblk7 (c : Dev nD) (t : Fin cfg1.N) : (iblk1 V c 7 t : Vec Ideal S256x128 .f32) = V c main_arg16 := by
  obtain ⟨-, -, -, -, -, -, e0, e1, -⟩ := idx_weights t
  funext y
  unfold iblk1
  rw [View.read_apply]
  show V c main_arg16 (((cfg1.win 7).blk t).view.emb y) = V c main_arg16 y
  congr 1
  funext a
  apply Fin.ext
  match a with
  | ⟨0, _⟩ => show win1_7.index t (0 : Fin 2) * 256 + 1 * (y 0).val = (y 0).val; omega
  | ⟨1, _⟩ => show win1_7.index t (1 : Fin 2) * 128 + 1 * (y 1).val = (y 1).val; omega

theorem wblk8 (c : Dev nD) (t : Fin cfg1.N) : (iblk1 V c 8 t : Vec Ideal S128 .f32) = V c main_arg17 := by
  obtain ⟨-, -, -, -, -, -, -, -, e0, -⟩ := idx_weights t
  funext y
  unfold iblk1
  rw [View.read_apply]
  show V c main_arg17 (((cfg1.win 8).blk t).view.emb y) = V c main_arg17 y
  congr 1
  funext a
  apply Fin.ext
  match a with
  | ⟨0, _⟩ => show win1_8.index t (0 : Fin 1) * 128 + 1 * (y 0).val = (y 0).val; omega

theorem wblk9 (c : Dev nD) (t : Fin cfg1.N) : (iblk1 V c 9 t : Vec Ideal S128x128 .f32) = V c main_arg18 := by
  obtain ⟨-, -, -, -, -, -, -, -, -, e0, e1, -⟩ := idx_weights t
  funext y
  unfold iblk1
  rw [View.read_apply]
  show V c main_arg18 (((cfg1.win 9).blk t).view.emb y) = V c main_arg18 y
  congr 1
  funext a
  apply Fin.ext
  match a with
  | ⟨0, _⟩ => show win1_9.index t (0 : Fin 2) * 128 + 1 * (y 0).val = (y 0).val; omega
  | ⟨1, _⟩ => show win1_9.index t (1 : Fin 2) * 128 + 1 * (y 1).val = (y 1).val; omega

theorem wblk10 (c : Dev nD) (t : Fin cfg1.N) : (iblk1 V c 10 t : Vec Ideal S128 .f32) = V c main_arg19 := by
  obtain ⟨-, -, -, -, -, -, -, -, -, -, -, e0⟩ := idx_weights t
  funext y
  unfold iblk1
  rw [View.read_apply]
  show V c main_arg19 (((cfg1.win 10).blk t).view.emb y) = V c main_arg19 y
  congr 1
  funext a
  apply Fin.ext
  match a with
  | ⟨0, _⟩ => show win1_10.index t (0 : Fin 1) * 128 + 1 * (y 0).val = (y 0).val; omega

/-- What point t writes back to the feature array is block t of the one whole-array function. -/
theorem flushed12_eq (c : Dev nD) (t : Fin cfg1.N) :
    (dat1 (F := Ideal) V c).flushed 12 t
      = ((cfg1.win 12).blk t).view.read (Elt Ideal)
          (Gh (V c main_arg0) (V c main_v22) (V c main_arg16) (V c main_arg17) (V c main_arg18) (V c main_arg19)) := by
  show (cfg1.win 12).cut (grid1.coords t) ((dat1 V c).after 12 t) = _
  rw [after1_12, nodeH_eq, wblk7, wblk8, wblk9, wblk10]
  obtain ⟨-, -, -, -, -, -, -, -, e0, e1⟩ := idx_tiles t
  funext y
  have hy0 : (y 0).val < 2000 := (y 0).isLt
  have hy1 : (y 1).val < 128 := (y 1).isLt
  have hN : t.val < 25 := Nat.lt_of_lt_of_eq t.isLt (N_1 : cfg1.N = 25)
  rw [View.read_apply]
  show k1_pay1 (F := Ideal) (k1_pay3 (iblk1 V c 0 t) (iblk1 V c 1 t) (V c main_arg16) (V c main_arg17)) (V c main_arg18) (V c main_arg19)
        ((cfg1.win 12).xinj (grid1.coords t) y)
      = Gh (V c main_arg0) (V c main_v22) (V c main_arg16) (V c main_arg17) (V c main_arg18) (V c main_arg19)
          (((cfg1.win 12).blk t).view.emb y)
  have ex : (cfg1.win 12).xinj (grid1.coords t) y = ix2 (⟨(y 0).val, hy0⟩ : Fin 2000) (⟨(y 1).val, hy1⟩ : Fin 128) := by
    funext a; match a with | ⟨0, _⟩ => rfl | ⟨1, _⟩ => rfl
  have ee : ((cfg1.win 12).blk t).view.emb y
      = ix2 (⟨t.val * 2000 + (y 0).val, by omega⟩ : Fin 50000) (⟨(y 1).val, hy1⟩ : Fin 128) := by
    funext a
    apply Fin.ext
    match a with
    | ⟨0, _⟩ => show win1_12.index t (0 : Fin 2) * 2000 + 1 * (y 0).val = t.val * 2000 + (y 0).val; omega
    | ⟨1, _⟩ => show win1_12.index t (1 : Fin 2) * 128 + 1 * (y 1).val = (y 1).val; omega
  rw [ex, ee]
  exact hblock (iblk1 V c 0 t) (iblk1 V c 1 t) (V c main_arg0) (V c main_v22) (V c main_arg16) (V c main_arg17) (V c main_arg18)
    (V c main_arg19) _ _ _ (fun l => tile0_apply V c t _ l _ rfl) (fun l => tile1_apply V c t _ l _ rfl)

/-- An index of the feature array is in point t's block iff each coordinate is in the block's range on its axis. -/
theorem mem_blk12 (t : Fin cfg1.N) (i : S50000x128.Idx) :
    i ∈ ((cfg1.win 12).blk t).view.set ↔ ∀ a : Fin 2, win1_12.index t a * S2000x128.size a ≤ (i a).val ∧ (i a).val < win1_12.index t a * S2000x128.size a + S2000x128.size a := by
  show i ∈ ((View.whole main_v25_1).slice (win1_12.rect t)).set ↔ _
  rw [View.set_slice_whole, Rect.mem_set_unit]
  exact Iff.rfl

/-- Every index of the feature array is in a written block: row r is in the block of point r / 2000. -/
theorem cover12 (i : S50000x128.Idx) : ∃ t : Fin cfg1.N, (cfg1.win 12).flush t = true ∧ i ∈ ((cfg1.win 12).blk t).view.set := by
  have hi0 : (i 0).val < 50000 := (i 0).isLt
  have hi1 : (i 1).val < 128 := (i 1).isLt
  refine ⟨⟨(i 0).val / 2000, by rw [show cfg1.N = 25 from N_1]; omega⟩, flush1_12 _, ?_⟩
  rw [mem_blk12]
  obtain ⟨-, -, -, -, -, -, -, -, e0, e1⟩ := idx_tiles ⟨(i 0).val / 2000, by rw [show cfg1.N = 25 from N_1]; omega⟩
  intro a
  match a with
  | ⟨0, _⟩ =>
    show win1_12.index _ (0 : Fin 2) * 2000 ≤ (i 0).val ∧ (i 0).val < win1_12.index _ (0 : Fin 2) * 2000 + 2000
    rw [e0]; show (i 0).val / 2000 * 2000 ≤ (i 0).val ∧ (i 0).val < (i 0).val / 2000 * 2000 + 2000; omega
  | ⟨1, _⟩ =>
    show win1_12.index _ (1 : Fin 2) * 128 ≤ (i 1).val ∧ (i 1).val < win1_12.index _ (1 : Fin 2) * 128 + 128
    rw [e1]; omega

/-- The feature array after the last point is the one whole-array function. -/
theorem hout_array (c : Dev nD) :
    (dat1 (F := Ideal) V c).arrAt 12 cfg1.N
      = Gh (V c main_arg0) (V c main_v22) (V c main_arg16) (V c main_arg17) (V c main_arg18) (V c main_arg19) :=
  (dat1 (F := Ideal) V c).arrAt_eq_of_cover 12
    (Gh (V c main_arg0) (V c main_v22) (V c main_arg16) (V c main_arg17) (V c main_arg18) (V c main_arg19))
    (fun t _ => flushed12_eq V c t) cover12

/-- The coordinate array as one function of the arrays the node kernel reads, index by index: velocity, position and
    aggregated direction are columns 0-2, 3-5, 6-8 of the packed array. -/
abbrev Gc (a0 : S50000x128.Idx → Elt Ideal .f32) (a2 : S50000x9.Idx → Elt Ideal .f32) (x3 : S128x128.Idx → Elt Ideal .f32)
    (x4 : S128.Idx → Elt Ideal .f32) (x5 : S1x128.Idx → Elt Ideal .f32) (x6 : S1.Idx → Elt Ideal .f32) :
    S50000x3.Idx → Elt Ideal .f32 :=
  fun i => coutRow (fun b => a2 (ix2 (i 0) (⟨b.val, by omega⟩ : Fin 9))) (fun b => a2 (ix2 (i 0) (⟨b.val + 3, by omega⟩ : Fin 9)))
    (fun b => a2 (ix2 (i 0) (⟨b.val + 6, by omega⟩ : Fin 9))) (fun l => a0 (ix2 (i 0) l)) x3 x4 x5 x6 (i 1)

/-- A tile whose row n is row r of the array, for the feature and the packed inputs, gives at (n, a) the coordinate
    array's function at (r, a). -/
theorem cblock (x0 : Vec Ideal S2000x128 .f32) (x2 : Vec Ideal S2000x9 .f32) (a0 : S50000x128.Idx → Elt Ideal .f32)
    (a2 : S50000x9.Idx → Elt Ideal .f32) (x3 : Vec Ideal S128x128 .f32) (x4 : Vec Ideal S128 .f32) (x5 : Vec Ideal S1x128 .f32)
    (x6 : Vec Ideal S1 .f32) (n : Fin 2000) (a : Fin 3) (r : Fin 50000)
    (h0 : ∀ l : Fin 128, x0 (ix2 n l) = a0 (ix2 r l)) (h2 : ∀ q : Fin 9, x2 (ix2 n q) = a2 (ix2 r q)) :
    k1_pay2 (F := Ideal) x0 x2 x3 x4 x5 x6 (ix2 n a) = Gc a0 a2 x3 x4 x5 x6 (ix2 r a) := by
  rw [pay2_apply]
  show coutRow _ _ _ _ x3 x4 x5 x6 a
    = coutRow (fun b => a2 (ix2 r (⟨b.val, by omega⟩ : Fin 9))) (fun b => a2 (ix2 r (⟨b.val + 3, by omega⟩ : Fin 9)))
        (fun b => a2 (ix2 r (⟨b.val + 6, by omega⟩ : Fin 9))) (fun l => a0 (ix2 r l)) x3 x4 x5 x6 a
  rw [funext h0, funext fun b : Fin 3 => h2 (⟨b.val, by omega⟩ : Fin 9), funext fun b : Fin 3 => h2 (⟨b.val + 3, by omega⟩ : Fin 9),
    funext fun b : Fin 3 => h2 (⟨b.val + 6, by omega⟩ : Fin 9)]

/-- Row n of the packed tile at point t is row 2000 t + n of the packed array. -/
theorem tile2_apply (c : Dev nD) (t : Fin cfg1.N) (n : Fin 2000) (q : Fin 9) (r : Fin 50000) (hr : r.val = t.val * 2000 + n.val) :
    (iblk1 V c 2 t : Vec Ideal S2000x9 .f32) (ix2 n q) = V c main_v23 (ix2 r q) := by
  obtain ⟨-, -, -, -, e0, e1, -⟩ := idx_tiles t
  unfold iblk1
  rw [View.read_apply]
  show V c main_v23 (((cfg1.win 2).blk t).view.emb (ix2 n q)) = V c main_v23 (ix2 r q)
  congr 1
  funext a
  apply Fin.ext
  match a with
  | ⟨0, _⟩ => show win1_2.index t (0 : Fin 2) * 2000 + 1 * n.val = r.val; omega
  | ⟨1, _⟩ => show win1_2.index t (1 : Fin 2) * 9 + 1 * q.val = q.val; omega

/-- The weight blocks of the velocity network are the whole weight arrays, at every point. -/
theorem wblk3 (c : Dev nD) (t : Fin cfg1.N) : (iblk1 V c 3 t : Vec Ideal S128x128 .f32) = V c main_arg12 := by
  obtain ⟨e0, e1, -⟩ := idx_weights t
  funext y
  unfold iblk1
  rw [View.read_apply]
  show V c main_arg12 (((cfg1.win 3).blk t).view.emb y) = V c main_arg12 y
  congr 1
  funext a
  apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem wblk4 (c : Dev nD) (t : Fin cfg1.N) : (iblk1 V c 4 t : Vec Ideal S128 .f32) = V c main_arg13 := by
  obtain ⟨-, -, e0, -⟩ := idx_weights t
  funext y
  unfold iblk1
  rw [View.read_apply]
  show V c main_arg13 (((cfg1.win 4).blk t).view.emb y) = V c main_arg13 y
  congr 1
  funext a
  apply Fin.ext
  match a with
  | ⟨0, _⟩ => show win1_4.index t (0 : Fin 1) * 128 + 1 * (y 0).val = (y 0).val; omega

theorem wblk5 (c : Dev nD) (t : Fin cfg1.N) : (iblk1 V c 5 t : Vec Ideal S1x128 .f32) = V c main_v24 := by
  obtain ⟨-, -, -, e0, e1, -⟩ := idx_weights t
  funext y
  unfold iblk1
  rw [View.read_apply]
  show V c main_v24 (((cfg1.win 5).blk t).view.emb y) = V c main_v24 y
  congr 1
  funext a
  apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

theorem wblk6 (c : Dev nD) (t : Fin cfg1.N) : (iblk1 V c 6 t : Vec Ideal S1 .f32) = V c main_arg15 := by
  obtain ⟨-, -, -, -, -, e0, -⟩ := idx_weights t
  funext y
  unfold iblk1
  rw [View.read_apply]
  show V c main_arg15 (((cfg1.win 6).blk t).view.emb y) = V c main_arg15 y
  congr 1
  funext a
  apply Fin.ext
  match a with
  | ⟨0, _⟩ => show win1_6.index t (0 : Fin 1) * 1 + 1 * (y 0).val = (y 0).val; omega

/-- What point t writes back to the coordinate array is block t of the one whole-array function. -/
theorem flushed11_eq (c : Dev nD) (t : Fin cfg1.N) :
    (dat1 (F := Ideal) V c).flushed 11 t
      = ((cfg1.win 11).blk t).view.read (Elt Ideal)
          (Gc (V c main_arg0) (V c main_v23) (V c main_arg12) (V c main_arg13) (V c main_v24) (V c main_arg15)) := by
  show (cfg1.win 11).cut (grid1.coords t) ((dat1 V c).after 11 t) = _
  rw [after1_11, nodeC_eq, wblk3, wblk4, wblk5, wblk6]
  obtain ⟨-, -, -, -, -, -, e0, e1, -⟩ := idx_tiles t
  funext y
  have hy0 : (y 0).val < 2000 := (y 0).isLt
  have hy1 : (y 1).val < 3 := (y 1).isLt
  have hN : t.val < 25 := Nat.lt_of_lt_of_eq t.isLt (N_1 : cfg1.N = 25)
  rw [View.read_apply]
  show k1_pay2 (F := Ideal) (iblk1 V c 0 t) (iblk1 V c 2 t) (V c main_arg12) (V c main_arg13) (V c main_v24) (V c main_arg15)
        ((cfg1.win 11).xinj (grid1.coords t) y)
      = Gc (V c main_arg0) (V c main_v23) (V c main_arg12) (V c main_arg13) (V c main_v24) (V c main_arg15)
          (((cfg1.win 11).blk t).view.emb y)
  have ex : (cfg1.win 11).xinj (grid1.coords t) y = ix2 (⟨(y 0).val, hy0⟩ : Fin 2000) (⟨(y 1).val, hy1⟩ : Fin 3) := by
    funext a; match a with | ⟨0, _⟩ => rfl | ⟨1, _⟩ => rfl
  have ee : ((cfg1.win 11).blk t).view.emb y
      = ix2 (⟨t.val * 2000 + (y 0).val, by omega⟩ : Fin 50000) (⟨(y 1).val, hy1⟩ : Fin 3) := by
    funext a
    apply Fin.ext
    match a with
    | ⟨0, _⟩ => show win1_11.index t (0 : Fin 2) * 2000 + 1 * (y 0).val = t.val * 2000 + (y 0).val; omega
    | ⟨1, _⟩ => show win1_11.index t (1 : Fin 2) * 3 + 1 * (y 1).val = (y 1).val; omega
  rw [ex, ee]
  exact cblock (iblk1 V c 0 t) (iblk1 V c 2 t) (V c main_arg0) (V c main_v23) (V c main_arg12) (V c main_arg13) (V c main_v24)
    (V c main_arg15) _ _ _ (fun l => tile0_apply V c t _ l _ rfl) (fun q => tile2_apply V c t _ q _ rfl)

/-- An index of the coordinate array is in point t's block iff each coordinate is in the block's range on its axis. -/
theorem mem_blk11 (t : Fin cfg1.N) (i : S50000x3.Idx) :
    i ∈ ((cfg1.win 11).blk t).view.set ↔ ∀ a : Fin 2, win1_11.index t a * S2000x3.size a ≤ (i a).val ∧ (i a).val < win1_11.index t a * S2000x3.size a + S2000x3.size a := by
  show i ∈ ((View.whole main_v25_0).slice (win1_11.rect t)).set ↔ _
  rw [View.set_slice_whole, Rect.mem_set_unit]
  exact Iff.rfl

/-- Every index of the coordinate array is in a written block: row r is in the block of point r / 2000. -/
theorem cover11 (i : S50000x3.Idx) : ∃ t : Fin cfg1.N, (cfg1.win 11).flush t = true ∧ i ∈ ((cfg1.win 11).blk t).view.set := by
  have hi0 : (i 0).val < 50000 := (i 0).isLt
  have hi1 : (i 1).val < 3 := (i 1).isLt
  refine ⟨⟨(i 0).val / 2000, by rw [show cfg1.N = 25 from N_1]; omega⟩, flush1_11 _, ?_⟩
  rw [mem_blk11]
  obtain ⟨-, -, -, -, -, -, e0, e1, -⟩ := idx_tiles ⟨(i 0).val / 2000, by rw [show cfg1.N = 25 from N_1]; omega⟩
  intro a
  match a with
  | ⟨0, _⟩ =>
    show win1_11.index _ (0 : Fin 2) * 2000 ≤ (i 0).val ∧ (i 0).val < win1_11.index _ (0 : Fin 2) * 2000 + 2000
    rw [e0]; show (i 0).val / 2000 * 2000 ≤ (i 0).val ∧ (i 0).val < (i 0).val / 2000 * 2000 + 2000; omega
  | ⟨1, _⟩ =>
    show win1_11.index _ (1 : Fin 2) * 3 ≤ (i 1).val ∧ (i 1).val < win1_11.index _ (1 : Fin 2) * 3 + 3
    rw [e1]; omega

/-- The coordinate array after the last point is the one whole-array function. -/
theorem cout_array (c : Dev nD) :
    (dat1 (F := Ideal) V c).arrAt 11 cfg1.N
      = Gc (V c main_arg0) (V c main_v23) (V c main_arg12) (V c main_arg13) (V c main_v24) (V c main_arg15) :=
  (dat1 (F := Ideal) V c).arrAt_eq_of_cover 11
    (Gc (V c main_arg0) (V c main_v23) (V c main_arg12) (V c main_arg13) (V c main_v24) (V c main_arg15))
    (fun t _ => flushed11_eq V c t) cover11

end B1

/-- The coordinate array the node kernel leaves, at (n, a). -/
theorem cout_apply (c : Dev nD) (n : Fin 50000) (a : Fin 3) :
    (dat1 (F := Ideal) V c).arrAt 11 cfg1.N (ix2 n a)
      = coutRow (fun b => V c main_v23 (ix2 n (⟨b.val, by omega⟩ : Fin 9))) (fun b => V c main_v23 (ix2 n (⟨b.val + 3, by omega⟩ : Fin 9)))
          (fun b => V c main_v23 (ix2 n (⟨b.val + 6, by omega⟩ : Fin 9))) (fun l => V c main_arg0 (ix2 n l))
          (V c main_arg12) (V c main_arg13) (V c main_v24) (V c main_arg15) a := by
  rw [B1.cout_array]

/-- The feature array the node kernel leaves, at (n, j). -/
theorem hout_apply (c : Dev nD) (n : Fin 50000) (j : Fin 128) :
    (dat1 (F := Ideal) V c).arrAt 12 cfg1.N (ix2 n j)
      = houtRow (fun l => V c main_arg0 (ix2 n l)) (fun l => V c main_v22 (ix2 n l))
          (V c main_arg16) (V c main_arg17) (V c main_arg18) (V c main_arg19) j := by
  rw [B1.hout_array]

end Cert.KernelIdeal.Val

end
-- ==== Proof.EdgeValue.lean ====
/-
  The edge kernel's two stored tiles read at an entry, at the ideal values: row e of the message tile is the spec's
  message of row e of the two feature tiles and of that row's squared distance; row e of the direction tile is the
  spec's weighted direction of that row's difference, squared distance and message. Each matrix product into the zero
  accumulator is the plain sum over the contracted coordinate; the lane sum of the 128 -> 1 layer is a plain sum too.
-/
import proofs.«413287_j91122026152067_3_alg».proof.Proof.Gen.KernelIdeal.Skeleton
import proofs.«413287_j91122026152067_3_alg».proof.Proof.Spec
import proofs.«413287_j91122026152067_3_alg».proof.Proof.LibPlainMatmul
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen EgnnSpec
open Idealize.ShloMosaic Idealize.ShloMosaic.ValueIdx

/-! ## Layout operations of the tile read at an entry -/

section Layout
variable {α : Type}

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The last column of a four-column tile, cut out as a column, reads at `(e, u)` the tile's entry `(e, 3)`. -/
theorem slice_col3_apply {m : ℕ} (X : (⟨2, ![m, 4]⟩ : Shape).Idx → α) (h : (⟨2, ![m, 4]⟩ : Shape).Slices ![0, 3] ⟨2, ![m, 1]⟩)
    (e : Fin m) (u : Fin 1) : extractStridedSlice ⟨2, ![m, 1]⟩ ![0, 3] X h (ix2 e u) = X (ix2 e (3 : Fin 4)) :=
  slice2_axis1_apply 3 X h e u (3 : Fin 4) (by have := u.isLt; show 3 = 3 + u.val; omega)

/-- The first three columns of a four-column tile read at `(e, a)` the tile's entry `(e, a)`. -/
theorem slice_cols012_apply {m : ℕ} (X : (⟨2, ![m, 4]⟩ : Shape).Idx → α) (h : (⟨2, ![m, 4]⟩ : Shape).Slices ![0, 0] ⟨2, ![m, 3]⟩)
    (e : Fin m) (a : Fin 3) : extractStridedSlice ⟨2, ![m, 3]⟩ ![0, 0] X h (ix2 e a) = X (ix2 e a.castSucc) :=
  slice2_axis1_apply 0 X h e a a.castSucc (by show a.val = 0 + a.val; omega)

/-- Two 128-lane tiles laid side by side read, at `(e, l)`, the two rows `e` laid side by side at `l`. -/
theorem concat_lanes_apply {m : ℕ} (x₁ x₂ : (⟨2, ![m, 128]⟩ : Shape).Idx → EReal)
    (h : Shape.Concatenates [(⟨2, ![m, 128]⟩ : Shape), ⟨2, ![m, 128]⟩] ⟨2, ![m, 256]⟩ 1) (e : Fin m) (l : Fin 256) :
    concatenate ⟨2, ![m, 256]⟩ 1 [⟨⟨2, ![m, 128]⟩, x₁⟩, ⟨⟨2, ![m, 128]⟩, x₂⟩] h (ix2 e l)
      = cat2 (fun c => x₁ (ix2 e c)) (fun c => x₂ (ix2 e c)) l := by
  unfold cat2
  split
  · next hl =>
    refine concatenate_pair_apply_left 1 x₁ x₂ h (ix2 e l) rfl (ix2 e ⟨l.val, hl⟩) fun b => ?_
    match b with
    | ⟨0, _⟩ => rfl
    | ⟨1, _⟩ => rfl
  · next hl =>
    refine concatenate_pair_apply_right 1 x₁ x₂ h (ix2 e l) rfl rfl (ix2 e ⟨l.val - 128, by omega⟩) (fun b hb => ?_) ?_
    · match b with
      | ⟨0, _⟩ => rfl
      | ⟨1, _⟩ => exact absurd rfl hb
    · show l.val - 128 + 128 = l.val
      omega

end Layout

/-- The sum over the lanes of a tile, from the zero word, reads at `e` the sum of row `e`. -/
theorem laneSum_apply {m n : ℕ} (src : FVec Ideal ⟨2, ![m, n]⟩ .f32) (h : (⟨2, ![m, n]⟩ : Shape).Reduces [1] ⟨1, ![m]⟩)
    (hacc : (0x00000000#32 : BitVec 32) = 0x00000000#32) (e : Fin m) :
    multiReduction (F := Ideal) .add [1] ⟨1, ![m]⟩ src 0x00000000#32 h (.inl rfl) hacc (ix1 e) = ∑ k : Fin n, src (ix2 e k) := by
  refine (Ideal.multiReduction_add_single src 0x00000000#32 h (.inl rfl) hacc (ix1 e)).trans ?_
  refine Finset.sum_congr rfl fun k _ => congrArg src ?_
  funext ax
  match ax with
  | ⟨0, _⟩ => rfl
  | ⟨1, _⟩ => rfl

/-! ## The layers of the two networks read at an entry -/

/-- `v · logistic v`, lane by lane, is the spec's `silu` of the entry. -/
theorem silu_apply {s : Shape} (v : FVec Ideal s .f32) (i : s.Idx) : mulf v (logistic v) i = silu (v i) := rfl

/-- A dense layer — a product into the zero tile plus a bias row spread over the rows — at `(e, j)`. -/
theorem dense_apply {m k n : ℕ} (d : DotDims ⟨2, ![m, k]⟩ ⟨2, ![k, n]⟩ ⟨2, ![m, n]⟩) (hd : d = DotDims.plain m k n)
    (X : FVec Ideal ⟨2, ![m, k]⟩ .f32) (W : FVec Ideal ⟨2, ![k, n]⟩ .f32) (b : FVec Ideal ⟨1, ![n]⟩ .f32)
    (h1 : (⟨1, ![n]⟩ : Shape).ShapeCasts ⟨2, ![1, n]⟩) (h2 : (⟨2, ![1, n]⟩ : Shape).Broadcasts ⟨2, ![m, n]⟩)
    (e : Fin m) (j : Fin n) :
    addf (matmul d none X W (constant (F := Ideal) ⟨2, ![m, n]⟩ .f32 0x00000000#32))
        (broadcastTo ⟨2, ![m, n]⟩ (shapeCast ⟨2, ![1, n]⟩ b h1) h2) (ix2 e j)
      = (∑ c : Fin k, X (ix2 e c) * W (ix2 c j)) + b (ix1 j) := by
  show matmul d none X W _ (ix2 e j) + broadcastTo _ _ h2 (ix2 e j) = _
  rw [PlainMatmul.matmul_zero_apply_of_eq d hd none X W e j, broadcastTo_1b_ab_apply, shapeCast_a_1a_apply]

/-- The squared-distance column of the edge tile at `(e, u)` is the tile's entry `(e, 3)`. -/
theorem pay3_apply (x2 : Vec Ideal S4000x4 .f32) (e : Fin 4000) (u : Fin 1) :
    k0_pay3 (F := Ideal) x2 (ix2 e u) = x2 (ix2 e 3) := by
  unfold k0_pay3 k0_pay2
  simp only [shapeCast_self]
  exact slice_col3_apply x2 _ e u

/-- The message tile at (e, j). -/
theorem pay5_apply (x0 x1 : Vec Ideal S4000x128 .f32) (x2 : Vec Ideal S4000x4 .f32) (x3 : Vec Ideal S256x128 .f32)
    (x4 : Vec Ideal S1x128 .f32) (x5 : Vec Ideal S128 .f32) (x6 : Vec Ideal S128x128 .f32) (x7 : Vec Ideal S128 .f32)
    (e : Fin 4000) (j : Fin 128) :
    k0_pay5 (F := Ideal) x0 x1 x2 x3 x4 x5 x6 x7 (ix2 e j)
      = mijRow (fun l => x0 (ix2 e l)) (fun l => x1 (ix2 e l)) (x2 (ix2 e 3)) x3 x4 x5 x6 x7 j := by
  unfold k0_pay5
  simp only [shapeCast_self]
  refine (silu_apply _ _).trans ?_
  unfold mijRow
  refine congrArg silu ?_
  refine (dense_apply _ rfl _ _ _ _ _ e j).trans ?_
  refine congrArg (· + x7 (ix1 j)) ?_
  refine Finset.sum_congr rfl fun k _ => congrArg (· * x6 (ix2 k j)) ?_
  refine (silu_apply _ _).trans ?_
  unfold hid1
  refine congrArg silu ?_
  show matmul _ none _ _ _ (ix2 e k) + broadcastTo _ (k0_pay3 x2) _ (ix2 e k) * broadcastTo _ x4 _ (ix2 e k)
      + broadcastTo _ (shapeCast _ x5 _) _ (ix2 e k) = _
  rw [PlainMatmul.matmul_zero_apply_of_eq dot_S4000x256_S256x128_S4000x128_1_0_0_1_n_n rfl none _ _ e k, broadcastTo_a1_ab_apply, pay3_apply, broadcastTo_1b_ab_apply,
    broadcastTo_1b_ab_apply, shapeCast_a_1a_apply]
  refine congrArg (· + x2 (ix2 e 3) * x4 (ix2 0 k) + x5 (ix1 k)) ?_
  refine Finset.sum_congr rfl fun l _ => congrArg (· * x3 (ix2 l k)) ?_
  refine (concat_lanes_apply _ _ _ e l).trans ?_
  simp only [shapeCast_self]

/-- The normalised difference tile at `(e, a)`: the difference's coordinate over the distance plus the literal. -/
theorem pay4_apply (x2 : Vec Ideal S4000x4 .f32) (e : Fin 4000) (a : Fin 3) :
    k0_pay4 (F := Ideal) x2 (ix2 e a) = Ideal.div (x2 (ix2 e a.castSucc)) (Ideal.sqrt (x2 (ix2 e 3)) + eps) := by
  unfold k0_pay4 k0_pay2
  simp only [shapeCast_self]
  show Ideal.div (extractStridedSlice _ _ x2 _ (ix2 e a)) (broadcastTo _ _ _ (ix2 e a)) = _
  rw [slice_cols012_apply, broadcastTo_a1_ab_apply]
  show Ideal.div _ (Ideal.sqrt (k0_pay3 x2 (ix2 e 0)) + _) = _
  rw [pay3_apply]
  rfl

/-- The direction tile at (e, a), over any message tile `mt`. -/
theorem pay1_apply (x2 : Vec Ideal S4000x4 .f32) (mt : FVec Ideal S4000x128 .f32) (x8 : Vec Ideal S128x128 .f32)
    (x9 : Vec Ideal S128 .f32) (x10 : Vec Ideal S1x128 .f32) (x11 : Vec Ideal S1 .f32) (e : Fin 4000) (a : Fin 3) :
    k0_pay1 (F := Ideal) (k0_pay4 x2) mt x8 x9 x10 x11 (ix2 e a)
      = wdRow (fun b => x2 (ix2 e b.castSucc)) (x2 (ix2 e 3)) (fun l => mt (ix2 e l)) x8 x9 x10 x11 a := by
  unfold k0_pay1
  simp only [shapeCast_self]
  show k0_pay4 x2 (ix2 e a) * broadcastTo _ _ _ (ix2 e a) = _
  rw [pay4_apply, broadcastTo_a1_ab_apply]
  unfold wdRow
  refine congrArg (Ideal.div (x2 (ix2 e a.castSucc)) (Ideal.sqrt (x2 (ix2 e 3)) + eps) * ·) ?_
  show shapeCast _ _ _ (ix2 e 0) + broadcastTo _ (shapeCast _ x11 _) _ (ix2 e 0) = _
  rw [shapeCast_a_a1_apply, broadcastTo_1b_ab_apply, shapeCast_a_1a_apply]
  unfold scalarNet
  refine congrArg (· + x11 (ix1 0)) ?_
  refine (laneSum_apply _ _ _ e).trans ?_
  refine Finset.sum_congr rfl fun k _ => ?_
  refine (mulf_apply _ _ (ix2 e k)).trans ?_
  rw [broadcastTo_1b_ab_apply]
  refine congrArg (· * x10 (ix2 0 k)) ?_
  refine (silu_apply _ _).trans (congrArg silu ?_)
  exact dense_apply _ rfl mt x8 x9 _ _ e k

end Cert.KernelIdeal.Val

end
-- ==== Proof.Blocks0.lean ====
/-
  From blocks to arrays, for the edge kernel: each grid point t writes back rows 4000 t … 4000 t + 3999 of the two output
  arrays, and row e of a written block depends only on row e of the three tiled inputs and on the whole weight blocks,
  which are the whole weight arrays. So after the last point the message array at (e, j) is the spec's message of row e of
  the two gathered feature arrays and of that edge's squared distance, and the direction array at (e, a) the spec's weighted
  direction of that edge's difference, squared distance and message row.

  The steps: the block index of every window at every grid point, decided once over the 125 points; each tile block at row p
  as its array at row 4000 t + p, each weight block as its whole array; one whole-array function for each output, of which
  the block a point writes back is the block at that point; every row r lies in the block of point r / 4000; hence the
  array after the last point is that function.
-/
import proofs.«413287_j91122026152067_3_alg».proof.Proof.Region0
import proofs.«413287_j91122026152067_3_alg».proof.Proof.EdgeValue
import Idealize.ShloMosaic.Lib.Pipeline.Value

set_option maxRecDepth 16384

noncomputable section

namespace Cert.KernelIdeal.Val.B0

open Cert.KernelIdeal Cert.KernelIdeal.Gen Cert.KernelIdeal.Hand EgnnSpec
open Idealize.ShloMosaic Idealize.ShloMosaic.TcCoe Idealize.ShloMosaic.ValueIdx
open Idealize.ShloMosaic.Pipeline (Dat)

-- the TensorCore's buffer contents when the edge kernel is entered
variable (V : (c : Dev nD) → (b : Ref sig .tc) → Buf (Elt Ideal) ((c : Thread nD τ).loc b))

/-! ## The index maps -/

/-- The index maps over the grid: a tile window's block index at point t is (t, 0); so is each output window's. -/
theorem idx_tiles : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- A weight window's block index is zero on every axis at every point. -/
theorem idx_weights : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 1) = 0 :=
  (by decide +kernel : ∀ t : Fin grid0.N, _)

/-- The whole message array as one function of the arrays the kernel reads. -/
abbrev G12 (A0 A1 : S500000x128.Idx → EReal) (A2 : S500000x4.Idx → EReal) (W1 : M 256 128) (wr : M 1 128) (b1 : Vc 128)
    (W2 : M 128 128) (b2 : Vc 128) : S500000x128.Idx → EReal :=
  fun i => mijRow (fun l => A0 (ix2 (i 0) l)) (fun l => A1 (ix2 (i 0) l)) (A2 (ix2 (i 0) 3)) W1 wr b1 W2 b2 (i 1)

/-- Row p of the message tile, when row p of each input tile is row e of its array. -/
theorem mij_tile (A0 A1 : S500000x128.Idx → EReal) (A2 : S500000x4.Idx → EReal)
    (x0 x1 : Vec Ideal S4000x128 .f32) (x2 : Vec Ideal S4000x4 .f32) (x3 : Vec Ideal S256x128 .f32)
    (x4 : Vec Ideal S1x128 .f32) (x5 : Vec Ideal S128 .f32) (x6 : Vec Ideal S128x128 .f32) (x7 : Vec Ideal S128 .f32)
    (p : Fin 4000) (q : Fin 128) (e : Fin 500000)
    (h0 : ∀ l : Fin 128, x0 (ix2 p l) = A0 (ix2 e l)) (h1 : ∀ l : Fin 128, x1 (ix2 p l) = A1 (ix2 e l))
    (h2 : x2 (ix2 p 3) = A2 (ix2 e 3)) :
    k0_pay5 (F := Ideal) x0 x1 x2 x3 x4 x5 x6 x7 (ix2 p q) = G12 A0 A1 A2 x3 x4 x5 x6 x7 (ix2 e q) := by
  refine (pay5_apply x0 x1 x2 x3 x4 x5 x6 x7 p q).trans ?_
  show mijRow _ _ _ x3 x4 x5 x6 x7 q = mijRow (fun l => A0 (ix2 e l)) (fun l => A1 (ix2 e l)) (A2 (ix2 e 3)) x3 x4 x5 x6 x7 q
  rw [funext h0, funext h1, h2]

/-! ## Each input block as a part of its array -/

/-- Row p of the first feature tile at point t is row 4000 t + p of the first gathered feature array. -/
theorem tile0_apply (c : Dev nD) (t : Fin cfg0.N) (p : Fin 4000) (l : Fin 128) (e : Fin 500000) (he : e.val = t.val * 4000 + p.val) :
    (iblk0 (F := Ideal) V c 0 t : Vec Ideal S4000x128 .f32) (ix2 p l) = V c main_v4 (ix2 e l) := by
  obtain ⟨a0, a1, -⟩ := idx_tiles t
  unfold iblk0
  rw [View.read_apply]
  show V c main_v4 (((cfg0.win 0).blk t).view.emb (ix2 p l)) = V c main_v4 (ix2 e l)
  congr 1
  funext a; apply Fin.ext
  match a with
  | ⟨0, _⟩ => show win0_0.index t (0 : Fin 2) * 4000 + 1 * p.val = e.val; omega
  | ⟨1, _⟩ => show win0_0.index t (1 : Fin 2) * 128 + 1 * l.val = l.val; omega

/-- Row p of the second feature tile at point t is row 4000 t + p of the second gathered feature array. -/
theorem tile1_apply (c : Dev nD) (t : Fin cfg0.N) (p : Fin 4000) (l : Fin 128) (e : Fin 500000) (he : e.val = t.val * 4000 + p.val) :
    (iblk0 (F := Ideal) V c 1 t : Vec Ideal S4000x128 .f32) (ix2 p l) = V c main_v5 (ix2 e l) := by
  obtain ⟨-, -, a0, a1, -⟩ := idx_tiles t
  unfold iblk0
  rw [View.read_apply]
  show V c main_v5 (((cfg0.win 1).blk t).view.emb (ix2 p l)) = V c main_v5 (ix2 e l)
  congr 1
  funext a; apply Fin.ext
  match a with
  | ⟨0, _⟩ => show win0_1.index t (0 : Fin 2) * 4000 + 1 * p.val = e.val; omega
  | ⟨1, _⟩ => show win0_1.index t (1 : Fin 2) * 128 + 1 * l.val = l.val; omega

/-- Row p of the geometry tile at point t is row 4000 t + p of the packed geometry array. -/
theorem tile2_apply (c : Dev nD) (t : Fin cfg0.N) (p : Fin 4000) (b : Fin 4) (e : Fin 500000) (he : e.val = t.val * 4000 + p.val) :
    (iblk0 (F := Ideal) V c 2 t : Vec Ideal S4000x4 .f32) (ix2 p b) = V c main_v12 (ix2 e b) := by
  obtain ⟨-, -, -, -, a0, a1, -⟩ := idx_tiles t
  unfold iblk0
  rw [View.read_apply]
  show V c main_v12 (((cfg0.win 2).blk t).view.emb (ix2 p b)) = V c main_v12 (ix2 e b)
  congr 1
  funext a; apply Fin.ext
  match a with
  | ⟨0, _⟩ => show win0_2.index t (0 : Fin 2) * 4000 + 1 * p.val = e.val; omega
  | ⟨1, _⟩ => show win0_2.index t (1 : Fin 2) * 4 + 1 * b.val = b.val; omega

/-! ## Each weight block is its whole array -/

/-- The first edge layer's weight block is the whole weight array. -/
theorem wblk3 (c : Dev nD) (t : Fin cfg0.N) : (iblk0 (F := Ideal) V c 3 t : Vec Ideal S256x128 .f32) = V c main_v13 := by
  have h := idx_weights t
  funext y
  unfold iblk0
  rw [View.read_apply]
  show V c main_v13 (((cfg0.win 3).blk t).view.emb y) = V c main_v13 y
  congr 1
  funext a; apply Fin.ext
  match a with
  | ⟨0, _⟩ => show win0_3.index t (0 : Fin 2) * 256 + 1 * (y 0).val = (y 0).val; omega
  | ⟨1, _⟩ => show win0_3.index t (1 : Fin 2) * 128 + 1 * (y 1).val = (y 1).val; omega

/-- The squared-distance weight row's block is the whole row. -/
theorem wblk4 (c : Dev nD) (t : Fin cfg0.N) : (iblk0 (F := Ideal) V c 4 t : Vec Ideal S1x128 .f32) = V c main_v14 := by
  have h := idx_weights t
  funext y
  unfold iblk0
  rw [View.read_apply]
  show V c main_v14 (((cfg0.win 4).blk t).view.emb y) = V c main_v14 y
  congr 1
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The first edge layer's bias block is the whole bias. -/
theorem wblk5 (c : Dev nD) (t : Fin cfg0.N) : (iblk0 (F := Ideal) V c 5 t : Vec Ideal S128 .f32) = V c main_arg5 := by
  have h := idx_weights t
  funext y
  unfold iblk0
  rw [View.read_apply]
  show V c main_arg5 (((cfg0.win 5).blk t).view.emb y) = V c main_arg5 y
  congr 1
  funext a; apply Fin.ext
  match a with
  | ⟨0, _⟩ => show win0_5.index t (0 : Fin 1) * 128 + 1 * (y 0).val = (y 0).val; omega

/-- The second edge layer's weight block is the whole weight array. -/
theorem wblk6 (c : Dev nD) (t : Fin cfg0.N) : (iblk0 (F := Ideal) V c 6 t : Vec Ideal S128x128 .f32) = V c main_arg6 := by
  have h := idx_weights t
  funext y
  unfold iblk0
  rw [View.read_apply]
  show V c main_arg6 (((cfg0.win 6).blk t).view.emb y) = V c main_arg6 y
  congr 1
  funext a; apply Fin.ext
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- The second edge layer's bias block is the whole bias. -/
theorem wblk7 (c : Dev nD) (t : Fin cfg0.N) : (iblk0 (F := Ideal) V c 7 t : Vec Ideal S128 .f32) = V c main_arg7 := by
  have h := idx_weights t
  funext y
  unfold iblk0
  rw [View.read_apply]
  show V c main_arg7 (((cfg0.win 7).blk t).view.emb y) = V c main_arg7 y
  congr 1
  funext a; apply Fin.ext
  match a with
  | ⟨0, _⟩ => show win0_7.index t (0 : Fin 1) * 128 + 1 * (y 0).val = (y 0).val; omega

/-- The coordinate network's first weight block is the whole weight array. -/
theorem wblk8 (c : Dev nD) (t : Fin cfg0.N) : (iblk0 (F := Ideal) V c 8 t : Vec Ideal S128x128 .f32) = V c main_arg8 := by
  have h := idx_weights t
  funext y
  unfold iblk0
  rw [View.read_apply]
  show V c main_arg8 (((cfg0.win 8).blk t).view.emb y) = V c main_arg8 y
  congr 1
  funext a; apply Fin.ext
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- The coordinate network's first bias block is the whole bias. -/
theorem wblk9 (c : Dev nD) (t : Fin cfg0.N) : (iblk0 (F := Ideal) V c 9 t : Vec Ideal S128 .f32) = V c main_arg9 := by
  have h := idx_weights t
  funext y
  unfold iblk0
  rw [View.read_apply]
  show V c main_arg9 (((cfg0.win 9).blk t).view.emb y) = V c main_arg9 y
  congr 1
  funext a; apply Fin.ext
  match a with
  | ⟨0, _⟩ => show win0_9.index t (0 : Fin 1) * 128 + 1 * (y 0).val = (y 0).val; omega

/-- The coordinate network's output weight row's block is the whole row. -/
theorem wblk10 (c : Dev nD) (t : Fin cfg0.N) : (iblk0 (F := Ideal) V c 10 t : Vec Ideal S1x128 .f32) = V c main_v15 := by
  have h := idx_weights t
  funext y
  unfold iblk0
  rw [View.read_apply]
  show V c main_v15 (((cfg0.win 10).blk t).view.emb y) = V c main_v15 y
  congr 1
  funext a; apply Fin.ext
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- The coordinate network's output bias block is the whole bias. -/
theorem wblk11 (c : Dev nD) (t : Fin cfg0.N) : (iblk0 (F := Ideal) V c 11 t : Vec Ideal S1 .f32) = V c main_arg11 := by
  have h := idx_weights t
  funext y
  unfold iblk0
  rw [View.read_apply]
  show V c main_arg11 (((cfg0.win 11).blk t).view.emb y) = V c main_arg11 y
  congr 1
  funext a; apply Fin.ext
  match a with
  | ⟨0, _⟩ => show win0_11.index t (0 : Fin 1) * 1 + 1 * (y 0).val = (y 0).val; omega

/-! ## The message array -/

/-- Row p of the message tile at point t is the whole-array function at row 4000 t + p. -/
theorem mij_point (c : Dev nD) (t : Fin cfg0.N) (p : Fin 4000) (q : Fin 128) (e : Fin 500000) (he : e.val = t.val * 4000 + p.val) :
    k0_pay5 (F := Ideal) (iblk0 V c 0 t) (iblk0 V c 1 t) (iblk0 V c 2 t) (iblk0 V c 3 t) (iblk0 V c 4 t) (iblk0 V c 5 t) (iblk0 V c 6 t) (iblk0 V c 7 t) (ix2 p q)
      = G12 (V c main_v4) (V c main_v5) (V c main_v12) (V c main_v13) (V c main_v14) (V c main_arg5) (V c main_arg6) (V c main_arg7) (ix2 e q) := by
  rw [← wblk3 V c t, ← wblk4 V c t, ← wblk5 V c t, ← wblk6 V c t, ← wblk7 V c t]
  exact mij_tile (V c main_v4) (V c main_v5) (V c main_v12) _ _ _ _ _ _ _ _ p q e
    (fun l => tile0_apply V c t p l e he) (fun l => tile1_apply V c t p l e he) (tile2_apply V c t p 3 e he)

/-- What point t writes back to the message array is block t of the whole-array function. -/
theorem flushed12_eq (c : Dev nD) (t : Fin cfg0.N) :
    (dat0 (F := Ideal) V c).flushed 12 t = ((cfg0.win 12).blk t).view.read (Elt Ideal)
      (G12 (V c main_v4) (V c main_v5) (V c main_v12) (V c main_v13) (V c main_v14) (V c main_arg5) (V c main_arg6) (V c main_arg7)) := by
  show (cfg0.win 12).cut (grid0.coords t) ((dat0 V c).after 12 t) = _
  rw [after0_12, edgeM_eq]
  funext y
  obtain ⟨p, q, rfl⟩ : ∃ (p : Fin 4000) (q : Fin 128), y = ix2 p q := ⟨y 0, y 1, eq_ix2 (n0 := 4000) (n1 := 128) y⟩
  obtain ⟨-, -, -, -, -, -, d0, d1, -⟩ := idx_tiles t
  have ht : t.val < 125 := t.isLt
  have hp : p.val < 4000 := p.isLt
  show k0_pay5 (F := Ideal) (iblk0 V c 0 t) (iblk0 V c 1 t) (iblk0 V c 2 t) (iblk0 V c 3 t) (iblk0 V c 4 t) (iblk0 V c 5 t) (iblk0 V c 6 t) (iblk0 V c 7 t) (ix2 p q)
    = G12 (V c main_v4) (V c main_v5) (V c main_v12) (V c main_v13) (V c main_v14) (V c main_arg5) (V c main_arg6) (V c main_arg7) (((cfg0.win 12).blk t).view.emb (ix2 p q))
  have hemb : ((cfg0.win 12).blk t).view.emb (ix2 p q) = ix2 (⟨t.val * 4000 + p.val, by omega⟩ : Fin 500000) q := by
    funext a; apply Fin.ext
    match a with
    | ⟨0, _⟩ => show win0_12.index t (0 : Fin 2) * 4000 + 1 * p.val = t.val * 4000 + p.val; omega
    | ⟨1, _⟩ => show win0_12.index t (1 : Fin 2) * 128 + 1 * q.val = q.val; omega
  rw [hemb]
  exact mij_point V c t p q _ rfl

/-- An index of the message array is in point t's block iff each coordinate is in the block's range. -/
theorem mem_blk12 (t : Fin cfg0.N) (i : S500000x128.Idx) :
    i ∈ ((cfg0.win 12).blk t).view.set ↔ ∀ a : Fin 2, win0_12.index t a * S4000x128.size a ≤ (i a).val ∧ (i a).val < win0_12.index t a * S4000x128.size a + S4000x128.size a := by
  show i ∈ ((View.whole main_v16_0).slice (win0_12.rect t)).set ↔ _
  rw [View.set_slice_whole, Rect.mem_set_unit]
  exact Iff.rfl

/-- Every index of the message array is in the block of the point its row divided by 4000 names. -/
theorem cover12 (i : S500000x128.Idx) : ∃ t : Fin cfg0.N, (cfg0.win 12).flush t = true ∧ i ∈ ((cfg0.win 12).blk t).view.set := by
  have hi0 : (i 0).val < 500000 := (i 0).isLt
  have hi1 : (i 1).val < 128 := (i 1).isLt
  obtain ⟨t, ht⟩ : ∃ t : Fin cfg0.N, t.val = (i 0).val / 4000 := ⟨⟨(i 0).val / 4000, by show _ < 125; omega⟩, rfl⟩
  obtain ⟨-, -, -, -, -, -, d0, d1, -⟩ := idx_tiles t
  refine ⟨t, flush0_12 t, ?_⟩
  rw [mem_blk12]
  intro a
  match a with
  | ⟨0, _⟩ => show win0_12.index t (0 : Fin 2) * 4000 ≤ (i 0).val ∧ (i 0).val < win0_12.index t (0 : Fin 2) * 4000 + 4000; omega
  | ⟨1, _⟩ => show win0_12.index t (1 : Fin 2) * 128 ≤ (i 1).val ∧ (i 1).val < win0_12.index t (1 : Fin 2) * 128 + 128; omega

/-- The message array after the last point is the whole-array function. -/
theorem final12 (c : Dev nD) : (dat0 (F := Ideal) V c).arrAt 12 cfg0.N
    = G12 (V c main_v4) (V c main_v5) (V c main_v12) (V c main_v13) (V c main_v14) (V c main_arg5) (V c main_arg6) (V c main_arg7) :=
  (dat0 (F := Ideal) V c).arrAt_eq_of_cover 12 _ (fun t _ => flushed12_eq V c t) cover12

/-! ## The weighted direction array -/

/-- The whole weighted direction array as one function of the geometry array, the message array and the coordinate network's weights. -/
abbrev G13 (A2 : S500000x4.Idx → EReal) (Mm : S500000x128.Idx → EReal) (Wc1 : M 128 128) (bc1 : Vc 128) (wc2 : M 1 128) (bc2 : Vc 1) :
    S500000x3.Idx → EReal :=
  fun i => wdRow (fun b => A2 (ix2 (i 0) b.castSucc)) (A2 (ix2 (i 0) 3)) (fun l => Mm (ix2 (i 0) l)) Wc1 bc1 wc2 bc2 (i 1)

/-- Row p of the direction tile, when row p of the geometry tile and of the message tile is row e of its array. -/
theorem wd_tile (A2 : S500000x4.Idx → EReal) (Mm : S500000x128.Idx → EReal) (x2 : Vec Ideal S4000x4 .f32) (mt : FVec Ideal S4000x128 .f32)
    (x8 : Vec Ideal S128x128 .f32) (x9 : Vec Ideal S128 .f32) (x10 : Vec Ideal S1x128 .f32) (x11 : Vec Ideal S1 .f32)
    (p : Fin 4000) (a : Fin 3) (e : Fin 500000)
    (h2 : ∀ b : Fin 4, x2 (ix2 p b) = A2 (ix2 e b)) (hm : ∀ l : Fin 128, mt (ix2 p l) = Mm (ix2 e l)) :
    k0_pay1 (F := Ideal) (k0_pay4 x2) mt x8 x9 x10 x11 (ix2 p a) = G13 A2 Mm x8 x9 x10 x11 (ix2 e a) := by
  refine (pay1_apply x2 mt x8 x9 x10 x11 p a).trans ?_
  show wdRow _ _ _ x8 x9 x10 x11 a
    = wdRow (fun b => A2 (ix2 e b.castSucc)) (A2 (ix2 e 3)) (fun l => Mm (ix2 e l)) x8 x9 x10 x11 a
  rw [funext hm, h2 3, funext (fun b : Fin 3 => h2 b.castSucc)]

/-- What point t writes back to the direction array is block t of the whole-array function. -/
theorem flushed13_eq (c : Dev nD) (t : Fin cfg0.N) :
    (dat0 (F := Ideal) V c).flushed 13 t = ((cfg0.win 13).blk t).view.read (Elt Ideal)
      (G13 (V c main_v12)
        (G12 (V c main_v4) (V c main_v5) (V c main_v12) (V c main_v13) (V c main_v14) (V c main_arg5) (V c main_arg6) (V c main_arg7))
        (V c main_arg8) (V c main_arg9) (V c main_v15) (V c main_arg11)) := by
  show (cfg0.win 13).cut (grid0.coords t) ((dat0 V c).after 13 t) = _
  rw [after0_13, edgeW_eq]
  funext y
  obtain ⟨p, a, rfl⟩ : ∃ (p : Fin 4000) (a : Fin 3), y = ix2 p a := ⟨y 0, y 1, eq_ix2 (n0 := 4000) (n1 := 3) y⟩
  obtain ⟨-, -, -, -, -, -, -, -, d0, d1⟩ := idx_tiles t
  have ht : t.val < 125 := t.isLt
  have hp : p.val < 4000 := p.isLt
  show k0_pay1 (F := Ideal) (k0_pay4 (iblk0 V c 2 t))
      (k0_pay5 (iblk0 V c 0 t) (iblk0 V c 1 t) (iblk0 V c 2 t) (iblk0 V c 3 t) (iblk0 V c 4 t) (iblk0 V c 5 t) (iblk0 V c 6 t) (iblk0 V c 7 t))
      (iblk0 V c 8 t) (iblk0 V c 9 t) (iblk0 V c 10 t) (iblk0 V c 11 t) (ix2 p a)
    = G13 (V c main_v12)
        (G12 (V c main_v4) (V c main_v5) (V c main_v12) (V c main_v13) (V c main_v14) (V c main_arg5) (V c main_arg6) (V c main_arg7))
        (V c main_arg8) (V c main_arg9) (V c main_v15) (V c main_arg11) (((cfg0.win 13).blk t).view.emb (ix2 p a))
  have hemb : ((cfg0.win 13).blk t).view.emb (ix2 p a) = ix2 (⟨t.val * 4000 + p.val, by omega⟩ : Fin 500000) a := by
    funext b; apply Fin.ext
    match b with
    | ⟨0, _⟩ => show win0_13.index t (0 : Fin 2) * 4000 + 1 * p.val = t.val * 4000 + p.val; omega
    | ⟨1, _⟩ => show win0_13.index t (1 : Fin 2) * 3 + 1 * a.val = a.val; omega
  rw [hemb, ← wblk8 V c t, ← wblk9 V c t, ← wblk10 V c t, ← wblk11 V c t]
  exact wd_tile (V c main_v12) _ _ _ _ _ _ _ p a _ (fun b => tile2_apply V c t p b _ rfl) (fun l => mij_point V c t p l _ rfl)

/-- An index of the direction array is in point t's block iff each coordinate is in the block's range. -/
theorem mem_blk13 (t : Fin cfg0.N) (i : S500000x3.Idx) :
    i ∈ ((cfg0.win 13).blk t).view.set ↔ ∀ a : Fin 2, win0_13.index t a * S4000x3.size a ≤ (i a).val ∧ (i a).val < win0_13.index t a * S4000x3.size a + S4000x3.size a := by
  show i ∈ ((View.whole main_v16_1).slice (win0_13.rect t)).set ↔ _
  rw [View.set_slice_whole, Rect.mem_set_unit]
  exact Iff.rfl

/-- Every index of the direction array is in the block of the point its row divided by 4000 names. -/
theorem cover13 (i : S500000x3.Idx) : ∃ t : Fin cfg0.N, (cfg0.win 13).flush t = true ∧ i ∈ ((cfg0.win 13).blk t).view.set := by
  have hi0 : (i 0).val < 500000 := (i 0).isLt
  have hi1 : (i 1).val < 3 := (i 1).isLt
  obtain ⟨t, ht⟩ : ∃ t : Fin cfg0.N, t.val = (i 0).val / 4000 := ⟨⟨(i 0).val / 4000, by show _ < 125; omega⟩, rfl⟩
  obtain ⟨-, -, -, -, -, -, -, -, d0, d1⟩ := idx_tiles t
  refine ⟨t, flush0_13 t, ?_⟩
  rw [mem_blk13]
  intro a
  match a with
  | ⟨0, _⟩ => show win0_13.index t (0 : Fin 2) * 4000 ≤ (i 0).val ∧ (i 0).val < win0_13.index t (0 : Fin 2) * 4000 + 4000; omega
  | ⟨1, _⟩ => show win0_13.index t (1 : Fin 2) * 3 ≤ (i 1).val ∧ (i 1).val < win0_13.index t (1 : Fin 2) * 3 + 3; omega

/-- The direction array after the last point is the whole-array function. -/
theorem final13 (c : Dev nD) : (dat0 (F := Ideal) V c).arrAt 13 cfg0.N
    = G13 (V c main_v12)
        (G12 (V c main_v4) (V c main_v5) (V c main_v12) (V c main_v13) (V c main_v14) (V c main_arg5) (V c main_arg6) (V c main_arg7))
        (V c main_arg8) (V c main_arg9) (V c main_v15) (V c main_arg11) :=
  (dat0 (F := Ideal) V c).arrAt_eq_of_cover 13 _ (fun t _ => flushed13_eq V c t) cover13

end Cert.KernelIdeal.Val.B0

namespace Cert.KernelIdeal.Val

open Cert.KernelIdeal Cert.KernelIdeal.Gen Cert.KernelIdeal.Hand EgnnSpec
open Idealize.ShloMosaic Idealize.ShloMosaic.TcCoe Idealize.ShloMosaic.ValueIdx
open Idealize.ShloMosaic.Pipeline (Dat)

-- the TensorCore's buffer contents when the edge kernel is entered
variable (V : (c : Dev nD) → (b : Ref sig .tc) → Buf (Elt Ideal) ((c : Thread nD τ).loc b))

/-- The message array the edge kernel leaves, at (e, j). -/
theorem mij_apply (c : Dev nD) (e : Fin 500000) (j : Fin 128) :
    (dat0 (F := Ideal) V c).arrAt 12 cfg0.N (ix2 e j)
      = mijRow (fun l => V c main_v4 (ix2 e l)) (fun l => V c main_v5 (ix2 e l)) (V c main_v12 (ix2 e 3))
          (V c main_v13) (V c main_v14) (V c main_arg5) (V c main_arg6) (V c main_arg7) j := by
  rw [B0.final12 V c]

/-- The weighted direction array the edge kernel leaves, at (e, a). -/
theorem wd_apply (c : Dev nD) (e : Fin 500000) (a : Fin 3) :
    (dat0 (F := Ideal) V c).arrAt 13 cfg0.N (ix2 e a)
      = wdRow (fun b => V c main_v12 (ix2 e b.castSucc)) (V c main_v12 (ix2 e 3))
          (fun l => (dat0 (F := Ideal) V c).arrAt 12 cfg0.N (ix2 e l))
          (V c main_arg8) (V c main_arg9) (V c main_v15) (V c main_arg11) a := by
  rw [B0.final13 V c, B0.final12 V c]

end Cert.KernelIdeal.Val

end
-- ==== Proof.HostVals0.lean ====
/-
  What the host operations before the edge kernel leave in the arrays that kernel reads, as functions of the argument
  arrays. Six stretches of operations run first: the two rows of the edge-index array are cut out (the receiving and the
  sending node of each edge); four times a table is taken at a row of node numbers (a negative number is wrapped round by
  the node count, the rows are gathered, and a row whose number falls outside [0, 49999] is replaced by a fill word); the
  two coordinate takes are subtracted, the squared length of each difference is appended as a fourth column; and the first
  weight matrix is cut into its first 256 rows and its last row, the attention weight column is transposed into a row.
  Each array is read back as exactly those operations applied to the argument arrays, the composite terms under names.
  When every entry of the index array is a node number, the range test passes everywhere and each take is the bare gather.
  The layout stages (the concatenation, the two slices, the transpose) are then read at an index.
-/
import proofs.«413287_j91122026152067_3_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.Lib.ReduceAll

noncomputable section

namespace Cert.KernelIdeal.Val.H0

open Idealize.ShloMosaic Idealize.ShloMosaic.TcCoe Idealize.ShloMosaic.StableHlo Idealize.ShloMosaic.ValueIdx
open Cert.KernelIdeal Cert.KernelIdeal.Gen

/-! ## The composite terms, named: each body is the program's own operations, in the program's order -/

/-- Row 0 of the edge-index array: the receiving node of each edge. -/
def rowR (x3 : IVec S2x500000 32) : IVec S500000 32 :=
  shapeCast S500000 (extractStridedSlice S1x500000 ![0, 0] x3 slices_S2x500000_S1x500000_0_0) shapeCasts_S1x500000_S500000
/-- Row 1 of the edge-index array: the sending node of each edge. -/
def rowC (x3 : IVec S2x500000 32) : IVec S500000 32 :=
  shapeCast S500000 (extractStridedSlice S1x500000 ![1, 0] x3 slices_S2x500000_S1x500000_1_0) shapeCasts_S1x500000_S500000
/-- A row of node numbers, a negative one wrapped round by the node count, laid out as a column of start indices. -/
def wrapIdx (r : IVec S500000 32) : IVec S500000x1 32 :=
  broadcastInDim S500000x1 ![0] bcast_S500000_S500000x1_0
    (select (cmpi .slt r (broadcastInDim S500000 ![] bcast_S_S500000 (constantI S_ 32 0#32)))
      (addi r (broadcastInDim S500000 ![] bcast_S_S500000 (constantI S_ 32 50000#32))) r)
/-- Per edge, whether its start index lies in [0, 49999]: the two signed comparisons, joined, reduced by "and" along
    the column axis of extent one. -/
def inRange (idx : IVec S500000x1 32) : IVec S500000 1 :=
  Host.reduce IntOp.andi
    (andi (cmpi .sge idx (broadcastInDim S500000x1 ![] bcast_S_S500000x1 (constantI S_ 32 0#32)))
      (cmpi .sle idx (broadcastInDim S500000x1 ![0, 1] bcast_S1x1_S500000x1_0_1
        (broadcastInDim S1x1 ![1] bcast_S1_S1x1_1 (constantI S1 32 49999#32)))))
    (constantI S_ 1 1#1) reducesTo_S500000x1_S500000_d1 h_S_
/-- The rows of a 128-column table taken at a row of node numbers: the gathered row where the start index is in range,
    the fill word elsewhere. -/
def take128 (x : FVec Ideal S50000x128 .f32) (r : IVec S500000 32) : FVec Ideal S500000x128 .f32 :=
  select (broadcastInDim S500000x128 ![0] bcast_S500000_S500000x128_0 (inRange (wrapIdx r)))
    (Host.gather gather_S50000x128_S500000x1_S500000x128_1_0_n_n_0_1_1128 x (wrapIdx r))
    (broadcastInDim S500000x128 ![] bcast_S_S500000x128 (constant (F := Ideal) S_ .f32 0x7FC00000#32))
/-- The rows of a 3-column table taken at a row of node numbers. -/
def take3 (x : FVec Ideal S50000x3 .f32) (r : IVec S500000 32) : FVec Ideal S500000x3 .f32 :=
  select (broadcastInDim S500000x3 ![0] bcast_S500000_S500000x3_0 (inRange (wrapIdx r)))
    (Host.gather gather_S50000x3_S500000x1_S500000x3_1_0_n_n_0_1_13 x (wrapIdx r))
    (broadcastInDim S500000x3 ![] bcast_S_S500000x3 (constant (F := Ideal) S_ .f32 0x7FC00000#32))
/-- The squared length of each row of a three-column array, kept as a column. -/
def radial (d : FVec Ideal S500000x3 .f32) : FVec Ideal S500000x1 .f32 :=
  broadcastInDim S500000x1 ![0] bcast_S500000_S500000x1_0
    (Host.reduceAdd (F := Ideal) (mulf d d) (constant (F := Ideal) S_ .f32 0x00000000#32) reducesTo_S500000x3_S500000_d1 h_S_)
/-- A three-column array with the squared length of each row appended as a fourth column. -/
def withRadial (d : FVec Ideal S500000x3 .f32) : FVec Ideal S500000x4 .f32 :=
  concatenate S500000x4 1 [⟨S500000x3, d⟩, ⟨S500000x1, radial d⟩] concatenates_S500000x3_S500000x1_S500000x4_d1
/-- The coordinate difference of each edge, receiving node less sending node, with bare gathers. -/
def relPos (x1 : FVec Ideal S50000x3 .f32) (x3 : IVec S2x500000 32) : FVec Ideal S500000x3 .f32 :=
  subf (Host.gather gather_S50000x3_S500000x1_S500000x3_1_0_n_n_0_1_13 x1 (wrapIdx (rowR x3)))
    (Host.gather gather_S50000x3_S500000x1_S500000x3_1_0_n_n_0_1_13 x1 (wrapIdx (rowC x3)))

/-! ## One stretch at a time, from any contents -/

section Stretch
variable (W : Valuation τ sig (Elt Ideal))

theorem rowR_after : StableHlo.after hostOps0 W main_v1 = rowR (W main_arg3) := by
  unfold rowR; dsimp only [hostOps0]; after_results; rfl
theorem rowC_after : StableHlo.after hostOps0 W main_v3 = rowC (W main_arg3) := by
  unfold rowC; dsimp only [hostOps0]; after_results; rfl

theorem take0_after : StableHlo.after hostOps0_1 W main_v4 = take128 (W main_arg0) (W main_v1) := by
  unfold take128 inRange wrapIdx; dsimp only [hostOps0_1]; after_results_simp
  simp only [TRef.ofBuf, TRef.toBuf, cast_cast, cast_eq]
theorem take1_after : StableHlo.after hostOps0_2 W main_v5 = take128 (W main_arg0) (W main_v3) := by
  unfold take128 inRange wrapIdx; dsimp only [hostOps0_2]; after_results_simp
  simp only [TRef.ofBuf, TRef.toBuf, cast_cast, cast_eq]
theorem take2_after : StableHlo.after hostOps0_3 W main_v6 = take3 (W main_arg1) (W main_v1) := by
  unfold take3 inRange wrapIdx; dsimp only [hostOps0_3]; after_results_simp
  simp only [TRef.ofBuf, TRef.toBuf, cast_cast, cast_eq]
theorem take3_after : StableHlo.after hostOps0_4 W main_v7 = take3 (W main_arg1) (W main_v3) := by
  unfold take3 inRange wrapIdx; dsimp only [hostOps0_4]; after_results_simp
  simp only [TRef.ofBuf, TRef.toBuf, cast_cast, cast_eq]

theorem geom_after : StableHlo.after hostOps0_5 W main_v12 = withRadial (subf (W main_v6) (W main_v7)) := by
  unfold withRadial radial; dsimp only [hostOps0_5]; after_results
theorem w1top_after : StableHlo.after hostOps0_5 W main_v13
    = extractStridedSlice S256x128 ![0, 0] (W main_arg4) slices_S257x128_S256x128_0_0 := by
  dsimp only [hostOps0_5]; after_results
theorem w1last_after : StableHlo.after hostOps0_5 W main_v14
    = extractStridedSlice S1x128 ![256, 0] (W main_arg4) slices_S257x128_S1x128_256_0 := by
  dsimp only [hostOps0_5]; after_results
theorem attT_after : StableHlo.after hostOps0_5 W main_v15
    = transpose S1x128 [1, 0] (W main_arg10) transposes_S128x1_S1x128_1_0 := by
  dsimp only [hostOps0_5]; after_results

end Stretch

/-! ## The range test passes when every index entry is a node number -/

/-- A left fold by "and" from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- Each entry of a row of the index array is an entry of the index array. -/
theorem rowR_entry (x3 : IVec S2x500000 32) (k : S500000.Idx) : ∃ i, rowR x3 k = x3 i := ⟨_, rfl⟩
theorem rowC_entry (x3 : IVec S2x500000 32) (k : S500000.Idx) : ∃ i, rowC x3 k = x3 i := ⟨_, rfl⟩

/-- A node number is not negative, so the wrap leaves it alone: each start index is an entry of the row. -/
theorem wrapIdx_entry (r : IVec S500000 32) (hr : ∀ k, 0 ≤ (r k).toInt ∧ (r k).toInt < 50000) (i : S500000x1.Idx) :
    ∃ k, wrapIdx r i = r k := by
  obtain ⟨k, hk⟩ : ∃ k : S500000.Idx, wrapIdx r i
      = Scalar.select (IntOp.cmpi .slt (r k) 0#32) (IntOp.addi (r k) 50000#32) (r k) := ⟨_, rfl⟩
  have hneg : IntOp.cmpi .slt (r k) 0#32 = 0#1 := by
    refine eq_zero_of_ne_one fun h => ?_
    have h' := IntOp.cmpi_slt.1 h
    rw [show (0#32 : BitVec 32).toInt = 0 from by decide] at h'
    have := (hr k).1
    omega
  exact ⟨k, by rw [hk, hneg, select_zero]⟩

/-- Start indices that are all node numbers pass the range test at every edge. -/
theorem inRange_one (idx : IVec S500000x1 32) (h : ∀ i, 0 ≤ (idx i).toInt ∧ (idx i).toInt < 50000) (j : S500000.Idx) :
    inRange idx j = 1#1 := by
  unfold inRange
  rw [Host.reduce_eq_foldl]
  refine foldl_andi_one _ _ fun i _ => ?_
  show IntOp.andi (IntOp.cmpi .sge (idx i) 0#32) (IntOp.cmpi .sle (idx i) 49999#32) = 1#1
  refine IntOp.andi_eq_one.2 ⟨IntOp.cmpi_sge.2 ?_, IntOp.cmpi_sle.2 ?_⟩
  · rw [show (0#32 : BitVec 32).toInt = 0 from by decide]; exact (h i).1
  · rw [show (49999#32 : BitVec 32).toInt = 49999 from by decide]; have := (h i).2; omega

theorem inRange_wrapIdx_one (r : IVec S500000 32) (hr : ∀ k, 0 ≤ (r k).toInt ∧ (r k).toInt < 50000) (j : S500000.Idx) :
    inRange (wrapIdx r) j = 1#1 :=
  inRange_one _ (fun i => by obtain ⟨k, hk⟩ := wrapIdx_entry r hr i; rw [hk]; exact hr k) j

/-- With every number in range the take of a 128-column table is the bare gather. -/
theorem take128_eq_gather (x : FVec Ideal S50000x128 .f32) (r : IVec S500000 32)
    (hr : ∀ k, 0 ≤ (r k).toInt ∧ (r k).toInt < 50000) :
    take128 x r = Host.gather gather_S50000x128_S500000x1_S500000x128_1_0_n_n_0_1_1128 x (wrapIdx r) := by
  funext i
  unfold take128
  rw [select_apply]
  unfold broadcastInDim
  rw [inRange_wrapIdx_one r hr, select_one]

/-- With every number in range the take of a 3-column table is the bare gather. -/
theorem take3_eq_gather (x : FVec Ideal S50000x3 .f32) (r : IVec S500000 32)
    (hr : ∀ k, 0 ≤ (r k).toInt ∧ (r k).toInt < 50000) :
    take3 x r = Host.gather gather_S50000x3_S500000x1_S500000x3_1_0_n_n_0_1_13 x (wrapIdx r) := by
  funext i
  unfold take3
  rw [select_apply]
  unfold broadcastInDim
  rw [inRange_wrapIdx_one r hr, select_one]

/-- The rows of an index array of node numbers are rows of node numbers. -/
theorem rowR_ok (x3 : IVec S2x500000 32) (h : ∀ i, 0 ≤ (x3 i).toInt ∧ (x3 i).toInt < 50000) (k : S500000.Idx) :
    0 ≤ (rowR x3 k).toInt ∧ (rowR x3 k).toInt < 50000 := by
  obtain ⟨i, hi⟩ := rowR_entry x3 k; rw [hi]; exact h i
theorem rowC_ok (x3 : IVec S2x500000 32) (h : ∀ i, 0 ≤ (x3 i).toInt ∧ (x3 i).toInt < 50000) (k : S500000.Idx) :
    0 ≤ (rowC x3 k).toInt ∧ (rowC x3 k).toInt < 50000 := by
  obtain ⟨i, hi⟩ := rowC_entry x3 k; rw [hi]; exact h i

/-! ## The arrays the edge kernel reads, of the argument arrays -/

section Arrays
variable (m : (ℓ : Loc nD τ sig) → Buf (Elt Ideal) ℓ) (c : Dev nD)

/-! A buffer no stretch so far has written still holds its launch contents. -/

theorem V1_keep (r : Ref sig .tc) (h0 : r ∉ hostOps0_W) : V1 m c r = m ((c : Thread nD τ).loc r) :=
  (V1_of m c r h0).trans rfl
theorem V2_keep (r : Ref sig .tc) (h0 : r ∉ hostOps0_W) (h1 : r ∉ hostOps0_1_W) : V2 m c r = m ((c : Thread nD τ).loc r) :=
  (V2_of m c r h1).trans (V1_keep m c r h0)
theorem V3_keep (r : Ref sig .tc) (h0 : r ∉ hostOps0_W) (h1 : r ∉ hostOps0_1_W) (h2 : r ∉ hostOps0_2_W) :
    V3 m c r = m ((c : Thread nD τ).loc r) :=
  (V3_of m c r h2).trans (V2_keep m c r h0 h1)
theorem V4_keep (r : Ref sig .tc) (h0 : r ∉ hostOps0_W) (h1 : r ∉ hostOps0_1_W) (h2 : r ∉ hostOps0_2_W) (h3 : r ∉ hostOps0_3_W) :
    V4 m c r = m ((c : Thread nD τ).loc r) :=
  (V4_of m c r h3).trans (V3_keep m c r h0 h1 h2)
theorem V5_keep (r : Ref sig .tc) (h0 : r ∉ hostOps0_W) (h1 : r ∉ hostOps0_1_W) (h2 : r ∉ hostOps0_2_W) (h3 : r ∉ hostOps0_3_W)
    (h4 : r ∉ hostOps0_4_W) : V5 m c r = m ((c : Thread nD τ).loc r) :=
  (V5_of m c r h4).trans (V4_keep m c r h0 h1 h2 h3)
theorem V6_keep (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) : V6 m c r = m ((c : Thread nD τ).loc r) :=
  (V6_of m c r h5).trans (V5_keep m c r h0 h1 h2 h3 h4)

/-! The arguments the edge kernel reads directly. -/

theorem V6_main_arg5 : V6 m c main_arg5 = m ((c : Thread nD τ).loc main_arg5) := V6_keep m c main_arg5 (by decide) (by decide) (by decide) (by decide) (by decide) (by decide)
theorem V6_main_arg6 : V6 m c main_arg6 = m ((c : Thread nD τ).loc main_arg6) := V6_keep m c main_arg6 (by decide) (by decide) (by decide) (by decide) (by decide) (by decide)
theorem V6_main_arg7 : V6 m c main_arg7 = m ((c : Thread nD τ).loc main_arg7) := V6_keep m c main_arg7 (by decide) (by decide) (by decide) (by decide) (by decide) (by decide)
theorem V6_main_arg8 : V6 m c main_arg8 = m ((c : Thread nD τ).loc main_arg8) := V6_keep m c main_arg8 (by decide) (by decide) (by decide) (by decide) (by decide) (by decide)
theorem V6_main_arg9 : V6 m c main_arg9 = m ((c : Thread nD τ).loc main_arg9) := V6_keep m c main_arg9 (by decide) (by decide) (by decide) (by decide) (by decide) (by decide)
theorem V6_main_arg11 : V6 m c main_arg11 = m ((c : Thread nD τ).loc main_arg11) := V6_keep m c main_arg11 (by decide) (by decide) (by decide) (by decide) (by decide) (by decide)

/-! The two rows of the index array. -/

theorem V1_main_v1 : V1 m c main_v1 = rowR (m ((c : Thread nD τ).loc main_arg3)) := rowR_after (V0 m c)
theorem V1_main_v3 : V1 m c main_v3 = rowC (m ((c : Thread nD τ).loc main_arg3)) := rowC_after (V0 m c)
theorem V6_main_v1 : V6 m c main_v1 = rowR (m ((c : Thread nD τ).loc main_arg3)) :=
  (V6_of m c main_v1 (by decide)).trans <| (V5_of m c main_v1 (by decide)).trans <| (V4_of m c main_v1 (by decide)).trans <|
    (V3_of m c main_v1 (by decide)).trans <| (V2_of m c main_v1 (by decide)).trans (V1_main_v1 m c)
theorem V6_main_v3 : V6 m c main_v3 = rowC (m ((c : Thread nD τ).loc main_arg3)) :=
  (V6_of m c main_v3 (by decide)).trans <| (V5_of m c main_v3 (by decide)).trans <| (V4_of m c main_v3 (by decide)).trans <|
    (V3_of m c main_v3 (by decide)).trans <| (V2_of m c main_v3 (by decide)).trans (V1_main_v3 m c)

/-! The four takes. -/

theorem V2_main_v4 : V2 m c main_v4 = take128 (m ((c : Thread nD τ).loc main_arg0)) (rowR (m ((c : Thread nD τ).loc main_arg3))) :=
  (take0_after (V1 m c)).trans (by rw [V1_main_v1 m c, V1_keep m c main_arg0 (by decide)])
theorem V6_main_v4 : V6 m c main_v4 = take128 (m ((c : Thread nD τ).loc main_arg0)) (rowR (m ((c : Thread nD τ).loc main_arg3))) :=
  (V6_of m c main_v4 (by decide)).trans <| (V5_of m c main_v4 (by decide)).trans <| (V4_of m c main_v4 (by decide)).trans <|
    (V3_of m c main_v4 (by decide)).trans (V2_main_v4 m c)

theorem V3_main_v5 : V3 m c main_v5 = take128 (m ((c : Thread nD τ).loc main_arg0)) (rowC (m ((c : Thread nD τ).loc main_arg3))) :=
  (take1_after (V2 m c)).trans (by
    rw [(V2_of m c main_v3 (by decide)).trans (V1_main_v3 m c), V2_keep m c main_arg0 (by decide) (by decide)])
theorem V6_main_v5 : V6 m c main_v5 = take128 (m ((c : Thread nD τ).loc main_arg0)) (rowC (m ((c : Thread nD τ).loc main_arg3))) :=
  (V6_of m c main_v5 (by decide)).trans <| (V5_of m c main_v5 (by decide)).trans <| (V4_of m c main_v5 (by decide)).trans (V3_main_v5 m c)

theorem V4_main_v6 : V4 m c main_v6 = take3 (m ((c : Thread nD τ).loc main_arg1)) (rowR (m ((c : Thread nD τ).loc main_arg3))) :=
  (take2_after (V3 m c)).trans (by
    rw [(V3_of m c main_v1 (by decide)).trans ((V2_of m c main_v1 (by decide)).trans (V1_main_v1 m c)),
      V3_keep m c main_arg1 (by decide) (by decide) (by decide)])
theorem V5_main_v7 : V5 m c main_v7 = take3 (m ((c : Thread nD τ).loc main_arg1)) (rowC (m ((c : Thread nD τ).loc main_arg3))) :=
  (take3_after (V4 m c)).trans (by
    rw [(V4_of m c main_v3 (by decide)).trans ((V3_of m c main_v3 (by decide)).trans ((V2_of m c main_v3 (by decide)).trans (V1_main_v3 m c))),
      V4_keep m c main_arg1 (by decide) (by decide) (by decide) (by decide)])

/-! The edge geometry and the cut weights. -/

theorem V6_main_v12 : V6 m c main_v12
    = withRadial (subf (take3 (m ((c : Thread nD τ).loc main_arg1)) (rowR (m ((c : Thread nD τ).loc main_arg3)))) (take3 (m ((c : Thread nD τ).loc main_arg1)) (rowC (m ((c : Thread nD τ).loc main_arg3))))) :=
  (geom_after (V5 m c)).trans (by rw [(V5_of m c main_v6 (by decide)).trans (V4_main_v6 m c), V5_main_v7 m c])
theorem V6_main_v13 : V6 m c main_v13 = extractStridedSlice S256x128 ![0, 0] (m ((c : Thread nD τ).loc main_arg4)) slices_S257x128_S256x128_0_0 :=
  (w1top_after (V5 m c)).trans (by rw [V5_keep m c main_arg4 (by decide) (by decide) (by decide) (by decide) (by decide)])
theorem V6_main_v14 : V6 m c main_v14 = extractStridedSlice S1x128 ![256, 0] (m ((c : Thread nD τ).loc main_arg4)) slices_S257x128_S1x128_256_0 :=
  (w1last_after (V5 m c)).trans (by rw [V5_keep m c main_arg4 (by decide) (by decide) (by decide) (by decide) (by decide)])
theorem V6_main_v15 : V6 m c main_v15 = transpose S1x128 [1, 0] (m ((c : Thread nD τ).loc main_arg10)) transposes_S128x1_S1x128_1_0 :=
  (attT_after (V5 m c)).trans (by rw [V5_keep m c main_arg10 (by decide) (by decide) (by decide) (by decide) (by decide)])

/-! ## With every index entry a node number: each take is the bare gather -/

section InRange
variable (hok : ∀ i, 0 ≤ (m ((c : Thread nD τ).loc main_arg3) i).toInt ∧ (m ((c : Thread nD τ).loc main_arg3) i).toInt < 50000)
include hok

theorem V6_main_v4_gather : V6 m c main_v4
    = Host.gather gather_S50000x128_S500000x1_S500000x128_1_0_n_n_0_1_1128 (m ((c : Thread nD τ).loc main_arg0)) (wrapIdx (rowR (m ((c : Thread nD τ).loc main_arg3)))) :=
  (V6_main_v4 m c).trans (take128_eq_gather _ _ (rowR_ok _ hok))
theorem V6_main_v5_gather : V6 m c main_v5
    = Host.gather gather_S50000x128_S500000x1_S500000x128_1_0_n_n_0_1_1128 (m ((c : Thread nD τ).loc main_arg0)) (wrapIdx (rowC (m ((c : Thread nD τ).loc main_arg3)))) :=
  (V6_main_v5 m c).trans (take128_eq_gather _ _ (rowC_ok _ hok))
theorem V6_main_v12_gather : V6 m c main_v12 = withRadial (relPos (m ((c : Thread nD τ).loc main_arg1)) (m ((c : Thread nD τ).loc main_arg3))) := by
  rw [V6_main_v12 m c, take3_eq_gather _ _ (rowR_ok _ hok), take3_eq_gather _ _ (rowC_ok _ hok)]
  rfl

end InRange

end Arrays

/-! ## The layout stages at an index -/

/-- The first three columns of the widened array are the array's own. -/
theorem withRadial_left (d : FVec Ideal S500000x3 .f32) (e : Fin 500000) (b : Fin 3) :
    withRadial d (ix2 e b.castSucc) = d (ix2 e b) := by
  unfold withRadial
  exact concatenate_pair_apply_left 1 d (radial d) concatenates_S500000x3_S500000x1_S500000x4_d1 (ix2 e b.castSucc) rfl (ix2 e b)
    fun a => match a with | ⟨0, _⟩ => rfl | ⟨1, _⟩ => rfl
/-- The fourth column of the widened array is the squared length. -/
theorem withRadial_right (d : FVec Ideal S500000x3 .f32) (e : Fin 500000) :
    withRadial d (ix2 e (3 : Fin 4)) = radial d (ix2 e (0 : Fin 1)) := by
  unfold withRadial
  exact concatenate_pair_apply_right 1 d (radial d) concatenates_S500000x3_S500000x1_S500000x4_d1 (ix2 e (3 : Fin 4)) rfl rfl (ix2 e (0 : Fin 1))
    (fun a => match a with | ⟨0, _⟩ => fun _ => rfl | ⟨1, _⟩ => fun h => absurd rfl h) rfl

section ArraysAt
variable (m : (ℓ : Loc nD τ sig) → Buf (Elt Ideal) ℓ) (c : Dev nD)

theorem V6_main_v12_left (hok : ∀ i, 0 ≤ (m ((c : Thread nD τ).loc main_arg3) i).toInt ∧ (m ((c : Thread nD τ).loc main_arg3) i).toInt < 50000) (e : Fin 500000) (b : Fin 3) :
    V6 m c main_v12 (ix2 e b.castSucc) = relPos (m ((c : Thread nD τ).loc main_arg1)) (m ((c : Thread nD τ).loc main_arg3)) (ix2 e b) := by
  rw [V6_main_v12_gather m c hok]; exact withRadial_left _ e b
theorem V6_main_v12_right (hok : ∀ i, 0 ≤ (m ((c : Thread nD τ).loc main_arg3) i).toInt ∧ (m ((c : Thread nD τ).loc main_arg3) i).toInt < 50000) (e : Fin 500000) :
    V6 m c main_v12 (ix2 e (3 : Fin 4)) = radial (relPos (m ((c : Thread nD τ).loc main_arg1)) (m ((c : Thread nD τ).loc main_arg3))) (ix2 e (0 : Fin 1)) := by
  rw [V6_main_v12_gather m c hok]; exact withRadial_right _ e

theorem V6_main_v13_apply (l : Fin 256) (k : Fin 128) :
    V6 m c main_v13 (ix2 l k) = m ((c : Thread nD τ).loc main_arg4) (ix2 (⟨l.val, by omega⟩ : Fin 257) k) := by
  rw [V6_main_v13 m c]
  exact extractStridedSlice_apply _ _ _ _ _ fun a => match a with
    | ⟨0, _⟩ => (Nat.zero_add _).symm
    | ⟨1, _⟩ => (Nat.zero_add _).symm
theorem V6_main_v14_apply (k : Fin 128) :
    V6 m c main_v14 (ix2 (0 : Fin 1) k) = m ((c : Thread nD τ).loc main_arg4) (ix2 (256 : Fin 257) k) := by
  rw [V6_main_v14 m c]
  exact extractStridedSlice_apply _ _ _ _ _ fun a => match a with
    | ⟨0, _⟩ => rfl
    | ⟨1, _⟩ => (Nat.zero_add _).symm
theorem V6_main_v15_apply (k : Fin 128) :
    V6 m c main_v15 (ix2 (0 : Fin 1) k) = m ((c : Thread nD τ).loc main_arg10) (ix2 k (0 : Fin 1)) := by
  rw [V6_main_v15 m c]
  exact transpose_ix2_apply _ _ (0 : Fin 1) k

end ArraysAt

end Cert.KernelIdeal.Val.H0

end
-- ==== Proof.SpecLayout.lean ====
/-
  Three re-layouts of weight arrays, as functions over the extended reals; no program is imported.
  The first edge layer's 257 x 128 weight matrix is used as its top 256 rows (the rows that meet [h_r | h_c]) and its last
  row (the row that meets the squared distance); a 128 x 1 column of weights is used as a 1 x 128 row.
-/
import Idealize.ShloMosaic.PureOps.Ideal
import Idealize.ShloMosaic.Lib.ValueIdx

noncomputable section

namespace EgnnSpec

open Idealize.ShloMosaic Idealize.ShloMosaic.ValueIdx

/-- Rows 0 … 255 of a 257-row matrix. -/
def topRows (W : (⟨2, ![257, 128]⟩ : Shape).Idx → EReal) : (⟨2, ![256, 128]⟩ : Shape).Idx → EReal :=
  fun i => W (ix2 (⟨(i 0).val, by have := idx2_lt0 i; omega⟩ : Fin 257) (⟨(i 1).val, idx2_lt1 i⟩ : Fin 128))

/-- Row 256 of a 257-row matrix, as a 1 x 128 matrix. -/
def lastRow (W : (⟨2, ![257, 128]⟩ : Shape).Idx → EReal) : (⟨2, ![1, 128]⟩ : Shape).Idx → EReal :=
  fun i => W (ix2 (256 : Fin 257) (⟨(i 1).val, idx2_lt1 i⟩ : Fin 128))

/-- A 128 x 1 column as a 1 x 128 row. -/
def colRow (w : (⟨2, ![128, 1]⟩ : Shape).Idx → EReal) : (⟨2, ![1, 128]⟩ : Shape).Idx → EReal :=
  fun i => w (ix2 (⟨(i 1).val, idx2_lt1 i⟩ : Fin 128) (0 : Fin 1))

end EgnnSpec

end
-- ==== Proof.RefEdge.lean ====
/-
  The reference program's edge stages, read at one entry over the extended reals, as the row functions of the specification.

  For an edge e the message stage is   m_j = silu (Σ_k hidden_k · W2[k, j] + b2[j]),
  hidden_k = silu (Σ_{l<257} [h_r | h_c | rad]_l · W1[l, k] + b1[k]): ONE sum over the 257 coordinates of the joined row. The
  specification keeps the 257th coordinate apart: Σ_{l<257} f l = Σ_{l<256} f l + f 256, the joined row being [h_r | h_c] below
  256 and the squared distance at 256; rows 0 … 255 of W1 meet [h_r | h_c] and row 256 meets the squared distance.
  The weighted direction is   diff_a / (sqrt rad + eps) · (Σ_k silu (Σ_l m_l · Wc1[l, k] + bc1[k]) · wc2[k] + bc2), the product
  with the 128 x 1 column wc2 being the sum against that column laid as a row.
  Only the additive commutative monoid of the extended reals is used (no distributivity, hence no finiteness). The two row
  gathers, the coordinate difference and the squared distance stay unopened: they appear as they are, at the edge's row.
-/
import proofs.«413287_j91122026152067_3_alg».proof.Proof.Gen.ReferenceIdeal.Read
import proofs.«413287_j91122026152067_3_alg».proof.Proof.Spec
import proofs.«413287_j91122026152067_3_alg».proof.Proof.SpecLayout
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.ValueIdx
open scoped BigOperators

/-- x · (1 / (1 + e^(−x))), the two ones written as the single-precision word of 1, is x · logistic x. -/
theorem silu_spelled (x : EReal) :
    FloatOps.mulf (F := Ideal) (φ := .f32) x (FloatOps.hostDivf (FloatOps.ofBits .f32 0x3F800000#32)
      (FloatOps.addf (FloatOps.ofBits .f32 0x3F800000#32) (FloatOps.hostUnary .exp (FloatOps.hostNegf x))))
      = EgnnSpec.silu x := by
  show x * Ideal.div (Ideal.ofBits .f32 0x3F800000#32) (Ideal.ofBits .f32 0x3F800000#32 + Ideal.exp (-x)) = _
  rw [Ideal.ofBits_one_f32]
  rfl

section Join
variable {α : Type}

/-- Three blocks of widths 128, 128 and 1 joined along the second axis, read at a column below 128: the first block. -/
theorem join3_apply_fst (x₁ x₂ : (⟨2, ![500000, 128]⟩ : Shape).Idx → α) (x₃ : (⟨2, ![500000, 1]⟩ : Shape).Idx → α)
    (h : Shape.Concatenates [(⟨2, ![500000, 128]⟩ : Shape), ⟨2, ![500000, 128]⟩, ⟨2, ![500000, 1]⟩] ⟨2, ![500000, 257]⟩ 1)
    (e : Fin 500000) (l : Fin 257) (hl : l.val < 128) :
    concatenate (⟨2, ![500000, 257]⟩ : Shape) 1 [⟨_, x₁⟩, ⟨_, x₂⟩, ⟨_, x₃⟩] h (ix2 e l) = x₁ (ix2 e ⟨l.val, hl⟩) := by
  refine concatenate_apply_piece (t := (⟨2, ![500000, 257]⟩ : Shape)) (1 : Fin 2) [⟨_, x₁⟩, ⟨_, x₂⟩, ⟨_, x₃⟩] h (ix2 e l) 0 (Nat.zero_lt_succ _) _ x₁ rfl rfl 0 rfl (ix2 e ⟨l.val, hl⟩) ?_ ?_
  · intro b hb
    match b with
    | ⟨0, _⟩ => rfl
    | ⟨1, _⟩ => exact absurd rfl hb
  · show 0 + l.val = l.val
    omega

/-- … at a column from 128 to 255: the second block, 128 columns to the left. -/
theorem join3_apply_snd (x₁ x₂ : (⟨2, ![500000, 128]⟩ : Shape).Idx → α) (x₃ : (⟨2, ![500000, 1]⟩ : Shape).Idx → α)
    (h : Shape.Concatenates [(⟨2, ![500000, 128]⟩ : Shape), ⟨2, ![500000, 128]⟩, ⟨2, ![500000, 1]⟩] ⟨2, ![500000, 257]⟩ 1)
    (e : Fin 500000) (l : Fin 257) (hl : 128 ≤ l.val) (hl' : l.val < 256) :
    concatenate (⟨2, ![500000, 257]⟩ : Shape) 1 [⟨_, x₁⟩, ⟨_, x₂⟩, ⟨_, x₃⟩] h (ix2 e l)
      = x₂ (ix2 e ⟨l.val - 128, by omega⟩) := by
  refine concatenate_apply_piece (t := (⟨2, ![500000, 257]⟩ : Shape)) (1 : Fin 2) [⟨_, x₁⟩, ⟨_, x₂⟩, ⟨_, x₃⟩] h (ix2 e l) 1 (Nat.succ_lt_succ (Nat.zero_lt_succ _)) _ x₂ rfl rfl 128 rfl (ix2 e ⟨l.val - 128, by omega⟩) ?_ ?_
  · intro b hb
    match b with
    | ⟨0, _⟩ => rfl
    | ⟨1, _⟩ => exact absurd rfl hb
  · show 128 + (l.val - 128) = l.val
    omega

/-- … at column 256: the one-column block. -/
theorem join3_apply_last (x₁ x₂ : (⟨2, ![500000, 128]⟩ : Shape).Idx → α) (x₃ : (⟨2, ![500000, 1]⟩ : Shape).Idx → α)
    (h : Shape.Concatenates [(⟨2, ![500000, 128]⟩ : Shape), ⟨2, ![500000, 128]⟩, ⟨2, ![500000, 1]⟩] ⟨2, ![500000, 257]⟩ 1)
    (e : Fin 500000) :
    concatenate (⟨2, ![500000, 257]⟩ : Shape) 1 [⟨_, x₁⟩, ⟨_, x₂⟩, ⟨_, x₃⟩] h (ix2 e (Fin.last 256)) = x₃ (ix2 e 0) := by
  refine concatenate_apply_piece (t := (⟨2, ![500000, 257]⟩ : Shape)) (1 : Fin 2) [⟨_, x₁⟩, ⟨_, x₂⟩, ⟨_, x₃⟩] h (ix2 e (Fin.last 256)) 2 (Nat.succ_lt_succ (Nat.succ_lt_succ (Nat.zero_lt_succ _))) _ x₃ rfl rfl 256 rfl (ix2 e 0) ?_ ?_
  · intro b hb
    match b with
    | ⟨0, _⟩ => rfl
    | ⟨1, _⟩ => exact absurd rfl hb
  · rfl

end Join

/-! ## The joined row [h_r | h_c | rad] at a coordinate -/

/-- Below 256 the joined row is the two gathered rows laid side by side. -/
theorem v41_apply_castSucc (x0 : (⟨S50000x128, .f32⟩ : BufTy).Contents (Elt Ideal)) (x1 : (⟨S50000x3, .f32⟩ : BufTy).Contents (Elt Ideal)) (x3 : (⟨S2x500000, .i32⟩ : BufTy).Contents (Elt Ideal)) (e : Fin 500000) (l : Fin 256) :
    val_main_v41 (F := Ideal) x0 x1 x3 (ix2 e l.castSucc) = EgnnSpec.cat2 (fun l => val_main_v33 (F := Ideal) x0 x3 (ix2 e l)) (fun l => val_main_v40 (F := Ideal) x0 x3 (ix2 e l)) l := by
  unfold val_main_v41 EgnnSpec.cat2
  generalize val_main_v33 (F := Ideal) x0 x3 = y1
  generalize val_main_v40 (F := Ideal) x0 x3 = y2
  generalize val_main_v21 (F := Ideal) x1 x3 = y3
  by_cases hl : l.val < 128
  · rw [dif_pos hl]
    exact join3_apply_fst y1 y2 y3 _ e l.castSucc hl
  · rw [dif_neg hl]
    exact join3_apply_snd y1 y2 y3 _ e l.castSucc (Nat.le_of_not_lt hl) l.isLt

/-- At 256 the joined row is the squared distance. -/
theorem v41_apply_last (x0 : (⟨S50000x128, .f32⟩ : BufTy).Contents (Elt Ideal)) (x1 : (⟨S50000x3, .f32⟩ : BufTy).Contents (Elt Ideal)) (x3 : (⟨S2x500000, .i32⟩ : BufTy).Contents (Elt Ideal)) (e : Fin 500000) :
    val_main_v41 (F := Ideal) x0 x1 x3 (ix2 e (Fin.last 256)) = val_main_v21 (F := Ideal) x1 x3 (ix2 e 0) := by
  unfold val_main_v41
  generalize val_main_v33 (F := Ideal) x0 x3 = y1
  generalize val_main_v40 (F := Ideal) x0 x3 = y2
  generalize val_main_v21 (F := Ideal) x1 x3 = y3
  exact join3_apply_last y1 y2 y3 _ e

/-! ## The message -/

/-- The first edge layer before its silu: the sum over the 257 joined coordinates, split at the last. -/
theorem v45_ref_apply (x0 : (⟨S50000x128, .f32⟩ : BufTy).Contents (Elt Ideal)) (x1 : (⟨S50000x3, .f32⟩ : BufTy).Contents (Elt Ideal)) (x3 : (⟨S2x500000, .i32⟩ : BufTy).Contents (Elt Ideal)) (x4 : (⟨S257x128, .f32⟩ : BufTy).Contents (Elt Ideal)) (x5 : (⟨S128, .f32⟩ : BufTy).Contents (Elt Ideal)) (e : Fin 500000) (k : Fin 128) :
    val_main_v45 (F := Ideal) x0 x1 x3 x4 x5 (ix2 e k)
      = (∑ l : Fin 256, EgnnSpec.cat2 (fun l => val_main_v33 (F := Ideal) x0 x3 (ix2 e l)) (fun l => val_main_v40 (F := Ideal) x0 x3 (ix2 e l)) l * EgnnSpec.topRows x4 (ix2 l k))
          + (val_main_v21 (F := Ideal) x1 x3 (ix2 e 0)) * EgnnSpec.lastRow x4 (ix2 0 k) + x5 (ix1 k) := by
  rw [val_main_v45_apply, val_main_v42_apply, val_main_v44_apply, val_main_v43_apply]
  refine congrArg₂ (· + ·) ?_ (congrArg x5 (funext fun a => Fin.ext (by match a with | ⟨0, _⟩ => rfl)))
  rw [Fin.sum_univ_castSucc]
  refine congrArg₂ (· + ·) (Finset.sum_congr rfl fun l _ => ?_) ?_
  · rw [show lidx_main_v42 (ix2 e k) l.castSucc = ix2 e l.castSucc from funext fun a => Fin.ext (by match a with | ⟨0, _⟩ => rfl | ⟨1, _⟩ => rfl), v41_apply_castSucc]
    exact congrArg (_ * x4 ·) (funext fun a => Fin.ext (by match a with | ⟨0, _⟩ => rfl | ⟨1, _⟩ => rfl))
  · rw [show lidx_main_v42 (ix2 e k) (Fin.last 256) = ix2 e (Fin.last 256) from funext fun a => Fin.ext (by match a with | ⟨0, _⟩ => rfl | ⟨1, _⟩ => rfl), v41_apply_last]
    exact congrArg (_ * x4 ·) (funext fun a => Fin.ext (by match a with | ⟨0, _⟩ => rfl | ⟨1, _⟩ => rfl))

/-- The first silu. -/
theorem v46_silu (x0 : (⟨S50000x128, .f32⟩ : BufTy).Contents (Elt Ideal)) (x1 : (⟨S50000x3, .f32⟩ : BufTy).Contents (Elt Ideal)) (x3 : (⟨S2x500000, .i32⟩ : BufTy).Contents (Elt Ideal)) (x4 : (⟨S257x128, .f32⟩ : BufTy).Contents (Elt Ideal)) (x5 : (⟨S128, .f32⟩ : BufTy).Contents (Elt Ideal)) (i : S500000x128.Idx) :
    val_main_v46 (F := Ideal) x0 x1 x3 x4 x5 i = EgnnSpec.silu (val_main_v45 (F := Ideal) x0 x1 x3 x4 x5 i) := by
  rw [val_main_v46_apply, val_main_call0_v5_apply, val_main_call0_v4_apply, val_main_call0_cst_0_apply, val_main_call0_v3_apply,
    val_main_call0_v2_apply, val_main_call0_cst_apply, val_main_call0_v1_apply, val_main_call0_v0_apply]
  exact silu_spelled _

/-- The second edge layer before its silu. -/
theorem v50_ref_apply (x0 : (⟨S50000x128, .f32⟩ : BufTy).Contents (Elt Ideal)) (x1 : (⟨S50000x3, .f32⟩ : BufTy).Contents (Elt Ideal)) (x3 : (⟨S2x500000, .i32⟩ : BufTy).Contents (Elt Ideal)) (x4 : (⟨S257x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (e : Fin 500000) (j : Fin 128) :
    val_main_v50 (F := Ideal) x0 x1 x3 x4 x5 x6 x7 (ix2 e j)
      = (∑ k : Fin 128, val_main_v46 (F := Ideal) x0 x1 x3 x4 x5 (ix2 e k) * x6 (ix2 k j)) + x7 (ix1 j) := by
  rw [val_main_v50_apply, val_main_v47_apply, val_main_v49_apply, val_main_v48_apply]
  refine congrArg₂ (· + ·) (Finset.sum_congr rfl fun k _ => ?_) (congrArg x7 (funext fun a => Fin.ext (by match a with | ⟨0, _⟩ => rfl)))
  rw [show lidx_main_v47 (ix2 e j) k = ix2 e k from funext fun a => Fin.ext (by match a with | ⟨0, _⟩ => rfl | ⟨1, _⟩ => rfl)]
  exact congrArg (_ * x6 ·) (funext fun a => Fin.ext (by match a with | ⟨0, _⟩ => rfl | ⟨1, _⟩ => rfl))

/-- The second silu. -/
theorem v51_silu (x0 : (⟨S50000x128, .f32⟩ : BufTy).Contents (Elt Ideal)) (x1 : (⟨S50000x3, .f32⟩ : BufTy).Contents (Elt Ideal)) (x3 : (⟨S2x500000, .i32⟩ : BufTy).Contents (Elt Ideal)) (x4 : (⟨S257x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (i : S500000x128.Idx) :
    val_main_v51 (F := Ideal) x0 x1 x3 x4 x5 x6 x7 i = EgnnSpec.silu (val_main_v50 (F := Ideal) x0 x1 x3 x4 x5 x6 x7 i) := by
  rw [val_main_v51_apply, val_main_call1_v5_apply, val_main_call1_v4_apply, val_main_call1_cst_0_apply, val_main_call1_v3_apply,
    val_main_call1_v2_apply, val_main_call1_cst_apply, val_main_call1_v1_apply, val_main_call1_v0_apply]
  exact silu_spelled _

/-- **The message stage at an entry is the specification's message row.** -/
theorem mij_ref_apply (x0 : (⟨S50000x128, .f32⟩ : BufTy).Contents (Elt Ideal)) (x1 : (⟨S50000x3, .f32⟩ : BufTy).Contents (Elt Ideal)) (x3 : (⟨S2x500000, .i32⟩ : BufTy).Contents (Elt Ideal)) (x4 : (⟨S257x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (e : Fin 500000) (j : Fin 128) :
    val_main_v51 (F := Ideal) x0 x1 x3 x4 x5 x6 x7 (ix2 e j)
      = EgnnSpec.mijRow (fun l => val_main_v33 (F := Ideal) x0 x3 (ix2 e l)) (fun l => val_main_v40 (F := Ideal) x0 x3 (ix2 e l)) (val_main_v21 (F := Ideal) x1 x3 (ix2 e 0)) (EgnnSpec.topRows x4) (EgnnSpec.lastRow x4) x5 x6 x7 j := by
  rw [v51_silu, v50_ref_apply]
  unfold EgnnSpec.mijRow EgnnSpec.hid1
  refine congrArg EgnnSpec.silu (congrArg (· + x7 (ix1 j)) (Finset.sum_congr rfl fun k _ => ?_))
  rw [v46_silu, v45_ref_apply]

/-! ## The weighted direction -/

/-- The first layer of the weight network before its silu. -/
theorem v55_ref_apply (x0 : (⟨S50000x128, .f32⟩ : BufTy).Contents (Elt Ideal)) (x1 : (⟨S50000x3, .f32⟩ : BufTy).Contents (Elt Ideal)) (x3 : (⟨S2x500000, .i32⟩ : BufTy).Contents (Elt Ideal)) (x4 : (⟨S257x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (e : Fin 500000) (k : Fin 128) :
    val_main_v55 (F := Ideal) x0 x1 x3 x4 x5 x6 x7 x8 x9 (ix2 e k)
      = (∑ l : Fin 128, val_main_v51 (F := Ideal) x0 x1 x3 x4 x5 x6 x7 (ix2 e l) * x8 (ix2 l k)) + x9 (ix1 k) := by
  rw [val_main_v55_apply, val_main_v52_apply, val_main_v54_apply, val_main_v53_apply]
  refine congrArg₂ (· + ·) (Finset.sum_congr rfl fun l _ => ?_) (congrArg x9 (funext fun a => Fin.ext (by match a with | ⟨0, _⟩ => rfl)))
  rw [show lidx_main_v52 (ix2 e k) l = ix2 e l from funext fun a => Fin.ext (by match a with | ⟨0, _⟩ => rfl | ⟨1, _⟩ => rfl)]
  exact congrArg (_ * x8 ·) (funext fun a => Fin.ext (by match a with | ⟨0, _⟩ => rfl | ⟨1, _⟩ => rfl))

/-- Its silu. -/
theorem v56_silu (x0 : (⟨S50000x128, .f32⟩ : BufTy).Contents (Elt Ideal)) (x1 : (⟨S50000x3, .f32⟩ : BufTy).Contents (Elt Ideal)) (x3 : (⟨S2x500000, .i32⟩ : BufTy).Contents (Elt Ideal)) (x4 : (⟨S257x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (i : S500000x128.Idx) :
    val_main_v56 (F := Ideal) x0 x1 x3 x4 x5 x6 x7 x8 x9 i = EgnnSpec.silu (val_main_v55 (F := Ideal) x0 x1 x3 x4 x5 x6 x7 x8 x9 i) := by
  rw [val_main_v56_apply, val_main_call2_v5_apply, val_main_call2_v4_apply, val_main_call2_cst_0_apply, val_main_call2_v3_apply,
    val_main_call2_v2_apply, val_main_call2_cst_apply, val_main_call2_v1_apply, val_main_call2_v0_apply]
  exact silu_spelled _

/-- The per-edge weight: the product with the 128 x 1 column is the sum against the column laid as a row. -/
theorem v60_ref_apply (x0 : (⟨S50000x128, .f32⟩ : BufTy).Contents (Elt Ideal)) (x1 : (⟨S50000x3, .f32⟩ : BufTy).Contents (Elt Ideal)) (x3 : (⟨S2x500000, .i32⟩ : BufTy).Contents (Elt Ideal)) (x4 : (⟨S257x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) (e : Fin 500000) :
    val_main_v60 (F := Ideal) x0 x1 x3 x4 x5 x6 x7 x8 x9 x10 x11 (ix2 e 0)
      = EgnnSpec.scalarNet (fun l => val_main_v51 (F := Ideal) x0 x1 x3 x4 x5 x6 x7 (ix2 e l)) x8 x9 (EgnnSpec.colRow x10) x11 := by
  rw [val_main_v60_apply, val_main_v57_apply, val_main_v59_apply, val_main_v58_apply]
  unfold EgnnSpec.scalarNet
  refine congrArg₂ (· + ·) (Finset.sum_congr rfl fun k _ => ?_) (congrArg x11 (funext fun a => Fin.ext (by match a with | ⟨0, _⟩ => rfl)))
  rw [show lidx_main_v57 (ix2 e 0) k = ix2 e k from funext fun a => Fin.ext (by match a with | ⟨0, _⟩ => rfl | ⟨1, _⟩ => rfl), v56_silu, v55_ref_apply]
  exact congrArg (_ * x10 ·) (funext fun a => Fin.ext (by match a with | ⟨0, _⟩ => rfl | ⟨1, _⟩ => rfl))

/-- The normalised difference: diff / (sqrt rad + eps), the literal kept as the word it is written with. -/
theorem v26_ref_apply (x1 : (⟨S50000x3, .f32⟩ : BufTy).Contents (Elt Ideal)) (x3 : (⟨S2x500000, .i32⟩ : BufTy).Contents (Elt Ideal)) (e : Fin 500000) (a : Fin 3) :
    val_main_v26 (F := Ideal) x1 x3 (ix2 e a)
      = Ideal.div (val_main_v18 (F := Ideal) x1 x3 (ix2 e a)) (Ideal.sqrt (val_main_v21 (F := Ideal) x1 x3 (ix2 e 0)) + EgnnSpec.eps) := by
  rw [val_main_v26_apply, val_main_v25_apply, val_main_v24_apply, val_main_v22_apply, val_main_v23_apply, val_main_cst_3_apply,
    show idx_main_v25 (ix2 e a) = ix2 e 0 from funext fun a => Fin.ext (by match a with | ⟨0, _⟩ => rfl | ⟨1, _⟩ => rfl)]
  unfold EgnnSpec.eps
  rw [Ideal.hostDivf_def, Ideal.addf_def, Ideal.hostUnary_sqrt_def, Ideal.ofBits_def]

/-- **The weighted-direction stage at an entry is the specification's weighted-direction row.** -/
theorem wd_ref_apply (x0 : (⟨S50000x128, .f32⟩ : BufTy).Contents (Elt Ideal)) (x1 : (⟨S50000x3, .f32⟩ : BufTy).Contents (Elt Ideal)) (x3 : (⟨S2x500000, .i32⟩ : BufTy).Contents (Elt Ideal)) (x4 : (⟨S257x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) (e : Fin 500000) (a : Fin 3) :
    val_main_v62 (F := Ideal) x0 x1 x3 x4 x5 x6 x7 x8 x9 x10 x11 (ix2 e a)
      = EgnnSpec.wdRow (fun b => val_main_v18 (F := Ideal) x1 x3 (ix2 e b)) (val_main_v21 (F := Ideal) x1 x3 (ix2 e 0))
          (fun l => val_main_v51 (F := Ideal) x0 x1 x3 x4 x5 x6 x7 (ix2 e l)) x8 x9 (EgnnSpec.colRow x10) x11 a := by
  rw [val_main_v62_apply, val_main_v61_apply, show idx_main_v61 (ix2 e a) = ix2 e 0 from funext fun a => Fin.ext (by match a with | ⟨0, _⟩ => rfl | ⟨1, _⟩ => rfl), v26_ref_apply, v60_ref_apply]
  unfold EgnnSpec.wdRow
  exact Ideal.mulf_def _ _

end Cert.ReferenceIdeal.RefVal

end
-- ==== Proof.PreDecode.lean ====
/-
  Reading the precondition: the printed predicate is the conjunction of "every float entry is finite" for the nineteen
  float arrays with "every entry of the index array is >= 0" and "every entry is < 50000" (each an all-reduction of an
  elementwise signed comparison). When the predicate is all ones, the last two conjuncts hold, and an all-reduction by
  "and" that is one has every element one: every index entry, read signed, lies in [0, 50000).
-/
import proofs.«413287_j91122026152067_3_alg».proof.Pre_finite_inputs
import Idealize.ShloMosaic.Lib.ReduceAll
import Idealize.ShloMosaic.Lib.StableHlo.Predicate
import Idealize.ShloMosaic.Lib.ValueIdx

noncomputable section

namespace EgnnSpec

open Idealize.ShloMosaic

/-- Every entry of the edge-index array, read as a signed integer, is a node number: 0 <= entry < 50000. -/
def IdxOk (x3 : (⟨2, ![2, 500000]⟩ : Shape).Idx → BitVec 32) : Prop :=
  ∀ i, 0 ≤ (x3 i).toInt ∧ (x3 i).toInt < 50000

end EgnnSpec

namespace Cert.PreDec

open Idealize.ShloMosaic Cert.Pre_finite_inputs EgnnSpec

/-- If the printed precondition is all ones on twenty argument arrays, the index array's entries are node numbers. -/
theorem idxOk_of_fn [Cert.Pre_finite_inputs.Facts] {F : FTy → Type} [FloatOps F]
    (a0 : FVec F S50000x128 .f32) (a1 : FVec F S50000x3 .f32) (a2 : FVec F S50000x3 .f32) (a3 : IVec S2x500000 32) (a4 : FVec F S257x128 .f32) (a5 : FVec F S128 .f32)
    (a6 : FVec F S128x128 .f32) (a7 : FVec F S128 .f32) (a8 : FVec F S128x128 .f32) (a9 : FVec F S128 .f32) (a10 : FVec F S128x1 .f32) (a11 : FVec F S1 .f32)
    (a12 : FVec F S128x128 .f32) (a13 : FVec F S128 .f32) (a14 : FVec F S128x1 .f32) (a15 : FVec F S1 .f32) (a16 : FVec F S256x128 .f32) (a17 : FVec F S128 .f32)
    (a18 : FVec F S128x128 .f32) (a19 : FVec F S128 .f32)
    (h : Cert.Pre_finite_inputs.fn (F := F) a0 a1 a2 a3 a4 a5 a6 a7 a8 a9 a10 a11 a12 a13 a14 a15 a16 a17 a18 a19 = fun _ => 1#1) :
    IdxOk a3 := by
  -- The predicate's value is a rank-0 array: read it at its one index, and put the chain of operations in view.
  have h0 := congrFun h ValueIdx.ix0
  dsimp only [fn, fn_part1, fn_part2, fn_part3, fn_part4, fn_part5] at h0
  -- The result is (floats finite AND all entries >= 0) AND all entries < 50000: keep the last two conjuncts.
  obtain ⟨h12, hlt⟩ := IntOp.andi_eq_one.1 h0
  obtain ⟨-, hge⟩ := IntOp.andi_eq_one.1 h12
  clear h0 h12
  -- An all-reduction by "and" that is one has a one at every element.
  haveI : Subsingleton S_.Idx := ⟨fun a b => funext fun d => d.elim0⟩
  intro i
  have hge_i := Host.reduce_andi_all _ _ _ _ _ hge i
  have hlt_i := Host.reduce_andi_all _ _ _ _ _ hlt i
  -- At an element the comparison is the signed comparison of the entry with the broadcast constant.
  have hge' : (0#32 : BitVec 32).toInt ≤ (a3 i).toInt := IntOp.cmpi_sge.1 hge_i
  have hlt' : (a3 i).toInt < (50000#32 : BitVec 32).toInt := IntOp.cmpi_slt.1 hlt_i
  rw [show (0#32 : BitVec 32).toInt = 0 from by decide] at hge'
  rw [show (50000#32 : BitVec 32).toInt = 50000 from by decide] at hlt'
  exact ⟨hge', hlt'⟩

end Cert.PreDec

end
-- ==== Proof.BridgeEdge.lean ====
/-
  The bridge, edge half: the two arrays the edge kernel leaves are the reference's message stage and weighted-direction
  stage of the same argument arrays. Entry by entry both are the spec's row functions of the same gathered rows: the
  kernel's guarded gathers are the reference's bare gathers where every edge index names a node (the range mask is all
  ones there), and the index arrays both sides gather with are the same operations of the index input.
-/
import proofs.«413287_j91122026152067_3_alg».proof.Proof.KResults
import proofs.«413287_j91122026152067_3_alg».proof.Proof.Blocks0
import proofs.«413287_j91122026152067_3_alg».proof.Proof.HostVals0
import proofs.«413287_j91122026152067_3_alg».proof.Proof.RefEdge
import proofs.«413287_j91122026152067_3_alg».proof.Proof.PreDecode
import proofs.«413287_j91122026152067_3_alg».proof.Proof.Gen.ReferenceIdeal.Read

set_option maxRecDepth 16384

noncomputable section

namespace Cert.Proof.Bridge

open Cert.KernelIdeal Cert.KernelIdeal.Gen Cert.KernelIdeal.Hand EgnnSpec
open Idealize.ShloMosaic Idealize.ShloMosaic.TcCoe Idealize.ShloMosaic.ValueIdx

/-! ## The reference's index and geometry stages are the same operations as the kernel program's -/

section RefTerms
variable (x0 : FVec Ideal S50000x128 .f32) (x1 : FVec Ideal S50000x3 .f32) (x3 : IVec S2x500000 32)

/-- The feature rows gathered at the receiving nodes: the reference's stage is this gather of the wrapped row 0. -/
theorem gatherR_ref :
    Host.gather gather_S50000x128_S500000x1_S500000x128_1_0_n_n_0_1_1128 x0 (Cert.KernelIdeal.Val.H0.wrapIdx (Cert.KernelIdeal.Val.H0.rowR x3))
      = Cert.ReferenceIdeal.Read.val_main_v33 (F := Ideal) x0 x3 := by
  unfold Cert.ReferenceIdeal.Read.val_main_v33 Cert.ReferenceIdeal.Read.val_main_v32 Cert.ReferenceIdeal.Read.val_main_v31 Cert.ReferenceIdeal.Read.val_main_v28 Cert.ReferenceIdeal.Read.val_main_v27 Cert.ReferenceIdeal.Read.val_main_c_4
    Cert.ReferenceIdeal.Read.val_main_v30 Cert.ReferenceIdeal.Read.val_main_v29 Cert.ReferenceIdeal.Read.val_main_c_5 Cert.ReferenceIdeal.Read.val_main_v1 Cert.ReferenceIdeal.Read.val_main_v0 Cert.KernelIdeal.Val.H0.wrapIdx Cert.KernelIdeal.Val.H0.rowR
  rfl

/-- … and at the sending nodes, of the wrapped row 1. -/
theorem gatherC_ref :
    Host.gather gather_S50000x128_S500000x1_S500000x128_1_0_n_n_0_1_1128 x0 (Cert.KernelIdeal.Val.H0.wrapIdx (Cert.KernelIdeal.Val.H0.rowC x3))
      = Cert.ReferenceIdeal.Read.val_main_v40 (F := Ideal) x0 x3 := by
  unfold Cert.ReferenceIdeal.Read.val_main_v40 Cert.ReferenceIdeal.Read.val_main_v39 Cert.ReferenceIdeal.Read.val_main_v38 Cert.ReferenceIdeal.Read.val_main_v35 Cert.ReferenceIdeal.Read.val_main_v34 Cert.ReferenceIdeal.Read.val_main_c_6
    Cert.ReferenceIdeal.Read.val_main_v37 Cert.ReferenceIdeal.Read.val_main_v36 Cert.ReferenceIdeal.Read.val_main_c_7 Cert.ReferenceIdeal.Read.val_main_v3 Cert.ReferenceIdeal.Read.val_main_v2 Cert.KernelIdeal.Val.H0.wrapIdx Cert.KernelIdeal.Val.H0.rowC
  rfl

/-- The coordinate difference, receiving node less sending node. -/
theorem relPos_ref : Cert.KernelIdeal.Val.H0.relPos x1 x3 = Cert.ReferenceIdeal.Read.val_main_v18 (F := Ideal) x1 x3 := by
  unfold Cert.ReferenceIdeal.Read.val_main_v18 Cert.ReferenceIdeal.Read.val_main_v10 Cert.ReferenceIdeal.Read.val_main_v9 Cert.ReferenceIdeal.Read.val_main_v8 Cert.ReferenceIdeal.Read.val_main_v5 Cert.ReferenceIdeal.Read.val_main_v4 Cert.ReferenceIdeal.Read.val_main_c
    Cert.ReferenceIdeal.Read.val_main_v7 Cert.ReferenceIdeal.Read.val_main_v6 Cert.ReferenceIdeal.Read.val_main_c_0 Cert.ReferenceIdeal.Read.val_main_v17 Cert.ReferenceIdeal.Read.val_main_v16 Cert.ReferenceIdeal.Read.val_main_v15 Cert.ReferenceIdeal.Read.val_main_v12
    Cert.ReferenceIdeal.Read.val_main_v11 Cert.ReferenceIdeal.Read.val_main_c_1 Cert.ReferenceIdeal.Read.val_main_v14 Cert.ReferenceIdeal.Read.val_main_v13 Cert.ReferenceIdeal.Read.val_main_c_2 Cert.ReferenceIdeal.Read.val_main_v1 Cert.ReferenceIdeal.Read.val_main_v0
    Cert.ReferenceIdeal.Read.val_main_v3 Cert.ReferenceIdeal.Read.val_main_v2 Cert.KernelIdeal.Val.H0.relPos Cert.KernelIdeal.Val.H0.wrapIdx Cert.KernelIdeal.Val.H0.rowR Cert.KernelIdeal.Val.H0.rowC
  rfl

/-- Its squared length, as a column. -/
theorem radial_ref : Cert.KernelIdeal.Val.H0.radial (Cert.KernelIdeal.Val.H0.relPos x1 x3) = Cert.ReferenceIdeal.Read.val_main_v21 (F := Ideal) x1 x3 := by
  rw [relPos_ref]
  unfold Cert.ReferenceIdeal.Read.val_main_v21 Cert.ReferenceIdeal.Read.val_main_v20 Cert.ReferenceIdeal.Read.val_main_v19 Cert.ReferenceIdeal.Read.val_main_cst Cert.KernelIdeal.Val.H0.radial
  rfl

end RefTerms

variable (m : (ℓ : Loc nD τ sig) → Buf (Elt Ideal) ℓ) (c : Dev nD)

/-! ## The edge kernel's entry arrays in the reference's terms -/

/-- The feature rows gathered at the edges' first endpoints are the reference's. -/
theorem v4_eq (hok : IdxOk (m ((c.tc : Thread nD τ).loc main_arg3))) :
    E0 m c main_v4 = Cert.ReferenceIdeal.Read.val_main_v33 (F := Ideal) (m ((c.tc : Thread nD τ).loc main_arg0)) (m ((c.tc : Thread nD τ).loc main_arg3)) :=
  (Cert.KernelIdeal.Val.H0.V6_main_v4_gather m c hok).trans (gatherR_ref _ _)

/-- … and at the second endpoints. -/
theorem v5_eq (hok : IdxOk (m ((c.tc : Thread nD τ).loc main_arg3))) :
    E0 m c main_v5 = Cert.ReferenceIdeal.Read.val_main_v40 (F := Ideal) (m ((c.tc : Thread nD τ).loc main_arg0)) (m ((c.tc : Thread nD τ).loc main_arg3)) :=
  (Cert.KernelIdeal.Val.H0.V6_main_v5_gather m c hok).trans (gatherC_ref _ _)

/-- Columns 0, 1, 2 of the geometry array are the coordinate difference. -/
theorem v12_diff (hok : IdxOk (m ((c.tc : Thread nD τ).loc main_arg3))) (e : Fin 500000) (b : Fin 3) :
    E0 m c main_v12 (ix2 e b.castSucc) = Cert.ReferenceIdeal.Read.val_main_v18 (F := Ideal) (m ((c.tc : Thread nD τ).loc main_arg1)) (m ((c.tc : Thread nD τ).loc main_arg3)) (ix2 e b) :=
  (Cert.KernelIdeal.Val.H0.V6_main_v12_left m c hok e b).trans (congrFun (relPos_ref _ _) _)

/-- Column 3 of the geometry array is the squared distance. -/
theorem v12_rad (hok : IdxOk (m ((c.tc : Thread nD τ).loc main_arg3))) (e : Fin 500000) :
    E0 m c main_v12 (ix2 e 3) = Cert.ReferenceIdeal.Read.val_main_v21 (F := Ideal) (m ((c.tc : Thread nD τ).loc main_arg1)) (m ((c.tc : Thread nD τ).loc main_arg3)) (ix2 e 0) :=
  (Cert.KernelIdeal.Val.H0.V6_main_v12_right m c hok e).trans (congrFun (radial_ref _ _) _)

/-- The first weight block is rows 0 … 255 of the first edge layer's matrix. -/
theorem v13_eq :
    E0 m c main_v13 = topRows (m ((c.tc : Thread nD τ).loc main_arg4)) := by
  funext i
  obtain ⟨l, k, rfl⟩ : ∃ (l : Fin 256) (k : Fin 128), i = ix2 l k := ⟨i 0, i 1, eq_ix2 i⟩
  exact Cert.KernelIdeal.Val.H0.V6_main_v13_apply m c l k

/-- The second is its row 256. -/
theorem v14_eq :
    E0 m c main_v14 = lastRow (m ((c.tc : Thread nD τ).loc main_arg4)) := by
  funext i
  obtain ⟨z, k, rfl⟩ : ∃ (z : Fin 1) (k : Fin 128), i = ix2 z k := ⟨i 0, i 1, eq_ix2 i⟩
  obtain rfl : z = 0 := Subsingleton.elim _ _
  exact Cert.KernelIdeal.Val.H0.V6_main_v14_apply m c k

/-- The weight column laid as a row. -/
theorem v15_eq :
    E0 m c main_v15 = colRow (m ((c.tc : Thread nD τ).loc main_arg10)) := by
  funext i
  obtain ⟨z, k, rfl⟩ : ∃ (z : Fin 1) (k : Fin 128), i = ix2 z k := ⟨i 0, i 1, eq_ix2 i⟩
  obtain rfl : z = 0 := Subsingleton.elim _ _
  exact Cert.KernelIdeal.Val.H0.V6_main_v15_apply m c k

/-- Argument 5 is untouched when the edge kernel is entered. -/
theorem arg5_eq :
    E0 m c main_arg5 = (m ((c.tc : Thread nD τ).loc main_arg5)) :=
  W6_keep m c main_arg5 (by decide) (by decide) (by decide) (by decide) (by decide) (by decide)

/-- Argument 6 is untouched when the edge kernel is entered. -/
theorem arg6_eq :
    E0 m c main_arg6 = (m ((c.tc : Thread nD τ).loc main_arg6)) :=
  W6_keep m c main_arg6 (by decide) (by decide) (by decide) (by decide) (by decide) (by decide)

/-- Argument 7 is untouched when the edge kernel is entered. -/
theorem arg7_eq :
    E0 m c main_arg7 = (m ((c.tc : Thread nD τ).loc main_arg7)) :=
  W6_keep m c main_arg7 (by decide) (by decide) (by decide) (by decide) (by decide) (by decide)

/-- Argument 8 is untouched when the edge kernel is entered. -/
theorem arg8_eq :
    E0 m c main_arg8 = (m ((c.tc : Thread nD τ).loc main_arg8)) :=
  W6_keep m c main_arg8 (by decide) (by decide) (by decide) (by decide) (by decide) (by decide)

/-- Argument 9 is untouched when the edge kernel is entered. -/
theorem arg9_eq :
    E0 m c main_arg9 = (m ((c.tc : Thread nD τ).loc main_arg9)) :=
  W6_keep m c main_arg9 (by decide) (by decide) (by decide) (by decide) (by decide) (by decide)

/-- Argument 11 is untouched when the edge kernel is entered. -/
theorem arg11_eq :
    E0 m c main_arg11 = (m ((c.tc : Thread nD τ).loc main_arg11)) :=
  W6_keep m c main_arg11 (by decide) (by decide) (by decide) (by decide) (by decide) (by decide)

/-! ## The two arrays the edge kernel leaves -/

/-- The message array the edge kernel leaves is the reference's message stage of the same arguments. -/
theorem mij_eq (hok : IdxOk (m ((c.tc : Thread nD τ).loc main_arg3))) :
    (dat0 (F := Ideal) (E0 m) c).arrAt 12 cfg0.N
      = Cert.ReferenceIdeal.Read.val_main_v51 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  obtain ⟨e, j, rfl⟩ : ∃ (e : Fin 500000) (j : Fin 128), i = ix2 e j := ⟨i 0, i 1, eq_ix2 i⟩
  rw [Cert.KernelIdeal.Val.mij_apply (E0 m) c e j, Cert.ReferenceIdeal.RefVal.mij_ref_apply,
    v4_eq m c hok, v5_eq m c hok, v12_rad m c hok e, v13_eq m c, v14_eq m c, arg5_eq m c, arg6_eq m c, arg7_eq m c]

/-- The weighted-direction array the edge kernel leaves is the reference's stage of the same arguments. -/
theorem wd_eq (hok : IdxOk (m ((c.tc : Thread nD τ).loc main_arg3))) :
    (dat0 (F := Ideal) (E0 m) c).arrAt 13 cfg0.N
      = Cert.ReferenceIdeal.Read.val_main_v62 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext i
  obtain ⟨e, a, rfl⟩ : ∃ (e : Fin 500000) (a : Fin 3), i = ix2 e a := ⟨i 0, i 1, eq_ix2 i⟩
  rw [Cert.KernelIdeal.Val.wd_apply (E0 m) c e a, Cert.ReferenceIdeal.RefVal.wd_ref_apply,
    mij_eq m c hok, v12_rad m c hok e, v15_eq m c, arg8_eq m c, arg9_eq m c, arg11_eq m c,
    show (fun b : Fin 3 => E0 m c main_v12 (ix2 e b.castSucc))
        = fun b => Cert.ReferenceIdeal.Read.val_main_v18 (F := Ideal) (m ((c.tc : Thread nD τ).loc main_arg1)) (m ((c.tc : Thread nD τ).loc main_arg3)) (ix2 e b) from funext fun b => v12_diff m c hok e b]

end Cert.Proof.Bridge

end
-- ==== Proof.LibNary3.lean ====
/-
  A host operation over a literal family of three operands: its result with each operand's contents at its own
  reference.
-/
import Idealize.ShloMosaic.Lib.StableHlo.Run

noncomputable section

namespace Idealize.ShloMosaic.StableHlo

variable {τ : Topo} {sig : RefSig} {Val : EltTy → Type}
variable {x a b y : Ref sig .tc}

/-- An operation over the literal family of three references `![x, a, b]` (a concatenation of three operands)
    leaves, at its result reference, its function applied to the three operands' contents listed one by one —
    `Fin.cons (F x) (Fin.cons (F a) (Fin.cons (F b) …))` in place of `fun k => F (![x, a, b] k)` — so that each
    operand's contents stands at a literal reference and can be rewritten further by the result lemmas of the
    operations before it. The two families agree at each of the three indices by computation. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.HostVals1.lean ====
/-
  What the ten host operations between the two kernels leave in the arrays the node kernel reads, from any entry
  valuation W: the two segment sums are the scatter-additions of the edge kernel's two outputs into zero arrays along
  the receiving-node column; the nine-column coordinate array is the two coordinate arguments and the three-column
  segment sum laid side by side; the transposed weight row reads the weight column; every reference the stretch does
  not write keeps its contents.
-/
import proofs.«413287_j91122026152067_3_alg».proof.Proof.Gen.KernelIdeal.Regions
import proofs.«413287_j91122026152067_3_alg».proof.Proof.LibNary3
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val.H1

open Cert.KernelIdeal Cert.KernelIdeal.Gen
open Idealize.ShloMosaic Idealize.ShloMosaic.TcCoe Idealize.ShloMosaic.ValueIdx

/-! ## Three pieces of three columns side by side, read at an entry -/

section Concat
variable {α : Type}

/-- Columns 0, 1, 2 of three m×3 pieces laid side by side are the first piece's. -/
theorem concat3_apply_0 {m : ℕ} (x₀ x₁ x₂ : (⟨2, ![m, 3]⟩ : Shape).Idx → α)
    (h : Shape.Concatenates [(⟨2, ![m, 3]⟩ : Shape), ⟨2, ![m, 3]⟩, ⟨2, ![m, 3]⟩] ⟨2, ![m, 9]⟩ 1) (n : Fin m) (b : Fin 3) :
    concatenate ⟨2, ![m, 9]⟩ 1 [⟨⟨2, ![m, 3]⟩, x₀⟩, ⟨⟨2, ![m, 3]⟩, x₁⟩, ⟨⟨2, ![m, 3]⟩, x₂⟩] h
      (ix2 n (⟨b.val, by have := b.isLt; omega⟩ : Fin 9)) = x₀ (ix2 n b) := by
  refine concatenate_apply_piece (t := ⟨2, ![m, 9]⟩) (1 : Fin 2) [⟨⟨2, ![m, 3]⟩, x₀⟩, ⟨⟨2, ![m, 3]⟩, x₁⟩, ⟨⟨2, ![m, 3]⟩, x₂⟩] h _ 0 (by simp)
    ⟨2, ![m, 3]⟩ x₀ rfl rfl 0 rfl (ix2 n b) (fun c hc => ?_) ?_
  · match c with
    | ⟨0, _⟩ => rfl
    | ⟨1, _⟩ => exact absurd rfl hc
  · show 0 + b.val = b.val
    omega

/-- Columns 3, 4, 5 of three m×3 pieces laid side by side are the second piece's. -/
theorem concat3_apply_1 {m : ℕ} (x₀ x₁ x₂ : (⟨2, ![m, 3]⟩ : Shape).Idx → α)
    (h : Shape.Concatenates [(⟨2, ![m, 3]⟩ : Shape), ⟨2, ![m, 3]⟩, ⟨2, ![m, 3]⟩] ⟨2, ![m, 9]⟩ 1) (n : Fin m) (b : Fin 3) :
    concatenate ⟨2, ![m, 9]⟩ 1 [⟨⟨2, ![m, 3]⟩, x₀⟩, ⟨⟨2, ![m, 3]⟩, x₁⟩, ⟨⟨2, ![m, 3]⟩, x₂⟩] h
      (ix2 n (⟨b.val + 3, by have := b.isLt; omega⟩ : Fin 9)) = x₁ (ix2 n b) := by
  refine concatenate_apply_piece (t := ⟨2, ![m, 9]⟩) (1 : Fin 2) [⟨⟨2, ![m, 3]⟩, x₀⟩, ⟨⟨2, ![m, 3]⟩, x₁⟩, ⟨⟨2, ![m, 3]⟩, x₂⟩] h _ 1 (by simp)
    ⟨2, ![m, 3]⟩ x₁ rfl rfl 3 rfl (ix2 n b) (fun c hc => ?_) ?_
  · match c with
    | ⟨0, _⟩ => rfl
    | ⟨1, _⟩ => exact absurd rfl hc
  · show 3 + b.val = b.val + 3
    omega

/-- Columns 6, 7, 8 of three m×3 pieces laid side by side are the third piece's. -/
theorem concat3_apply_2 {m : ℕ} (x₀ x₁ x₂ : (⟨2, ![m, 3]⟩ : Shape).Idx → α)
    (h : Shape.Concatenates [(⟨2, ![m, 3]⟩ : Shape), ⟨2, ![m, 3]⟩, ⟨2, ![m, 3]⟩] ⟨2, ![m, 9]⟩ 1) (n : Fin m) (b : Fin 3) :
    concatenate ⟨2, ![m, 9]⟩ 1 [⟨⟨2, ![m, 3]⟩, x₀⟩, ⟨⟨2, ![m, 3]⟩, x₁⟩, ⟨⟨2, ![m, 3]⟩, x₂⟩] h
      (ix2 n (⟨b.val + 6, by have := b.isLt; omega⟩ : Fin 9)) = x₂ (ix2 n b) := by
  refine concatenate_apply_piece (t := ⟨2, ![m, 9]⟩) (1 : Fin 2) [⟨⟨2, ![m, 3]⟩, x₀⟩, ⟨⟨2, ![m, 3]⟩, x₁⟩, ⟨⟨2, ![m, 3]⟩, x₂⟩] h _ 2 (by simp)
    ⟨2, ![m, 3]⟩ x₂ rfl rfl 6 rfl (ix2 n b) (fun c hc => ?_) ?_
  · match c with
    | ⟨0, _⟩ => rfl
    | ⟨1, _⟩ => exact absurd rfl hc
  · show 6 + b.val = b.val + 6
    omega

end Concat

/-! ## The stretch's results -/

variable (W : Valuation τ sig (Elt Ideal))

/-- The receiving-node column: the index row laid out as one column, entry (e, 0) the node edge e sends to. -/
abbrev idxCol : Vec Ideal S500000x1 .i32 :=
  broadcastInDim S500000x1 ![0] bcast_S500000_S500000x1_0 (W main_v1)

/-- The segment sum of the edge kernel's 128-wide output: scatter-added into the zero array row by receiving node. -/
abbrev seg128 : Vec Ideal S50000x128 .f32 :=
  Host.scatterAdd scatter_S50000x128_S500000x1_S500000x128_1_0_0_1
    (broadcastInDim S50000x128 ![] bcast_S_S50000x128 (constant (F := Ideal) S_ .f32 0x00000000#32))
    (idxCol W) (W main_v16_0)

/-- The segment sum of the edge kernel's 3-wide output: scatter-added into the zero array row by receiving node. -/
abbrev seg3 : Vec Ideal S50000x3 .f32 :=
  Host.scatterAdd scatter_S50000x3_S500000x1_S500000x3_1_0_0_1
    (broadcastInDim S50000x3 ![] bcast_S_S50000x3 (constant (F := Ideal) S_ .f32 0x00000000#32))
    (idxCol W) (W main_v16_1)

/-- After the stretch the 128-wide accumulator holds the segment sum of the entry valuation's edge output. -/
theorem v22_eq : StableHlo.after hostOps1 W main_v22 = seg128 W := by
  show StableHlo.after hostOps1 W (Proc.devRef .tc main_v22) = _
  open StableHlo in after_results

/-- After the stretch the 3-wide accumulator holds the segment sum of the entry valuation's second edge output. -/
theorem v19_eq : StableHlo.after hostOps1 W main_v19 = seg3 W := by
  show StableHlo.after hostOps1 W (Proc.devRef .tc main_v19) = _
  open StableHlo in after_results

/-- After the stretch the nine-column array is the two coordinate arguments and the 3-wide segment sum side by side. -/
theorem v23_eq : StableHlo.after hostOps1 W main_v23
    = concatenate S50000x9 1 [⟨S50000x3, W main_arg2⟩, ⟨S50000x3, W main_arg1⟩, ⟨S50000x3, seg3 W⟩]
        concatenates_S50000x3_S50000x3_S50000x3_S50000x9_d1 := by
  show StableHlo.after hostOps1 W (Proc.devRef .tc main_v23) = _
  simp only [StableHlo.after_cons, StableHlo.after_nil]
  rw [StableHlo.unary_result_ne]; rotate_left; decide
  rw [StableHlo.nary3_result]
  repeat (first
    | rw [StableHlo.nullary_result] | rw [StableHlo.unary_result] | rw [StableHlo.ternary_result]
    | (rw [StableHlo.nullary_result_ne]; rotate_left; decide)
    | (rw [StableHlo.unary_result_ne]; rotate_left; decide)
    | (rw [StableHlo.ternary_result_ne]; rotate_left; decide))
  rfl

/-- Columns 0, 1, 2 of the nine-column array after the stretch are the first coordinate argument's. -/
theorem v23_apply_0 (n : Fin 50000) (b : Fin 3) :
    StableHlo.after hostOps1 W main_v23 (ix2 n (⟨b.val, by have := b.isLt; omega⟩ : Fin 9)) = W main_arg2 (ix2 n b) := by
  rw [v23_eq]; exact concat3_apply_0 _ _ _ _ n b

/-- Columns 3, 4, 5 of the nine-column array after the stretch are the second coordinate argument's. -/
theorem v23_apply_1 (n : Fin 50000) (b : Fin 3) :
    StableHlo.after hostOps1 W main_v23 (ix2 n (⟨b.val + 3, by have := b.isLt; omega⟩ : Fin 9)) = W main_arg1 (ix2 n b) := by
  rw [v23_eq]; exact concat3_apply_1 _ _ _ _ n b

/-- Columns 6, 7, 8 of the nine-column array after the stretch are the 3-wide segment sum's. -/
theorem v23_apply_2 (n : Fin 50000) (b : Fin 3) :
    StableHlo.after hostOps1 W main_v23 (ix2 n (⟨b.val + 6, by have := b.isLt; omega⟩ : Fin 9)) = seg3 W (ix2 n b) := by
  rw [v23_eq]; exact concat3_apply_2 _ _ _ _ n b

/-- After the stretch the transposed weight row holds the weight column: entry (0, k) is the column's entry (k, 0). -/
theorem v24_apply (k : Fin 128) :
    StableHlo.after hostOps1 W main_v24 (ix2 (0 : Fin 1) k) = W main_arg14 (ix2 k (0 : Fin 1)) := by
  have e : StableHlo.after hostOps1 W main_v24
      = transpose S1x128 [1, 0] (W main_arg14) transposes_S128x1_S1x128_1_0 := by
    show StableHlo.after hostOps1 W (Proc.devRef .tc main_v24) = _
    open StableHlo in after_results
  rw [e]; exact transpose_ix2_apply _ _ 0 k

/-- A reference the stretch does not write holds after it what it held at entry. -/
theorem keep (r : Ref sig .tc) (h : r ∉ hostOps1_W) :
    StableHlo.after hostOps1 W (Proc.devRef .tc r) = W (Proc.devRef .tc r) :=
  StableHlo.after_of_writes_sub hostOps1 W hostOps1_writes h

end Cert.KernelIdeal.Val.H1
-- ==== Proof.RefNode.lean ====
/-
  The reference program's two results, each read at one entry as the specification's row function, over the extended
  reals (the exact instance).

  Feature result.  h_out[n, j] = Σ_k silu (Σ_{l<256} [h | m_i][n, l] · W_n1[l, k] + b_n1[k]) · W_n2[k, j] + b_n2[j], where
  [h | m_i] is the concatenation of the node features h with the aggregated messages m_i along the columns. Row n of the
  concatenation is the row of h followed by the row of m_i, so the entry is houtRow of those two rows.

  Coordinate result.  coord_out[n, a] = (coord[n, a] + coors_sum[n, a]) + vel[n, a] · w[n], where
  w[n] = Σ_k silu (Σ_l h[n, l] · W_v1[l, k] + b_v1[k]) · W_v2[k, 0] + b_v2[0] is one scalar per node, broadcast over the
  three coordinates; the 128 x 1 matrix W_v2 is read as a 1 x 128 row. The entry is coutRow of the node's rows.

  The two aggregations (m_i and coors_sum, sums over the edges that end at the node) are not opened here: they appear in
  the statements as they stand, read at row n.

  silu is written in the program as x · (1 / (1 + e^(−x))) with the constant 1.0; that is x · logistic x.
  Every step below is a reading of one operation at an index; the only algebra is congruence under + and Σ.
-/
import proofs.«413287_j91122026152067_3_alg».proof.Proof.Gen.ReferenceIdeal.Read
import proofs.«413287_j91122026152067_3_alg».proof.Proof.Spec
import proofs.«413287_j91122026152067_3_alg».proof.Proof.SpecLayout
import Idealize.ShloMosaic.Lib.Pipeline.Value
import Idealize.ShloMosaic.Lib.ValueIdx
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.ValueIdx

/-! ## x · logistic x, as the reference program spells it -/

/-- The single-precision pattern of 1.0 denotes the number one. -/
theorem one_f32 : Ideal.ofBits .f32 0x3F800000#32 = 1 := IdealRules.sign_bit.ideal_onePat .f32

/-- y · (1 / (1 + e^(−y))), with both ones written as the pattern of 1.0, is y · logistic y. -/
theorem mul_logistic_expansion (y : EReal) :
    y * Ideal.div (Ideal.ofBits .f32 0x3F800000#32) (Ideal.ofBits .f32 0x3F800000#32 + Ideal.exp (-y)) = EgnnSpec.silu y := by
  rw [one_f32]; rfl

/-! ## A row of [x | y] -/

/-- Two 50000 x 128 arrays joined along the columns, read at row n and column l: the row of the first at l below 128,
    the row of the second at l − 128 from there on. -/
theorem cat_apply (h : Shape.Concatenates [S50000x128, S50000x128] S50000x256 1)
    (x y : S50000x128.Idx → EReal) (n : Fin 50000) (l : Fin 256) :
    concatenate S50000x256 1 [⟨S50000x128, x⟩, ⟨S50000x128, y⟩] h (ix2 n l)
      = EgnnSpec.cat2 (fun l => x (ix2 n l)) (fun l => y (ix2 n l)) l := by
  unfold EgnnSpec.cat2
  split
  · next hl =>
    exact concatenate_pair_apply_left (1 : Fin 2) x y h (ix2 n l) rfl (ix2 n ⟨l.val, hl⟩)
      (fun b => match b with | ⟨0, _⟩ => rfl | ⟨1, _⟩ => rfl)
  · next hl =>
    exact concatenate_pair_apply_right (1 : Fin 2) x y h (ix2 n l) rfl rfl (ix2 n ⟨l.val - 128, by omega⟩)
      (fun b hb => match b with | ⟨0, _⟩ => rfl | ⟨1, _⟩ => absurd rfl hb)
      (by show (l.val - 128) + 128 = l.val; omega)

/-- The 128 x 1 column read as a row: entry k of the row is entry k of the column. -/
theorem colRow_ix (w : (⟨2, ![128, 1]⟩ : Shape).Idx → EReal) (k : Fin 128) :
    EgnnSpec.colRow w (ix2 (0 : Fin 1) k) = w (ix2 k (0 : Fin 1)) := rfl

/-! ## The stages' index functions at an index given by its coordinates

Each contraction reads its left operand along row n and its right operand down one column; each bias is broadcast along
the rows. -/

theorem lidx66_ix (n : Fin 50000) (k l : Fin 128) : lidx_main_v66 (ix2 n k) l = ix2 n l :=
  funext fun a => match a with | ⟨0, _⟩ => rfl | ⟨1, _⟩ => rfl
theorem ridx66_ix (n : Fin 50000) (k l : Fin 128) : ridx_main_v66 (ix2 n k) l = ix2 l k :=
  funext fun a => match a with | ⟨0, _⟩ => rfl | ⟨1, _⟩ => rfl
theorem lidx71_ix (n : Fin 50000) (k : Fin 128) : lidx_main_v71 (ix2 n (0 : Fin 1)) k = ix2 n k :=
  funext fun a => match a with | ⟨0, _⟩ => rfl | ⟨1, _⟩ => rfl
theorem ridx71_ix (n : Fin 50000) (k : Fin 128) : ridx_main_v71 (ix2 n (0 : Fin 1)) k = ix2 k (0 : Fin 1) :=
  funext fun a => match a with | ⟨0, _⟩ => rfl | ⟨1, _⟩ => rfl
theorem idx76_ix (n : Fin 50000) (a : Fin 3) : idx_main_v76 (ix2 n a) = ix2 n (0 : Fin 1) :=
  funext fun d => match d with | ⟨0, _⟩ => rfl | ⟨1, _⟩ => rfl
theorem lidx83_ix (n : Fin 50000) (k : Fin 128) (l : Fin 256) : lidx_main_v83 (ix2 n k) l = ix2 n l :=
  funext fun a => match a with | ⟨0, _⟩ => rfl | ⟨1, _⟩ => rfl
theorem ridx83_ix (n : Fin 50000) (k : Fin 128) (l : Fin 256) : ridx_main_v83 (ix2 n k) l = ix2 l k :=
  funext fun a => match a with | ⟨0, _⟩ => rfl | ⟨1, _⟩ => rfl
theorem lidx88_ix (n : Fin 50000) (j k : Fin 128) : lidx_main_v88 (ix2 n j) k = ix2 n k :=
  funext fun a => match a with | ⟨0, _⟩ => rfl | ⟨1, _⟩ => rfl
theorem ridx88_ix (n : Fin 50000) (j k : Fin 128) : ridx_main_v88 (ix2 n j) k = ix2 k j :=
  funext fun a => match a with | ⟨0, _⟩ => rfl | ⟨1, _⟩ => rfl

/-! ## The coordinate result -/

/-- The velocity network's first bias, broadcast over the nodes. -/
theorem v68_ix (x13 : (⟨S128, .f32⟩ : BufTy).Contents (Elt Ideal)) (n : Fin 50000) (k : Fin 128) :
    val_main_v68 (F := Ideal) x13 (ix2 n k) = x13 (ix1 k) := by
  rw [val_main_v68_apply, val_main_v67_apply]
  exact congrArg x13 (funext fun a => match a with | ⟨0, _⟩ => rfl)

/-- h @ W_v1 at node n and hidden unit k. -/
theorem v66_ix (x0 : (⟨S50000x128, .f32⟩ : BufTy).Contents (Elt Ideal)) (x12 : (⟨S128x128, .f32⟩ : BufTy).Contents (Elt Ideal)) (n : Fin 50000) (k : Fin 128) :
    val_main_v66 (F := Ideal) x0 x12 (ix2 n k) = ∑ l : Fin 128, x0 (ix2 n l) * x12 (ix2 l k) := by
  rw [val_main_v66_apply]
  refine Finset.sum_congr rfl fun l _ => ?_
  rw [lidx66_ix, ridx66_ix]

theorem v69_ix (x0 : (⟨S50000x128, .f32⟩ : BufTy).Contents (Elt Ideal)) (x12 : (⟨S128x128, .f32⟩ : BufTy).Contents (Elt Ideal)) (x13 : (⟨S128, .f32⟩ : BufTy).Contents (Elt Ideal)) (n : Fin 50000) (k : Fin 128) :
    val_main_v69 (F := Ideal) x0 x12 x13 (ix2 n k) = (∑ l : Fin 128, x0 (ix2 n l) * x12 (ix2 l k)) + x13 (ix1 k) := by
  rw [val_main_v69_apply, v66_ix, v68_ix]
  rfl

/-- The inlined silu call after the velocity network's first layer. -/
theorem v70_silu (x0 : (⟨S50000x128, .f32⟩ : BufTy).Contents (Elt Ideal)) (x12 : (⟨S128x128, .f32⟩ : BufTy).Contents (Elt Ideal)) (x13 : (⟨S128, .f32⟩ : BufTy).Contents (Elt Ideal)) (p : S50000x128.Idx) :
    val_main_v70 (F := Ideal) x0 x12 x13 p = EgnnSpec.silu (val_main_v69 (F := Ideal) x0 x12 x13 p) := by
  rw [val_main_v70_apply, val_main_call3_v5_apply, val_main_call3_v4_apply, val_main_call3_cst_0_apply,
    val_main_call3_v3_apply, val_main_call3_v2_apply, val_main_call3_cst_apply, val_main_call3_v1_apply,
    val_main_call3_v0_apply]
  generalize val_main_v69 (F := Ideal) x0 x12 x13 p = y
  exact mul_logistic_expansion y

/-- silu (h @ W_v1 + b_v1) @ W_v2 at node n: the sum against the column of W_v2, read as a row. -/
theorem v71_ix (x0 : (⟨S50000x128, .f32⟩ : BufTy).Contents (Elt Ideal)) (x12 : (⟨S128x128, .f32⟩ : BufTy).Contents (Elt Ideal)) (x13 : (⟨S128, .f32⟩ : BufTy).Contents (Elt Ideal)) (x14 : (⟨S128x1, .f32⟩ : BufTy).Contents (Elt Ideal)) (n : Fin 50000) :
    val_main_v71 (F := Ideal) x0 x12 x13 x14 (ix2 n (0 : Fin 1))
      = ∑ k : Fin 128, EgnnSpec.silu ((∑ l : Fin 128, x0 (ix2 n l) * x12 (ix2 l k)) + x13 (ix1 k))
          * EgnnSpec.colRow x14 (ix2 (0 : Fin 1) k) := by
  rw [val_main_v71_apply]
  refine Finset.sum_congr rfl fun k _ => ?_
  rw [lidx71_ix, ridx71_ix, v70_silu, v69_ix, colRow_ix]

/-- The velocity network's last bias, broadcast over the nodes. -/
theorem v73_ix (x15 : (⟨S1, .f32⟩ : BufTy).Contents (Elt Ideal)) (p : S50000x1.Idx) :
    val_main_v73 (F := Ideal) x15 p = x15 (ix1 (0 : Fin 1)) := by
  rw [val_main_v73_apply, val_main_v72_apply]
  exact congrArg x15 (funext fun a => match a with | ⟨0, _⟩ => rfl)

/-- vel_weights at node n is the scalar network of the node's features. -/
theorem v74_ix (x0 : (⟨S50000x128, .f32⟩ : BufTy).Contents (Elt Ideal)) (x12 : (⟨S128x128, .f32⟩ : BufTy).Contents (Elt Ideal)) (x13 : (⟨S128, .f32⟩ : BufTy).Contents (Elt Ideal)) (x14 : (⟨S128x1, .f32⟩ : BufTy).Contents (Elt Ideal)) (x15 : (⟨S1, .f32⟩ : BufTy).Contents (Elt Ideal)) (n : Fin 50000) :
    val_main_v74 (F := Ideal) x0 x12 x13 x14 x15 (ix2 n (0 : Fin 1))
      = EgnnSpec.scalarNet (fun l => x0 (ix2 n l)) x12 x13 (EgnnSpec.colRow x14) x15 := by
  rw [val_main_v74_apply, v71_ix, v73_ix]
  rfl

/-- The coordinate result at node n and coordinate a: (coord + coors_sum) + vel · vel_weights. -/
theorem cout_ref_apply (x0 : (⟨S50000x128, .f32⟩ : BufTy).Contents (Elt Ideal)) (x1 : (⟨S50000x3, .f32⟩ : BufTy).Contents (Elt Ideal)) (x2 : (⟨S50000x3, .f32⟩ : BufTy).Contents (Elt Ideal)) (x3 : (⟨S2x500000, .i32⟩ : BufTy).Contents (Elt Ideal)) (x4 : (⟨S257x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) (x12 : (⟨S128x128, .f32⟩ : BufTy).Contents (Elt Ideal)) (x13 : (⟨S128, .f32⟩ : BufTy).Contents (Elt Ideal)) (x14 : (⟨S128x1, .f32⟩ : BufTy).Contents (Elt Ideal)) (x15 : (⟨S1, .f32⟩ : BufTy).Contents (Elt Ideal)) (n : Fin 50000) (a : Fin 3) :
    val_main_v78 (F := Ideal) x0 x1 x2 x3 x4 x5 x6 x7 x8 x9 x10 x11 x12 x13 x14 x15 (ix2 n a)
      = EgnnSpec.coutRow (fun b => x2 (ix2 n b)) (fun b => x1 (ix2 n b))
          (fun b => val_main_v65 (F := Ideal) x0 x1 x3 x4 x5 x6 x7 x8 x9 x10 x11 (ix2 n b)) (fun l => x0 (ix2 n l))
          x12 x13 (EgnnSpec.colRow x14) x15 a := by
  rw [val_main_v78_apply, val_main_v75_apply, val_main_v77_apply, val_main_v76_apply, idx76_ix, v74_ix]
  rfl

/-! ## The feature result -/

/-- [h | m_i] at node n and column l. -/
theorem v82_ix (x0 : (⟨S50000x128, .f32⟩ : BufTy).Contents (Elt Ideal)) (x1 : (⟨S50000x3, .f32⟩ : BufTy).Contents (Elt Ideal)) (x3 : (⟨S2x500000, .i32⟩ : BufTy).Contents (Elt Ideal)) (x4 : (⟨S257x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (n : Fin 50000) (l : Fin 256) :
    val_main_v82 (F := Ideal) x0 x1 x3 x4 x5 x6 x7 (ix2 n l) = EgnnSpec.cat2 (fun l => x0 (ix2 n l)) (fun l => val_main_v81 (F := Ideal) x0 x1 x3 x4 x5 x6 x7 (ix2 n l)) l := by
  unfold val_main_v82
  generalize val_main_v81 (F := Ideal) x0 x1 x3 x4 x5 x6 x7 = y
  exact cat_apply concatenates_S50000x128_S50000x128_S50000x256_d1 x0 y n l

/-- [h | m_i] @ W_n1 at node n and hidden unit k. -/
theorem v83_ix (x0 : (⟨S50000x128, .f32⟩ : BufTy).Contents (Elt Ideal)) (x1 : (⟨S50000x3, .f32⟩ : BufTy).Contents (Elt Ideal)) (x3 : (⟨S2x500000, .i32⟩ : BufTy).Contents (Elt Ideal)) (x4 : (⟨S257x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x16 : (⟨S256x128, .f32⟩ : BufTy).Contents (Elt Ideal)) (n : Fin 50000) (k : Fin 128) :
    val_main_v83 (F := Ideal) x0 x1 x3 x4 x5 x6 x7 x16 (ix2 n k) = ∑ l : Fin 256, EgnnSpec.cat2 (fun l => x0 (ix2 n l)) (fun l => val_main_v81 (F := Ideal) x0 x1 x3 x4 x5 x6 x7 (ix2 n l)) l * x16 (ix2 l k) := by
  rw [val_main_v83_apply]
  refine Finset.sum_congr rfl fun l _ => ?_
  rw [lidx83_ix, ridx83_ix, v82_ix]

/-- The node network's first bias, broadcast over the nodes. -/
theorem v85_ix (x17 : (⟨S128, .f32⟩ : BufTy).Contents (Elt Ideal)) (n : Fin 50000) (k : Fin 128) :
    val_main_v85 (F := Ideal) x17 (ix2 n k) = x17 (ix1 k) := by
  rw [val_main_v85_apply, val_main_v84_apply]
  exact congrArg x17 (funext fun a => match a with | ⟨0, _⟩ => rfl)

theorem v86_ix (x0 : (⟨S50000x128, .f32⟩ : BufTy).Contents (Elt Ideal)) (x1 : (⟨S50000x3, .f32⟩ : BufTy).Contents (Elt Ideal)) (x3 : (⟨S2x500000, .i32⟩ : BufTy).Contents (Elt Ideal)) (x4 : (⟨S257x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x16 : (⟨S256x128, .f32⟩ : BufTy).Contents (Elt Ideal)) (x17 : (⟨S128, .f32⟩ : BufTy).Contents (Elt Ideal)) (n : Fin 50000) (k : Fin 128) :
    val_main_v86 (F := Ideal) x0 x1 x3 x4 x5 x6 x7 x16 x17 (ix2 n k)
      = (∑ l : Fin 256, EgnnSpec.cat2 (fun l => x0 (ix2 n l)) (fun l => val_main_v81 (F := Ideal) x0 x1 x3 x4 x5 x6 x7 (ix2 n l)) l * x16 (ix2 l k)) + x17 (ix1 k) := by
  rw [val_main_v86_apply, v83_ix, v85_ix]
  rfl

/-- The inlined silu call after the node network's first layer. -/
theorem v87_silu (x0 : (⟨S50000x128, .f32⟩ : BufTy).Contents (Elt Ideal)) (x1 : (⟨S50000x3, .f32⟩ : BufTy).Contents (Elt Ideal)) (x3 : (⟨S2x500000, .i32⟩ : BufTy).Contents (Elt Ideal)) (x4 : (⟨S257x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x16 : (⟨S256x128, .f32⟩ : BufTy).Contents (Elt Ideal)) (x17 : (⟨S128, .f32⟩ : BufTy).Contents (Elt Ideal)) (p : S50000x128.Idx) :
    val_main_v87 (F := Ideal) x0 x1 x3 x4 x5 x6 x7 x16 x17 p = EgnnSpec.silu (val_main_v86 (F := Ideal) x0 x1 x3 x4 x5 x6 x7 x16 x17 p) := by
  rw [val_main_v87_apply, val_main_call4_v5_apply, val_main_call4_v4_apply, val_main_call4_cst_0_apply,
    val_main_call4_v3_apply, val_main_call4_v2_apply, val_main_call4_cst_apply, val_main_call4_v1_apply,
    val_main_call4_v0_apply]
  generalize val_main_v86 (F := Ideal) x0 x1 x3 x4 x5 x6 x7 x16 x17 p = y
  exact mul_logistic_expansion y

/-- silu ([h | m_i] @ W_n1 + b_n1) @ W_n2 at node n and feature j. -/
theorem v88_ix (x0 : (⟨S50000x128, .f32⟩ : BufTy).Contents (Elt Ideal)) (x1 : (⟨S50000x3, .f32⟩ : BufTy).Contents (Elt Ideal)) (x3 : (⟨S2x500000, .i32⟩ : BufTy).Contents (Elt Ideal)) (x4 : (⟨S257x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x16 : (⟨S256x128, .f32⟩ : BufTy).Contents (Elt Ideal)) (x17 : (⟨S128, .f32⟩ : BufTy).Contents (Elt Ideal)) (x18 : (⟨S128x128, .f32⟩ : BufTy).Contents (Elt Ideal)) (n : Fin 50000) (j : Fin 128) :
    val_main_v88 (F := Ideal) x0 x1 x3 x4 x5 x6 x7 x16 x17 x18 (ix2 n j)
      = ∑ k : Fin 128, EgnnSpec.silu ((∑ l : Fin 256, EgnnSpec.cat2 (fun l => x0 (ix2 n l)) (fun l => val_main_v81 (F := Ideal) x0 x1 x3 x4 x5 x6 x7 (ix2 n l)) l * x16 (ix2 l k)) + x17 (ix1 k))
          * x18 (ix2 k j) := by
  rw [val_main_v88_apply]
  refine Finset.sum_congr rfl fun k _ => ?_
  rw [lidx88_ix, ridx88_ix, v87_silu, v86_ix]

/-- The node network's last bias, broadcast over the nodes. -/
theorem v90_ix (x19 : (⟨S128, .f32⟩ : BufTy).Contents (Elt Ideal)) (n : Fin 50000) (j : Fin 128) :
    val_main_v90 (F := Ideal) x19 (ix2 n j) = x19 (ix1 j) := by
  rw [val_main_v90_apply, val_main_v89_apply]
  exact congrArg x19 (funext fun a => match a with | ⟨0, _⟩ => rfl)

/-- The feature result at node n and feature j: silu ([h | m_i] @ W_n1 + b_n1) @ W_n2 + b_n2. -/
theorem hout_ref_apply (x0 : (⟨S50000x128, .f32⟩ : BufTy).Contents (Elt Ideal)) (x1 : (⟨S50000x3, .f32⟩ : BufTy).Contents (Elt Ideal)) (x3 : (⟨S2x500000, .i32⟩ : BufTy).Contents (Elt Ideal)) (x4 : (⟨S257x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x16 : (⟨S256x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (n : Fin 50000) (j : Fin 128) :
    val_main_v91 (F := Ideal) x0 x1 x3 x4 x5 x6 x7 x16 x17 x18 x19 (ix2 n j) = EgnnSpec.houtRow (fun l => x0 (ix2 n l)) (fun l => val_main_v81 (F := Ideal) x0 x1 x3 x4 x5 x6 x7 (ix2 n l)) x16 x17 x18 x19 j := by
  rw [val_main_v91_apply, v88_ix, v90_ix]
  rfl

end Cert.ReferenceIdeal.RefVal

end
-- ==== Proof.Bridge.lean ====
/-
  The bridge, node half: the two arrays the node kernel leaves are the reference's two result stages of the same argument arrays.
  Entry by entry both sides are one row function of the spec: the kernel's through the blocks each grid point writes back
  and the host operations around the two kernels, the reference's through its operations read one at a time. The gathers
  and the two segment sums are the same library operations applied to the same index arrays on both sides and stay
  unopened; under the index-range precondition the kernel's range mask is all ones, so its guarded gathers are the
  reference's bare ones.
-/
import proofs.«413287_j91122026152067_3_alg».proof.Proof.KResults
import proofs.«413287_j91122026152067_3_alg».proof.Proof.Blocks1
import proofs.«413287_j91122026152067_3_alg».proof.Proof.BridgeEdge
import proofs.«413287_j91122026152067_3_alg».proof.Proof.HostVals1
import proofs.«413287_j91122026152067_3_alg».proof.Proof.RefNode
import proofs.«413287_j91122026152067_3_alg».proof.Proof.Gen.ReferenceIdeal.Read

set_option maxRecDepth 16384

noncomputable section

namespace Cert.Proof.Bridge

open Cert.KernelIdeal Cert.KernelIdeal.Gen Cert.KernelIdeal.Hand EgnnSpec
open Idealize.ShloMosaic Idealize.ShloMosaic.TcCoe Idealize.ShloMosaic.ValueIdx

variable (m : (ℓ : Loc nD τ sig) → Buf (Elt Ideal) ℓ) (c : Dev nD)

/-! ## The entry arrays of the node kernel that no operation between launch and that kernel writes -/

theorem e1_arg0 : E1 m c main_arg0 = (m ((c.tc : Thread nD τ).loc main_arg0)) :=
  W8_keep m c main_arg0 (by decide) (by decide) (by decide) (by decide) (by decide) (by decide) (by decide) (by decide) (by decide)
theorem e1_arg12 : E1 m c main_arg12 = (m ((c.tc : Thread nD τ).loc main_arg12)) :=
  W8_keep m c main_arg12 (by decide) (by decide) (by decide) (by decide) (by decide) (by decide) (by decide) (by decide) (by decide)
theorem e1_arg13 : E1 m c main_arg13 = (m ((c.tc : Thread nD τ).loc main_arg13)) :=
  W8_keep m c main_arg13 (by decide) (by decide) (by decide) (by decide) (by decide) (by decide) (by decide) (by decide) (by decide)
theorem e1_arg15 : E1 m c main_arg15 = (m ((c.tc : Thread nD τ).loc main_arg15)) :=
  W8_keep m c main_arg15 (by decide) (by decide) (by decide) (by decide) (by decide) (by decide) (by decide) (by decide) (by decide)
theorem e1_arg16 : E1 m c main_arg16 = (m ((c.tc : Thread nD τ).loc main_arg16)) :=
  W8_keep m c main_arg16 (by decide) (by decide) (by decide) (by decide) (by decide) (by decide) (by decide) (by decide) (by decide)
theorem e1_arg17 : E1 m c main_arg17 = (m ((c.tc : Thread nD τ).loc main_arg17)) :=
  W8_keep m c main_arg17 (by decide) (by decide) (by decide) (by decide) (by decide) (by decide) (by decide) (by decide) (by decide)
theorem e1_arg18 : E1 m c main_arg18 = (m ((c.tc : Thread nD τ).loc main_arg18)) :=
  W8_keep m c main_arg18 (by decide) (by decide) (by decide) (by decide) (by decide) (by decide) (by decide) (by decide) (by decide)
theorem e1_arg19 : E1 m c main_arg19 = (m ((c.tc : Thread nD τ).loc main_arg19)) :=
  W8_keep m c main_arg19 (by decide) (by decide) (by decide) (by decide) (by decide) (by decide) (by decide) (by decide) (by decide)

/-- An argument the edge kernel does not write still holds its launch contents when that kernel is left. -/
theorem w7_arg (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (ho0 : r ≠ main_v16_0) (ho1 : r ≠ main_v16_1) :
    W7 m c (Proc.devRef .tc r) = m ((c.tc : Thread nD τ).loc r) :=
  (X7_keep m c r ho0 ho1).trans (W6_keep m c r h0 h1 h2 h3 h4 h5)

/-! ## The index row and the edge kernel's two outputs at the node kernel's side -/

/-- The receiving-node row when the edge kernel is left is the reference's: row 0 of the index argument, reshaped. -/
theorem w7_v1 : W7 m c (Proc.devRef .tc main_v1) = Cert.ReferenceIdeal.Read.val_main_v1 (F := Ideal) (m ((c.tc : Thread nD τ).loc main_arg3)) := by
  rw [W7_of_ne m c main_v1 (by decide)]
  show V6 m c (Proc.devRef .tc main_v1) = _
  rw [V6_of m c main_v1 (by decide), V5_of m c main_v1 (by decide), V4_of m c main_v1 (by decide),
    V3_of m c main_v1 (by decide), V2_of m c main_v1 (by decide)]
  show StableHlo.after hostOps0 (V0 m c) (Proc.devRef .tc main_v1) = _
  open StableHlo in after_results
  unfold Cert.ReferenceIdeal.Read.val_main_v1 Cert.ReferenceIdeal.Read.val_main_v0
  rfl

/-- The edge kernel's message array, where the second stretch reads it, is the reference's message stage. -/
theorem w7_v16_0 (hok : IdxOk (m ((c.tc : Thread nD τ).loc main_arg3))) :
    W7 m c (Proc.devRef .tc main_v16_0) = Cert.ReferenceIdeal.Read.val_main_v51 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W7_arr m c 12).trans (mij_eq m c hok)

/-- The edge kernel's weighted-direction array, where the second stretch reads it, is the reference's stage. -/
theorem w7_v16_1 (hok : IdxOk (m ((c.tc : Thread nD τ).loc main_arg3))) :
    W7 m c (Proc.devRef .tc main_v16_1) = Cert.ReferenceIdeal.Read.val_main_v62 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (W7_arr m c 13).trans (wd_eq m c hok)

/-! ## The two segment sums are the reference's -/

/-- The aggregated message array: the same scatter-addition of the same message array along the same index column into
    the same zero array as the reference's. -/
theorem seg128_val (hok : IdxOk (m ((c.tc : Thread nD τ).loc main_arg3))) :
    Cert.KernelIdeal.Val.H1.seg128 (W7 m c) = Cert.ReferenceIdeal.Read.val_main_v81 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.KernelIdeal.Val.H1.seg128 Cert.KernelIdeal.Val.H1.idxCol
  rw [w7_v1 m c, w7_v16_0 m c hok]
  unfold Cert.ReferenceIdeal.Read.val_main_v81 Cert.ReferenceIdeal.Read.val_main_v79 Cert.ReferenceIdeal.Read.val_main_v80 Cert.ReferenceIdeal.Read.val_main_cst_9
  rfl

/-- The aggregated direction array: likewise the reference's scatter-addition of the weighted directions. -/
theorem seg3_val (hok : IdxOk (m ((c.tc : Thread nD τ).loc main_arg3))) :
    Cert.KernelIdeal.Val.H1.seg3 (W7 m c) = Cert.ReferenceIdeal.Read.val_main_v65 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.KernelIdeal.Val.H1.seg3 Cert.KernelIdeal.Val.H1.idxCol
  rw [w7_v1 m c, w7_v16_1 m c hok]
  unfold Cert.ReferenceIdeal.Read.val_main_v65 Cert.ReferenceIdeal.Read.val_main_v63 Cert.ReferenceIdeal.Read.val_main_v64 Cert.ReferenceIdeal.Read.val_main_cst_8
  rfl

/-- The aggregated message array the node kernel reads is the reference's. -/
theorem e1_v22 (hok : IdxOk (m ((c.tc : Thread nD τ).loc main_arg3))) :
    E1 m c main_v22 = Cert.ReferenceIdeal.Read.val_main_v81 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (Cert.KernelIdeal.Val.H1.v22_eq (W7 m c)).trans (seg128_val m c hok)

/-! ## The packed coordinate array and the transposed weight row -/

/-- Columns 0-2 of the packed array the node kernel reads are the velocity argument's. -/
theorem e1_v23_0 (n : Fin 50000) :
    (fun b : Fin 3 => E1 m c main_v23 (ix2 n (⟨b.val, by omega⟩ : Fin 9))) = fun b => (m ((c.tc : Thread nD τ).loc main_arg2)) (ix2 n b) :=
  funext fun b => (Cert.KernelIdeal.Val.H1.v23_apply_0 (W7 m c) n b).trans
    (congrFun (w7_arg m c main_arg2 (by decide) (by decide) (by decide) (by decide) (by decide) (by decide) (by decide) (by decide)) (ix2 n b))

/-- Columns 3-5 are the position argument's. -/
theorem e1_v23_1 (n : Fin 50000) :
    (fun b : Fin 3 => E1 m c main_v23 (ix2 n (⟨b.val + 3, by omega⟩ : Fin 9))) = fun b => (m ((c.tc : Thread nD τ).loc main_arg1)) (ix2 n b) :=
  funext fun b => (Cert.KernelIdeal.Val.H1.v23_apply_1 (W7 m c) n b).trans
    (congrFun (w7_arg m c main_arg1 (by decide) (by decide) (by decide) (by decide) (by decide) (by decide) (by decide) (by decide)) (ix2 n b))

/-- Columns 6-8 are the reference's aggregated direction. -/
theorem e1_v23_2 (hok : IdxOk (m ((c.tc : Thread nD τ).loc main_arg3))) (n : Fin 50000) :
    (fun b : Fin 3 => E1 m c main_v23 (ix2 n (⟨b.val + 6, by omega⟩ : Fin 9)))
      = fun b => Cert.ReferenceIdeal.Read.val_main_v65 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix2 n b) :=
  funext fun b => (Cert.KernelIdeal.Val.H1.v23_apply_2 (W7 m c) n b).trans (congrFun (seg3_val m c hok) (ix2 n b))

/-- The transposed weight row the node kernel reads is the weight column argument laid out as a row. -/
theorem e1_v24 : E1 m c main_v24 = colRow (m ((c.tc : Thread nD τ).loc main_arg14)) := by
  refine funext fun (i : (⟨2, ![1, 128]⟩ : Shape).Idx) => ?_
  obtain ⟨z, k, rfl⟩ : ∃ (z : Fin 1) (k : Fin 128), i = ix2 z k := ⟨i 0, i 1, eq_ix2 i⟩
  obtain rfl : z = 0 := Subsingleton.elim _ _
  refine (Cert.KernelIdeal.Val.H1.v24_apply (W7 m c) k).trans ?_
  rw [w7_arg m c main_arg14 (by decide) (by decide) (by decide) (by decide) (by decide) (by decide) (by decide) (by decide)]
  rfl

/-- The feature array the node kernel leaves is the reference's feature result of the same arguments. -/
theorem hout_eq (hok : IdxOk (m ((c.tc : Thread nD τ).loc main_arg3))) :
    (dat1 (F := Ideal) (E1 m) c).arrAt 12 cfg1.N
      = Cert.ReferenceIdeal.Read.val_main_v91 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg16)) (m ((c.tc : Thread nD τ).loc main_arg17)) (m ((c.tc : Thread nD τ).loc main_arg18)) (m ((c.tc : Thread nD τ).loc main_arg19)) := by
  refine funext fun i => ?_
  obtain ⟨n, j, rfl⟩ : ∃ (n : Fin 50000) (j : Fin 128), i = ix2 n j := ⟨i 0, i 1, eq_ix2 i⟩
  refine (Cert.KernelIdeal.Val.hout_apply (E1 m) c n j).trans ?_
  rw [Cert.ReferenceIdeal.RefVal.hout_ref_apply,
    e1_arg0 m c, e1_v22 m c hok, e1_arg16 m c, e1_arg17 m c, e1_arg18 m c, e1_arg19 m c]

/-- The coordinate array the node kernel leaves is the reference's coordinate result of the same arguments. -/
theorem cout_eq (hok : IdxOk (m ((c.tc : Thread nD τ).loc main_arg3))) :
    (dat1 (F := Ideal) (E1 m) c).arrAt 11 cfg1.N
      = Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine funext fun i => ?_
  obtain ⟨n, a, rfl⟩ : ∃ (n : Fin 50000) (a : Fin 3), i = ix2 n a := ⟨i 0, i 1, eq_ix2 i⟩
  refine (Cert.KernelIdeal.Val.cout_apply (E1 m) c n a).trans ?_
  rw [Cert.ReferenceIdeal.RefVal.cout_ref_apply,
    e1_v23_0 m c n, e1_v23_1 m c n, e1_v23_2 m c hok n, e1_arg0 m c, e1_arg12 m c, e1_arg13 m c, e1_v24 m c,
    e1_arg15 m c]

end Cert.Proof.Bridge

end
-- ==== Proof.lean ====
/-
  The certificate of one E(n)-equivariant graph layer: an edge network and a node network run as two tiled kernels with
  gathers and segment sums between them, against the plain array program of the same layer.

  Frames. Each of the two kernel programs runs six stretches of host operations, the edge kernel over 125 tiles of 4000
  edges, one more stretch, and the node kernel over 25 tiles of 2000 nodes; every weakly fair execution terminates without
  a fault with every buffer at a valuation folded from the launch memory, in which no argument array is ever written. The
  reference is a straight line of host operations; its run is read back operation by operation.

  Values. Entry by entry the kernel's results and the reference's are one function of the arguments: a message is
  silu (silu ([h_r | h_c] W + rad w + b) W' + b'), the kernel summing 256 products and adding the 257th where the reference
  sums 257; the 128 -> 1 layers are lane sums against a row where the reference multiplies by a column; the gathers and
  the two segment sums are the same operations of the same index arrays on both sides. The kernel's gathers fill reads
  outside [0, 50000) with a not-a-number word where the reference's clamp, so the claim is stated where every edge index
  names a node; there the range mask is all ones and the guarded gather is the bare one.
-/
import proofs.«413287_j91122026152067_3_alg».proof.Defs
import proofs.«413287_j91122026152067_3_alg».proof.Proof.Gen.Kernel
import proofs.«413287_j91122026152067_3_alg».proof.Proof.Gen.KernelIdeal
import proofs.«413287_j91122026152067_3_alg».proof.Proof.Gen.ReferenceIdeal
import proofs.«413287_j91122026152067_3_alg».proof.Proof.Gen.ReferenceIdeal.Run
import proofs.«413287_j91122026152067_3_alg».proof.Proof.Gen.ReferenceIdeal.Read
import proofs.«413287_j91122026152067_3_alg».proof.Proof.Gen.Pre_finite_inputs
import proofs.«413287_j91122026152067_3_alg».proof.Proof.WKResults
import proofs.«413287_j91122026152067_3_alg».proof.Proof.KResults
import proofs.«413287_j91122026152067_3_alg».proof.Proof.Bridge
import Idealize.ShloMosaic.Adequacy
import Idealize.ShloMosaic.Init

set_option maxRecDepth 16384

noncomputable section

namespace Cert.Proof

open Idealize.ShloMosaic Idealize.SL.Sem

/-- The word-level program's frame, at the word-level values. -/
theorem frame_k : Cert.frame_Kernel := fun m ρ _ => Cert.Kernel.Hand.frame (F := Bits) m ρ

/-- The idealized program's frame, at the ideal values. -/
theorem frame_ki : Cert.frame_KernelIdeal := fun m ρ _ => Cert.KernelIdeal.Hand.frame (F := Ideal) m ρ

/-- The reference's frame: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Under the precondition both programs end with equal results: the kernel's two output arrays are the reference's two
    result stages of arguments that agree. -/
theorem algebraic : Cert.algebraic_KernelIdeal_ReferenceIdeal := by
  intro m ρ m' ρ' hpre hagree
  have hok : ∀ c : Dev Cert.KernelIdeal.nD,
      EgnnSpec.IdxOk (m ((c.tc : Thread Cert.KernelIdeal.nD Cert.KernelIdeal.τ).loc Cert.KernelIdeal.main_arg3)) :=
    fun c => Cert.PreDec.idxOk_of_fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19)) (hpre c)
  refine ⟨fun c => (Cert.KernelIdeal.Hand.dat1 (F := Ideal) (Cert.KernelIdeal.Hand.E1 m) c).arrAt 12 Cert.KernelIdeal.cfg1.N,
    fun c => (Cert.KernelIdeal.Hand.dat1 (F := Ideal) (Cert.KernelIdeal.Hand.E1 m) c).arrAt 11 Cert.KernelIdeal.cfg1.N,
    Cert.KernelIdeal.Hand.run_val (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v91_eq, (hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]
    exact (Cert.Proof.Bridge.hout_eq m c (hok c)).symm
  · rw [Cert.ReferenceIdeal.Read.val_main_v78_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1]
    exact (Cert.Proof.Bridge.cout_eq m c (hok c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
